-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "inv_500000" .f32 0x360637BD#32 ((1 / 500000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v84)) (v2 : (c : Dev Cert.KernelIdeal.nD) → Buf (Elt Ideal) ((c.tc : Thread Cert.KernelIdeal.nD Cert.KernelIdeal.τ).loc Cert.KernelIdeal.main_v64)) (v3 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_v67) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x500000 : Shape := ⟨2, ![2, 500000]⟩
abbrev S1x32 : Shape := ⟨2, ![1, 32]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S64x128 : Shape := ⟨2, ![64, 128]⟩
abbrev S128x4 : Shape := ⟨2, ![128, 4]⟩
abbrev S4 : Shape := ⟨1, ![4]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S64x128 : S_.BroadcastsInDim S64x128 (![] : Fin 0 → Fin S64x128.rank)
  reducesTo_S64x128_S_d0_1 : S64x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S2x500000 : S_.BroadcastsInDim S2x500000 (![] : Fin 0 → Fin S2x500000.rank)
  reducesTo_S2x500000_S_d0_1 : S2x500000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x500000 32) (main_arg15 : FVec F S128x4 .f32) (main_arg16 : FVec F S4 .f32) (main_v63 : IVec S_ 1) (main_v67 : IVec S_ 1) : IVec S_ 1 :=
  let main_v68 : IVec S_ 1 := andi main_v63 main_v67
  let main_v69 : FVec F S128x4 .f32 := Host.absf main_arg15
  let main_cst_26 : FVec F S_ .f32 := constant S_ .f32 0x7F800000#32
  let main_v70 : FVec F S128x4 .f32 := broadcastInDim S128x4 ![] bcast_S_S128x4 main_cst_26
  let main_v71 : IVec S128x4 1 := cmpf .olt main_v69 main_v70
  let main_c_27 : IVec S_ 1 := constantI S_ 1 1#1
  let main_v72 : IVec S_ 1 := (fun x v => Host.reduce IntOp.andi x v reducesTo_S128x4_S_d0_1 h_S_) main_v71 main_c_27
  let main_v73 : IVec S_ 1 := andi main_v68 main_v72
  let main_v74 : FVec F S4 .f32 := Host.absf main_arg16
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_c_30 : IVec S_ 32 := constantI S_ 32 0#32
  let main_v79 : IVec S2x500000 32 := broadcastInDim S2x500000 ![] bcast_S_S2x500000 main_c_30
  let main_v80 : IVec S2x500000 1 := cmpi .sge main_arg1 main_v79
  let main_c_31 : IVec S_ 32 := constantI S_ 32 500000#32
  let main_v81 : IVec S2x500000 32 := broadcastInDim S2x500000 ![] bcast_S_S2x500000 main_c_31
  let main_v82 : IVec S2x500000 1 := cmpi .slt main_arg1 main_v81
  let main_v83 : IVec S2x500000 1 := andi main_v80 main_v82
  let main_c_32 : IVec S_ 1 := constantI S_ 1 1#1
  let main_v84 : IVec S_ 1 := (fun x v => Host.reduce IntOp.andi x v reducesTo_S2x500000_S_d0_1 h_S_) main_v83 main_c_32
  fn_part5 (F := F) main_v78 main_v84

def fn_part3 {F : FTy → Type} [FloatOps F] (main_arg1 : IVec S2x500000 32) (main_arg12 : FVec F S16 .f32) (main_arg13 : FVec F S64x128 .f32) (main_arg14 : FVec F S128 .f32) (main_arg15 : FVec F S128x4 .f32) (main_arg16 : FVec F S4 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x500000 32) (main_arg8 : FVec F S32 .f32) (main_arg9 : FVec F S128x32 .f32) (main_arg10 : FVec F S32 .f32) (main_arg11 : FVec F S32x16 .f32) (main_arg12 : FVec F S16 .f32) (main_arg13 : FVec F S64x128 .f32) (main_arg14 : FVec F S128 .f32) (main_arg15 : FVec F S128x4 .f32) (main_arg16 : FVec F S4 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S128x32 .f32 := Host.absf main_arg9
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x16 .f32 := Host.absf main_arg11
  let main_cst_18 : FVec F S_ .f32 := constant S_ .f32 0x7F800000#32
  let main_v50 : FVec F S32x16 .f32 := broadcastInDim S32x16 ![] bcast_S_S32x16 main_cst_18
  fn_part3 (F := F) main_arg1 main_arg12 main_arg13 main_arg14 main_arg15 main_arg16 main_v48 main_v49 main_v50

def fn_part1 {F : FTy → Type} [FloatOps F] (main_arg1 : IVec S2x500000 32) (main_arg5 : FVec F S128x128 .f32) (main_arg6 : FVec F S128 .f32) (main_arg7 : FVec F S128x32 .f32) (main_arg8 : FVec F S32 .f32) (main_arg9 : FVec F S128x32 .f32) (main_arg10 : FVec F S32 .f32) (main_arg11 : FVec F S32x16 .f32) (main_arg12 : FVec F S16 .f32) (main_arg13 : FVec F S64x128 .f32) (main_arg14 : FVec F S128 .f32) (main_arg15 : FVec F S128x4 .f32) (main_arg16 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S500000x128 .f32) (main_arg1 : IVec S2x500000 32) (main_arg2 : FVec F S1x32 .f32) (main_arg3 : FVec F S128x128 .f32) (main_arg4 : FVec F S128 .f32) (main_arg5 : FVec F S128x128 .f32) (main_arg6 : FVec F S128 .f32) (main_arg7 : FVec F S128x32 .f32) (main_arg8 : FVec F S32 .f32) (main_arg9 : FVec F S128x32 .f32) (main_arg10 : FVec F S32 .f32) (main_arg11 : FVec F S32x16 .f32) (main_arg12 : FVec F S16 .f32) (main_arg13 : FVec F S64x128 .f32) (main_arg14 : FVec F S128 .f32) (main_arg15 : FVec F S128x4 .f32) (main_arg16 : FVec F S4 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S1x32 .f32 := Host.absf main_arg2
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S500000x128 : Shape := ⟨2, ![500000, 128]⟩
abbrev S2x500000 : Shape := ⟨2, ![2, 500000]⟩
abbrev S1x32 : Shape := ⟨2, ![1, 32]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S64x128 : Shape := ⟨2, ![64, 128]⟩
abbrev S128x4 : Shape := ⟨2, ![128, 4]⟩
abbrev S4 : Shape := ⟨1, ![4]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S1x128 : Shape := ⟨2, ![1, 128]⟩
abbrev S10000x128 : Shape := ⟨2, ![10000, 128]⟩
abbrev S1x16 : Shape := ⟨2, ![1, 16]⟩
abbrev S1x64 : Shape := ⟨2, ![1, 64]⟩
abbrev S1x4 : Shape := ⟨2, ![1, 4]⟩
abbrev S500000x4 : Shape := ⟨2, ![500000, 4]⟩

abbrev nBuf : Space → Nat
  | .hbm => 188
  | .vmem => 16
  | .smem => 0
  | _ => 0

abbrev hbmTy0_0 (i : Nat) : BufTy := match i % 128 with
  | 0 => ⟨S500000x128, .f32⟩
  | 1 => ⟨S2x500000, .i32⟩
  | 2 => ⟨S1x32, .f32⟩
  | 3 => ⟨S128x128, .f32⟩
  | 4 => ⟨S128, .f32⟩
  | 5 => ⟨S128x128, .f32⟩
  | 6 => ⟨S128, .f32⟩
  | 7 => ⟨S128x32, .f32⟩
  | 8 => ⟨S32, .f32⟩
  | 9 => ⟨S128x32, .f32⟩
  | 10 => ⟨S32, .f32⟩
  | 11 => ⟨S32x16, .f32⟩
  | 12 => ⟨S16, .f32⟩
  | 13 => ⟨S64x128, .f32⟩
  | 14 => ⟨S128, .f32⟩
  | 15 => ⟨S128x4, .f32⟩
  | 16 => ⟨S4, .f32⟩
  | 17 => ⟨S1x500000, .i32⟩
  | 18 => ⟨S500000, .i32⟩
  | 19 => ⟨S1x500000, .i32⟩
  | 20 => ⟨S500000, .i32⟩
  | 21 => ⟨S_, .f32⟩
  | 22 => ⟨S500000, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S_, .f32⟩
  | 32 => ⟨S500000, .f32⟩
  | 33 => ⟨S500000, .f32⟩
  | 34 => ⟨S_, .f32⟩
  | 35 => ⟨S500000, .f32⟩
  | 36 => ⟨S500000, .i1⟩
  | 37 => ⟨S500000, .f32⟩
  | 38 => ⟨S_, .f32⟩
  | 39 => ⟨S_, .f32⟩
  | 40 => ⟨S500000, .f32⟩
  | 41 => ⟨S500000, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000, .f32⟩
  | 60 => ⟨S500000, .f32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S1, .i32⟩
  | 70 => ⟨S_, .i32⟩
  | 71 => ⟨S500000x1, .i32⟩
  | 72 => ⟨S500000x1, .i1⟩
  | 73 => ⟨S1x1, .i32⟩
  | 74 => ⟨S500000x1, .i32⟩
  | 75 => ⟨S500000x1, .i1⟩
  | 76 => ⟨S500000x1, .i1⟩
  | 77 => ⟨S_, .i1⟩
  | 78 => ⟨S500000, .i1⟩
  | 79 => ⟨S500000, .f32⟩
  | 80 => ⟨S_, .f32⟩
  | 81 => ⟨S500000, .f32⟩
  | 82 => ⟨S500000, .f32⟩
  | 83 => ⟨S1x128, .f32⟩
  | 84 => ⟨S500000x128, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S1, .i32⟩
  | 94 => ⟨S_, .i32⟩
  | 95 => ⟨S500000x1, .i32⟩
  | 96 => ⟨S500000x1, .i1⟩
  | 97 => ⟨S1x1, .i32⟩
  | 98 => ⟨S500000x1, .i32⟩
  | 99 => ⟨S500000x1, .i1⟩
  | 100 => ⟨S500000x1, .i1⟩
  | 101 => ⟨S_, .i1⟩
  | 102 => ⟨S500000, .i1⟩
  | 103 => ⟨S500000x128, .f32⟩
  | 104 => ⟨S500000x128, .i1⟩
  | 105 => ⟨S_, .f32⟩
  | 106 => ⟨S500000x128, .f32⟩
  | 107 => ⟨S500000x128, .f32⟩
  | 108 => ⟨S500000x1, .f32⟩
  | 109 => ⟨S500000x128, .f32⟩
  | 110 => ⟨S500000x128, .f32⟩
  | 111 => ⟨S_, .f32⟩
  | 112 => ⟨S500000x128, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x128, .f32⟩
  | 122 => ⟨S1x128, .f32⟩
  | 123 => ⟨S500000x128, .f32⟩
  | 124 => ⟨S_, .i32⟩
  | 125 => ⟨S500000, .i32⟩
  | 126 => ⟨S500000, .i1⟩
  | 127 => ⟨S_, .i32⟩
  | _ => ⟨S500000x128, .f32⟩

abbrev hbmTy0_1 (i : Nat) : BufTy := match i % 128 with
  | 0 => ⟨S500000, .i32⟩
  | 1 => ⟨S500000, .i32⟩
  | 2 => ⟨S500000, .i32⟩
  | 3 => ⟨S500000x1, .i32⟩
  | 4 => ⟨S1, .i32⟩
  | 5 => ⟨S_, .i32⟩
  | 6 => ⟨S500000x1, .i32⟩
  | 7 => ⟨S500000x1, .i1⟩
  | 8 => ⟨S1x1, .i32⟩
  | 9 => ⟨S500000x1, .i32⟩
  | 10 => ⟨S500000x1, .i1⟩
  | 11 => ⟨S500000x1, .i1⟩
  | 12 => ⟨S_, .i1⟩
  | 13 => ⟨S500000, .i1⟩
  | 14 => ⟨S500000x128, .f32⟩
  | 15 => ⟨S500000x128, .i1⟩
  | 16 => ⟨S_, .f32⟩
  | 17 => ⟨S500000x128, .f32⟩
  | 18 => ⟨S500000x128, .f32⟩
  | 19 => ⟨S500000x1, .f32⟩
  | 20 => ⟨S500000x128, .f32⟩
  | 21 => ⟨S500000x128, .f32⟩
  | 22 => ⟨S_, .f32⟩
  | 23 => ⟨S500000x128, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S1x128, .f32⟩
  | 34 => ⟨S1x32, .f32⟩
  | 35 => ⟨S1x32, .f32⟩
  | 36 => ⟨S1x32, .f32⟩
  | 37 => ⟨S1x32, .f32⟩
  | 38 => ⟨S1x32, .f32⟩
  | 39 => ⟨S1x32, .f32⟩
  | 40 => ⟨S_, .f32⟩
  | 41 => ⟨S1x32, .f32⟩
  | 42 => ⟨S1x32, .f32⟩
  | 43 => ⟨S1x32, .f32⟩
  | 44 => ⟨S1x32, .f32⟩
  | 45 => ⟨S1x32, .f32⟩
  | 46 => ⟨S1x16, .f32⟩
  | 47 => ⟨S1x16, .f32⟩
  | 48 => ⟨S1x16, .f32⟩
  | 49 => ⟨S1x64, .f32⟩
  | 50 => ⟨S1x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S1x4, .f32⟩
  | 57 => ⟨S1x4, .f32⟩
  | 58 => ⟨S1x4, .f32⟩
  | 59 => ⟨S500000x4, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v16 : Ref sig .tc := ⟨.hbm, 41, rfl⟩
abbrev main_c_4 : Ref sig .tc := ⟨.hbm, 42, rfl⟩
abbrev main_v17 : Ref sig .tc := ⟨.hbm, 43, rfl⟩
abbrev main_v18 : Ref sig .tc := ⟨.hbm, 44, rfl⟩
abbrev main_c_5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_6 : Ref sig .tc := ⟨.hbm, 51, rfl⟩
abbrev main_v24 : Ref sig .tc := ⟨.hbm, 52, rfl⟩
abbrev main_v25 : Ref sig .tc := ⟨.hbm, 53, rfl⟩
abbrev main_c_7 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_cst_8 : Ref sig .tc := ⟨.hbm, 111, rfl⟩
abbrev main_v39 : Ref sig .tc := ⟨.hbm, 112, rfl⟩
abbrev main_c_9 : Ref sig .tc := ⟨.hbm, 113, rfl⟩
abbrev main_v40 : Ref sig .tc := ⟨.hbm, 114, rfl⟩
abbrev main_v41 : Ref sig .tc := ⟨.hbm, 115, rfl⟩
abbrev main_c_10 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_cst_11 : Ref sig .tc := ⟨.hbm, 150, rfl⟩
abbrev main_v53 : Ref sig .tc := ⟨.hbm, 151, rfl⟩
abbrev main_c_12 : Ref sig .tc := ⟨.hbm, 152, rfl⟩
abbrev main_v54 : Ref sig .tc := ⟨.hbm, 153, rfl⟩
abbrev main_v55 : Ref sig .tc := ⟨.hbm, 154, rfl⟩
abbrev main_c_13 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_cst_14 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_call4_cst : Ref sig .tc := ⟨.hbm, 181, rfl⟩
abbrev main_call4_v0 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v14 : BitVec 1 := Scalar.cmpi .eq arg0 c49_i32
  let v15 : BitVec 32 := Scalar.extui v14
  let c0_i32_7 : BitVec 32 := 0#32
  let v16 : BitVec 1 := Scalar.cmpi .ne v15 c0_i32_7
  v16

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  shapeCasts_S10000x128_S10000x128 : S10000x128.ShapeCasts S10000x128
  reduces_S10000x128_S128 : S10000x128.Reduces [0] S128
  bcast_S32_S1x32_1 : S32.BroadcastsInDim S1x32 (![1] : Fin 1 → Fin S1x32.rank)
  bcast_S_S1x32 : S_.BroadcastsInDim S1x32 (![] : Fin 0 → Fin S1x32.rank)
  bcast_S16_S1x16_1 : S16.BroadcastsInDim S1x16 (![1] : Fin 1 → Fin S1x16.rank)
  concatenates_S1x32_S1x32_S1x64_d1 : Shape.Concatenates [S1x32, S1x32] S1x64 1
  bcast_S128_S1x128_1 : S128.BroadcastsInDim S1x128 (![1] : Fin 1 → Fin S1x128.rank)
  bcast_S_S1x128 : S_.BroadcastsInDim S1x128 (![] : Fin 0 → Fin S1x128.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  scatter_S500000_S500000x1_S500000_n_0_0_1_wf : ScatterDims.WF S500000 S500000x1 S500000 [] [0] [0] 1
  gather_S500000_S500000x1_S500000_n_0_n_n_0_1_1_wf : GatherDims.WF S500000 S500000x1 S500000 [] [0] [] [0] [] 1 ![1]
  dot_S10000x128_S128x128_S10000x128_1_0_0_1_n_n_wf : DotDims.WF S10000x128 S128x128 S10000x128 [1] [0] [0] [1] [] []
  gather_S500000x128_S500000x1_S500000x128_1_0_n_n_0_1_1128_wf : GatherDims.WF S500000x128 S500000x1 S500000x128 [1] [0] [] [0] [] 1 ![1, 128]
  scatter_S500000x128_S500000x1_S500000x128_1_0_0_1_wf : ScatterDims.WF S500000x128 S500000x1 S500000x128 [1] [0] [0] 1
  dot_S1x128_S128x32_S1x32_1_0_0_1_n_n_wf : DotDims.WF S1x128 S128x32 S1x32 [1] [0] [0] [1] [] []
  dot_S1x32_S32x16_S1x16_1_0_0_1_n_n_wf : DotDims.WF S1x32 S32x16 S1x16 [1] [0] [0] [1] [] []
  dot_S1x64_S64x128_S1x128_1_0_0_1_n_n_wf : DotDims.WF S1x64 S64x128 S1x128 [1] [0] [0] [1] [] []
  dot_S1x128_S128x4_S1x4_1_0_0_1_n_n_wf : DotDims.WF S1x128 S128x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S500000x128.size a
  hwx1_3 : ∀ i : grid1.Coords, EltTy.bits .f32 = 32 ∨ (Rect.block (s := S500000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S500000x128.size a
  hwx2_0 : ∀ i : grid2.Coords, EltTy.bits .f32 = 32 ∨ (Rect.block (s := S500000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)

variable [Facts₀]

def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def gather_S500000_S500000x1_S500000_n_0_n_n_0_1_1 : GatherDims S500000 S500000x1 S500000 where
  offsetDims := []
  collapsedSliceDims := [0]
  operandBatchingDims := []
  startIndicesBatchingDims := []
  startIndexMap := [0]
  indexVectorDim := 1
  sliceSizes := ![1]
  wf := gather_S500000_S500000x1_S500000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf
def dot_S1x128_S128x32_S1x32_1_0_0_1_n_n : DotDims S1x128 S128x32 S1x32 where
  lhsContracting := [1]
  rhsContracting := [0]
  lhsNonContracting := [0]
  rhsNonContracting := [1]
  lhsBatch := []
  rhsBatch := []
  wf := dot_S1x128_S128x32_S1x32_1_0_0_1_n_n_wf
def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x128_S128x4_S1x4_1_0_0_1_n_n : DotDims S1x128 S128x4 S1x4 where
  lhsContracting := [1]
  rhsContracting := [0]
  lhsNonContracting := [0]
  rhsNonContracting := [1]
  lhsBatch := []
  rhsBatch := []
  wf := dot_S1x128_S128x4_S1x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

class Facts : Prop extends Facts₀ where

variable [Facts]
-- ==== ReferenceIdeal.lean ====
abbrev S500000x128 : Shape := ⟨2, ![500000, 128]⟩
abbrev S2x500000 : Shape := ⟨2, ![2, 500000]⟩
abbrev S1x32 : Shape := ⟨2, ![1, 32]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S64x128 : Shape := ⟨2, ![64, 128]⟩
abbrev S128x4 : Shape := ⟨2, ![128, 4]⟩
abbrev S4 : Shape := ⟨1, ![4]⟩
abbrev S1x500000 : Shape := ⟨2, ![1, 500000]⟩
abbrev S500000 : Shape := ⟨1, ![500000]⟩
abbrev S1x128 : Shape := ⟨2, ![1, 128]⟩
abbrev S_ : Shape := ⟨0, ![]⟩
abbrev S500000x1 : Shape := ⟨2, ![500000, 1]⟩
abbrev S1x16 : Shape := ⟨2, ![1, 16]⟩
abbrev S1x64 : Shape := ⟨2, ![1, 64]⟩
abbrev S500000x64 : Shape := ⟨2, ![500000, 64]⟩
abbrev S500000x4 : Shape := ⟨2, ![500000, 4]⟩
abbrev S1x4 : Shape := ⟨2, ![1, 4]⟩

abbrev nBuf : Space → Nat
  | .hbm => 195
  | .vmem => 0
  | .smem => 0
  | _ => 0

abbrev hbmTy0_0 (i : Nat) : BufTy := match i % 128 with
  | 0 => ⟨S500000x128, .f32⟩
  | 1 => ⟨S2x500000, .i32⟩
  | 2 => ⟨S1x32, .f32⟩
  | 3 => ⟨S128x128, .f32⟩
  | 4 => ⟨S128, .f32⟩
  | 5 => ⟨S128x128, .f32⟩
  | 6 => ⟨S128, .f32⟩
  | 7 => ⟨S128x32, .f32⟩
  | 8 => ⟨S32, .f32⟩
  | 9 => ⟨S128x32, .f32⟩
  | 10 => ⟨S32, .f32⟩
  | 11 => ⟨S32x16, .f32⟩
  | 12 => ⟨S16, .f32⟩
  | 13 => ⟨S64x128, .f32⟩
  | 14 => ⟨S128, .f32⟩
  | 15 => ⟨S128x4, .f32⟩
  | 16 => ⟨S4, .f32⟩
  | 17 => ⟨S1x500000, .i32⟩
  | 18 => ⟨S500000, .i32⟩
  | 19 => ⟨S1x500000, .i32⟩
  | 20 => ⟨S500000, .i32⟩
  | 21 => ⟨S500000x128, .f32⟩
  | 22 => ⟨S1x128, .f32⟩
  | 23 => ⟨S500000x128, .f32⟩
  | 24 => ⟨S500000x128, .f32⟩
  | 25 => ⟨S_, .f32⟩
  | 26 => ⟨S500000, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S_, .f32⟩
  | 36 => ⟨S500000, .f32⟩
  | 37 => ⟨S500000, .f32⟩
  | 38 => ⟨S_, .f32⟩
  | 39 => ⟨S500000, .f32⟩
  | 40 => ⟨S500000, .i1⟩
  | 41 => ⟨S500000, .f32⟩
  | 42 => ⟨S_, .f32⟩
  | 43 => ⟨S_, .f32⟩
  | 44 => ⟨S500000, .f32⟩
  | 45 => ⟨S500000, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000, .f32⟩
  | 64 => ⟨S500000, .f32⟩
  | 65 => ⟨S500000x1, .f32⟩
  | 66 => ⟨S500000x128, .f32⟩
  | 67 => ⟨S500000x128, .f32⟩
  | 68 => ⟨S_, .f32⟩
  | 69 => ⟨S500000x128, .f32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S500000x128, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x128, .f32⟩
  | 88 => ⟨S_, .f32⟩
  | 89 => ⟨S500000x128, .f32⟩
  | 90 => ⟨S500000x128, .f32⟩
  | 91 => ⟨S500000x128, .f32⟩
  | 92 => ⟨S1x128, .f32⟩
  | 93 => ⟨S500000x128, .f32⟩
  | 94 => ⟨S500000x128, .f32⟩
  | 95 => ⟨S_, .f32⟩
  | 96 => ⟨S500000, .f32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S_, .f32⟩
  | 106 => ⟨S500000, .f32⟩
  | 107 => ⟨S500000, .f32⟩
  | 108 => ⟨S_, .f32⟩
  | 109 => ⟨S500000, .f32⟩
  | 110 => ⟨S500000, .i1⟩
  | 111 => ⟨S500000, .f32⟩
  | 112 => ⟨S_, .f32⟩
  | 113 => ⟨S_, .f32⟩
  | 114 => ⟨S500000, .f32⟩
  | 115 => ⟨S500000, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000, .f32⟩
  | 125 => ⟨S_, .i32⟩
  | 126 => ⟨S500000, .i32⟩
  | 127 => ⟨S500000, .i1⟩
  | _ => ⟨S500000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000, .f32⟩
  | 6 => ⟨S500000, .f32⟩
  | 7 => ⟨S500000x1, .f32⟩
  | 8 => ⟨S500000x128, .f32⟩
  | 9 => ⟨S500000x128, .f32⟩
  | 10 => ⟨S_, .f32⟩
  | 11 => ⟨S500000x128, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x128, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S_, .f32⟩
  | 31 => ⟨S500000x128, .f32⟩
  | 32 => ⟨S500000x128, .f32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S1x32, .f32⟩
  | 40 => ⟨S1x32, .f32⟩
  | 41 => ⟨S1x32, .f32⟩
  | 42 => ⟨S1x32, .f32⟩
  | 43 => ⟨S1x32, .f32⟩
  | 44 => ⟨S1x32, .f32⟩
  | 45 => ⟨S_, .f32⟩
  | 46 => ⟨S1x32, .f32⟩
  | 47 => ⟨S1x32, .f32⟩
  | 48 => ⟨S1x32, .f32⟩
  | 49 => ⟨S1x32, .f32⟩
  | 50 => ⟨S1x32, .f32⟩
  | 51 => ⟨S1x16, .f32⟩
  | 52 => ⟨S1x16, .f32⟩
  | 53 => ⟨S1x16, .f32⟩
  | 54 => ⟨S1x64, .f32⟩
  | 55 => ⟨S500000x64, .f32⟩
  | 56 => ⟨S500000x128, .f32⟩
  | 57 => ⟨S1x128, .f32⟩
  | 58 => ⟨S500000x128, .f32⟩
  | 59 => ⟨S500000x128, .f32⟩
  | 60 => ⟨S_, .f32⟩
  | 61 => ⟨S500000x128, .f32⟩
  | 62 => ⟨S500000x128, .f32⟩
  | 63 => ⟨S500000x4, .f32⟩
  | 64 => ⟨S1x4, .f32⟩
  | 65 => ⟨S500000x4, .f32⟩
  | 66 => ⟨S500000x4, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_c_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_c_12 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call1_cst : Ref sig .tc := ⟨.hbm, 88, rfl⟩
abbrev main_call1_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_c_14 : Ref sig .tc := ⟨.hbm, 97, rfl⟩
abbrev main_v60 : Ref sig .tc := ⟨.hbm, 98, rfl⟩
abbrev main_v61 : Ref sig .tc := ⟨.hbm, 99, rfl⟩
abbrev main_c_15 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_16 : Ref sig .tc := ⟨.hbm, 105, rfl⟩
abbrev main_v66 : Ref sig .tc := ⟨.hbm, 106, rfl⟩
abbrev main_v67 : Ref sig .tc := ⟨.hbm, 107, rfl⟩
abbrev main_cst_17 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_call2_v0 : Ref sig .tc := ⟨.hbm, 113, rfl⟩
abbrev main_call2_v1 : Ref sig .tc := ⟨.hbm, 114, rfl⟩
abbrev main_v71 : Ref sig .tc := ⟨.hbm, 115, rfl⟩
abbrev main_c_19 : Ref sig .tc := ⟨.hbm, 116, rfl⟩
abbrev main_v72 : Ref sig .tc := ⟨.hbm, 117, rfl⟩
abbrev main_v73 : Ref sig .tc := ⟨.hbm, 118, rfl⟩
abbrev main_c_20 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_21 : Ref sig .tc := ⟨.hbm, 125, rfl⟩
abbrev main_v79 : Ref sig .tc := ⟨.hbm, 126, rfl⟩
abbrev main_v80 : Ref sig .tc := ⟨.hbm, 127, rfl⟩
abbrev main_c_22 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_23 : Ref sig .tc := ⟨.hbm, 138, rfl⟩
abbrev main_v90 : Ref sig .tc := ⟨.hbm, 139, rfl⟩
abbrev main_c_24 : Ref sig .tc := ⟨.hbm, 140, rfl⟩
abbrev main_v91 : Ref sig .tc := ⟨.hbm, 141, rfl⟩
abbrev main_v92 : Ref sig .tc := ⟨.hbm, 142, rfl⟩
abbrev main_c_25 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_c_26 : Ref sig .tc := ⟨.hbm, 149, rfl⟩
abbrev main_v98 : Ref sig .tc := ⟨.hbm, 150, rfl⟩
abbrev main_v99 : Ref sig .tc := ⟨.hbm, 151, rfl⟩
abbrev main_c_27 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_call3_cst : Ref sig .tc := ⟨.hbm, 158, rfl⟩
abbrev main_call3_v0 : Ref sig .tc := ⟨.hbm, 159, rfl⟩
abbrev main_v105 : Ref sig .tc := ⟨.hbm, 160, rfl⟩
abbrev main_cst_28 : Ref sig .tc := ⟨.hbm, 161, rfl⟩
abbrev main_v106 : Ref sig .tc := ⟨.hbm, 162, rfl⟩
abbrev main_v107 : Ref sig .tc := ⟨.hbm, 163, rfl⟩
abbrev main_cst_29 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_30 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_call4_cst : Ref sig .tc := ⟨.hbm, 188, rfl⟩
abbrev main_call4_v0 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  reducesTo_S500000x128_S128_d0 : S500000x128.ReducesTo [0] S128
  h_S_ : 0 < S_.numel
  bcast_S_S1x128 : S_.BroadcastsInDim S1x128 (![] : Fin 0 → Fin S1x128.rank)
  bcast_S32_S1x32_1 : S32.BroadcastsInDim S1x32 (![1] : Fin 1 → Fin S1x32.rank)
  bcast_S_S1x32 : S_.BroadcastsInDim S1x32 (![] : Fin 0 → Fin S1x32.rank)
  bcast_S16_S1x16_1 : S16.BroadcastsInDim S1x16 (![1] : Fin 1 → Fin S1x16.rank)
  concatenates_S1x32_S1x32_S1x64_d1 : Shape.Concatenates [S1x32, S1x32] S1x64 1
  bcast_S1x64_S500000x64_0_1 : S1x64.BroadcastsInDim S500000x64 (![0, 1] : Fin 2 → Fin S500000x64.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  dot_S500000x128_S128x128_S500000x128_1_0_0_1_n_n_wf : DotDims.WF S500000x128 S128x128 S500000x128 [1] [0] [0] [1] [] []
  scatter_S500000_S500000x1_S500000_n_0_0_1_wf : ScatterDims.WF S500000 S500000x1 S500000 [] [0] [0] 1
  gather_S500000_S500000x1_S500000_n_0_n_n_0_1_1_wf : GatherDims.WF S500000 S500000x1 S500000 [] [0] [] [0] [] 1 ![1]
  gather_S500000x128_S500000x1_S500000x128_1_0_n_n_0_1_1128_wf : GatherDims.WF S500000x128 S500000x1 S500000x128 [1] [0] [] [0] [] 1 ![1, 128]
  scatter_S500000x128_S500000x1_S500000x128_1_0_0_1_wf : ScatterDims.WF S500000x128 S500000x1 S500000x128 [1] [0] [0] 1
  dot_S1x128_S128x32_S1x32_1_0_0_1_n_n_wf : DotDims.WF S1x128 S128x32 S1x32 [1] [0] [0] [1] [] []
  dot_S1x32_S32x16_S1x16_1_0_0_1_n_n_wf : DotDims.WF S1x32 S32x16 S1x16 [1] [0] [0] [1] [] []
  dot_S500000x64_S64x128_S500000x128_1_0_0_1_n_n_wf : DotDims.WF S500000x64 S64x128 S500000x128 [1] [0] [0] [1] [] []
  dot_S500000x128_S128x4_S500000x4_1_0_0_1_n_n_wf : DotDims.WF S500000x128 S128x4 S500000x4 [1] [0] [0] [1] [] []

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def gather_S500000_S500000x1_S500000_n_0_n_n_0_1_1 : GatherDims S500000 S500000x1 S500000 where
  offsetDims := []
  collapsedSliceDims := [0]
  operandBatchingDims := []
  startIndicesBatchingDims := []
  startIndexMap := [0]
  indexVectorDim := 1
  sliceSizes := ![1]
  wf := gather_S500000_S500000x1_S500000_n_0_n_n_0_1_1_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf
def dot_S1x128_S128x32_S1x32_1_0_0_1_n_n : DotDims S1x128 S128x32 S1x32 where
  lhsContracting := [1]
  rhsContracting := [0]
  lhsNonContracting := [0]
  rhsNonContracting := [1]
  lhsBatch := []
  rhsBatch := []
  wf := dot_S1x128_S128x32_S1x32_1_0_0_1_n_n_wf
def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf

class Facts : Prop extends Facts₀ where

variable [Facts]
-- ==== Proof.KI.Lin0.lean ====
/-
  Region 0 of the idealized kernel program: the first linear layer, `x · W1 + b1` on row blocks of 10000.
  Stated at a parameter `V`, the contents of the TensorCore's buffers when the region is entered.
  Per grid point `t` the body reads the row block `t` of the array, the whole weight matrix and the bias row,
  and stores `k0_pay1` of them over the whole output block: so after the body the output's staging buffer
  holds ONE piece, the payload of the three input blocks. The proof data name exactly that, the invariant
  is the class's (nothing of the kernel's own is carried between points), nothing is owed.
-/
import proofs.«426033_j56573309223970_1_alg».proof.Proof.Gen.KernelIdeal.Launch
import proofs.«426033_j56573309223970_1_alg».proof.Proof.Gen.KernelIdeal.Skeleton
import proofs.«426033_j56573309223970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it
    (the row block, every point) or finds it where an earlier point left it (the weights and the bias, whose
    block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole buffer -/

abbrev rX0 : Rect S10000x128 := Rect.unit (s := S10000x128) ![0, 0] S10000x128.size inb_S10000x128_S10000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- What the body leaves in the output window's staging buffer: the one store's payload over the whole block. -/
def out0 (x0 : Vec F S10000x128 .f32) (x1 : Vec F S128x128 .f32) (x2 : Vec F S1x128 .f32) : Vec F S10000x128 .f32 :=
  View.canon [⟨rX0, k0_pay1 (View.ld x0 rX0) (View.ld x1 rW0) (View.ld x2 rB0)⟩]

/-- The one store covers the block. -/
theorem cover0 (p0 : Vec F S10000x128 .f32) (y : S10000x128.Idx) :
    ∃ pc ∈ ([⟨rX0, p0⟩] : List (View.Piece (Elt F) S10000x128 .f32)), y ∈ pc.1.set :=
  View.cover_of_tiled [⟨rX0, p0⟩] S10000x128.size (by rfl) y

/-! ## The body's triple -/

set_option maxHeartbeats 1000000 in
/-- The body on whole staging memrefs, the inputs' at contents `x0 x1 x2` and the output's at anything, runs to
    the continuation with the inputs as they were and the output at `out0` of them. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The pipeline's proof data -/

/-- The proof data of pipeline 0 on core `c`: the arrays as the region finds them; after the body at point `t`
    each input's buffer at its block and the output's at `out0` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lin1.lean ====
/-
  Region 1 of the idealized kernel program: the second linear layer, `max(h, 0) · W2 + b2` on row blocks of 10000
  (the rectifier of the first layer's aggregate is applied to the block as it is loaded).
  Stated at a parameter `V`, the contents of the TensorCore's buffers when the region is entered.
  Per grid point `t` the body reads the row block `t` of the array, the whole weight matrix and the bias row,
  and stores `k1_pay1` of them over the whole output block: so after the body the output's staging buffer
  holds ONE piece, the payload of the three input blocks. The proof data name exactly that, the invariant
  is the class's (nothing of the kernel's own is carried between points), nothing is owed.
-/
import proofs.«426033_j56573309223970_1_alg».proof.Proof.Gen.KernelIdeal.Launch
import proofs.«426033_j56573309223970_1_alg».proof.Proof.Gen.KernelIdeal.Skeleton
import proofs.«426033_j56573309223970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it
    (the row block, every point) or finds it where an earlier point left it (the weights and the bias, whose
    block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take a whole buffer -/

abbrev rX1 : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- What the body leaves in the output window's staging buffer: the one store's payload over the whole block. -/
def out1 (x0 : Vec F S10000x128 .f32) (x1 : Vec F S128x128 .f32) (x2 : Vec F S1x128 .f32) : Vec F S10000x128 .f32 :=
  View.canon [⟨rX1, k1_pay1 (View.ld x0 rX1) (View.ld x1 rW1) (View.ld x2 rB1)⟩]

/-- The one store covers the block. -/
theorem cover1 (p0 : Vec F S10000x128 .f32) (y : S10000x128.Idx) :
    ∃ pc ∈ ([⟨rX1, p0⟩] : List (View.Piece (Elt F) S10000x128 .f32)), y ∈ pc.1.set :=
  View.cover_of_tiled [⟨rX1, p0⟩] S10000x128.size (by rfl) y

/-! ## The body's triple -/

set_option maxHeartbeats 1000000 in
/-- The body on whole staging memrefs, the inputs' at contents `x0 x1 x2` and the output's at anything, runs to
    the continuation with the inputs as they were and the output at `out1` of them. -/
theorem sound_kernel1 (c : Dev nD) (E : Set ℕ) (i : grid1.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The proof data of pipeline 1 on core `c`: the arrays as the region finds them; after the body at point `t`
    each input's buffer at its block and the output's at `out1` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Mean.lean ====
/-
  Region 2 of the idealized kernel program: the mean of the rectified rows, `(1/500000) · Σ_rows max(a, 0)`,
  over 50 row blocks of 10000. Stated at a parameter `V`, the contents of the TensorCore's buffers when the
  region is entered.
  The body keeps a running row of column sums in a scratch row it carries from point to point: at the first
  point it stores the zero row there; at every point it adds the column sums of the rectified block to the row;
  at the last point it stores the row times the constant into the output's block. So the scratch after point
  `n` is a fold over the blocks `0 … n` (`acc2`), the output's block after the last point is `fin2` of the
  whole fold (`res2`), and at every other point the output's buffer is handed back as it was found.
  The invariant tracks the scratch: before the first point it is the class's (every scoped buffer that is no
  staging buffer of this region at anything); after point `n` the scratch holds `acc2 n` and the twelve
  other such buffers are still at anything. Nothing is owed.
-/
import proofs.«426033_j56573309223970_1_alg».proof.Proof.Gen.KernelIdeal.Launch
import proofs.«426033_j56573309223970_1_alg».proof.Proof.Gen.KernelIdeal.Skeleton
import proofs.«426033_j56573309223970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and each store takes a whole buffer -/

abbrev rX2 : Rect S10000x128 := Rect.unit (s := S10000x128) ![0, 0] S10000x128.size inb_S10000x128_S10000x128_0_0
abbrev rB2 : Rect S1x128 := Rect.unit (s := S1x128) ![0, 0] S1x128.size inb_S1x128_S1x128_0_0

/-- The scratch row after the first point's reset: the zero row, stored over the whole row. -/
def zero2 : Vec F S1x128 .f32 := View.canon [⟨rB2, k2_pay1 (F := F)⟩]

/-- One accumulation: the scratch row `s` plus the column sums of the rectified block `x`, stored over the whole row. -/
def step2 (x : Vec F S10000x128 .f32) (s : Vec F S1x128 .f32) : Vec F S1x128 .f32 :=
  View.canon [⟨rB2, k2_pay2 (View.ld x rX2) (View.ld s rB2)⟩]

/-- The last point's output: the scratch row times the constant, stored over the whole output block. -/
def fin2 (s : Vec F S1x128 .f32) : Vec F S1x128 .f32 :=
  View.canon [⟨rB2, k2_pay3 (View.ld s rB2)⟩]

/-- THE ACCUMULATION. The scratch row after the body at point `n`: the fold of `step2` over the blocks `0 … n`, from the zero row. -/
def acc2 (c : Dev nD) : (n : ℕ) → n < cfg2.N → Vec F S1x128 .f32
  | 0, h => step2 (iblk2 V c 0 ⟨0, h⟩) zero2
  | n + 1, h => step2 (iblk2 V c 0 ⟨n + 1, h⟩) (acc2 c n (Nat.lt_of_succ_lt h))

theorem acc2_zero (c : Dev nD) (h : 0 < cfg2.N) : acc2 V c 0 h = step2 (iblk2 V c 0 ⟨0, h⟩) zero2 := rfl
theorem acc2_succ (c : Dev nD) (n : ℕ) (h : n + 1 < cfg2.N) :
    acc2 V c (n + 1) h = step2 (iblk2 V c 0 ⟨n + 1, h⟩) (acc2 V c n (Nat.lt_of_succ_lt h)) := rfl

/-- The region's result: what the last point stores into the output's block. -/
def res2 (c : Dev nD) : Vec F S1x128 .f32 := fin2 (acc2 V c 49 (by decide))

/-! ## The invariant -/

/-- The scratch row, as a memref: a whole scoped buffer of the kernel's own, passed beside the windows. -/
abbrev scM2 : Memref sig .tc .vmem S1x128 .f32 := Memref.whole cc2_scratch0

/-- The core's scoped buffers that are neither a staging buffer of this region nor its scratch row (the other two
    regions' staging buffers), each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point the class's (every scoped buffer that is no
    staging buffer of the region at anything, the generator register at some state); afterwards the same with the
    scratch row at what the point before left in it. -/
def PhiS2 (c : Dev nD) : (n : ℕ) → n ≤ cfg2.N → sProp 𝕄
  | 0, _ => Pipeline.ΦA spec2 c
  | n + 1, hn => iprop((rest2 (F := F) c ∗ owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((rest2 (F := F) c ∗ owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop((rest2 (F := F) c ∗ owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core `c`: the arrays as the region finds them; after the body at point `t` the
    input's buffer at its block and the output's at the region's result (which the last point stores; at the other
    points the window is idle and this is a placeholder nothing consults); the invariant tracks the scratch row. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => res2 V c
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = res2 V c := by dsimp only [dat2]
theorem after2_1_last (c : Dev nD) (t : Fin cfg2.N) (h : t.val = 49) : (dat2 V c).after 1 t = res2 V c := after2_1 V c t

theorem before2_0 (c : Dev nD) (t : Fin cfg2.N) (d) : (dat2 V c).before 0 t d = iblk2 V c 0 t :=
  before2_0_of V (dat2 V c) (A_eq2 V c 0) (after2_0 V c) t d

/-! ## The body's branch conditions, decided over the grid -/

/-- The condition of the body's first conditional (the reset), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the body's second conditional (the write-out), from the grid coordinate. -/
abbrev cond2_1 (i : grid2.Coords) : Prop := k2_cond2 i = 1#1
/-- It holds at the last point only. -/
theorem hcond2_1 : ∀ t : Fin cfg2.N, cond2_1 (grid2.coords t) ↔ t.val = 49 :=
  (by decide +kernel : ∀ t : Fin grid2.N, cond2_1 (grid2.coords t) ↔ t.val = 49)

/-! ## Where the windows are idle -/

/-- The input window is never idle. -/
theorem liveAt2_0 : ∀ t : Fin cfg2.N, cfg2.idle 0 (grid2.coords t) = false := by decide +kernel
/-- Off the last point the output window is idle: the body stores nothing into it, -/
theorem idleAt2_1 : ∀ t : Fin cfg2.N, ¬cond2_1 (grid2.coords t) → cfg2.idle 1 (grid2.coords t) = true := by decide +kernel
/-- and the pipeline does not write its block back. -/
theorem noFlush2_1 : ∀ t : Fin cfg2.N, ¬cond2_1 (grid2.coords t) → (cfg2.win 1).flush t = false := by decide +kernel
/-- At the last point the output window is live. -/
theorem liveAt2_1 : ∀ t : Fin cfg2.N, cond2_1 (grid2.coords t) → cfg2.idle 1 (grid2.coords t) = false := by decide +kernel

/-! ## The body's triples, one per control case -/

/-- The zero offsets, as a function. -/
theorem hz2 : (![0, 0] : Fin 2 → ℕ) = fun _ => 0 := by funext a; fin_cases a <;> rfl

/-- One whole-row store covers the row, whatever was stored before it. -/
theorem cover2 (p0 : Vec F S1x128 .f32) (L : List (View.Piece (Elt F) S1x128 .f32)) (y : S1x128.Idx) :
    ∃ pc ∈ ((⟨rB2, p0⟩ :: L) : List (View.Piece (Elt F) S1x128 .f32)), y ∈ pc.1.set :=
  ⟨⟨rB2, p0⟩, List.mem_cons_self, View.mem_set_unit_zero (S := S1x128) hz2 inb_S1x128_S1x128_0_0 y⟩

set_option maxHeartbeats 1000000 in
/-- A middle point: the body adds the block's rectified column sums to the scratch row; the output's buffer is not touched. -/
theorem sound_kernel2_B (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (hc0 : ¬cond2_0 i) (hc1 : ¬cond2_1 i)
    (x : Vec F S10000x128 .f32) (xi : Vec F S1x128 .f32) (s : Vec F S1x128 .f32) (K : PUnit → sProp 𝕄) :
    iprop(owns (c : Thread nD τ) arg1 fullShare x ∗ owns (c : Thread nD τ) arg2 fullShare xi ∗ owns (c : Thread nD τ) arg3 fullShare s
        ∗ (iprop(owns (c : Thread nD τ) arg1 fullShare x ∗ owns (c : Thread nD τ) arg2 fullShare xi
            ∗ owns (c : Thread nD τ) arg3 fullShare (step2 x s)) -∗ K ⟨⟩))
      ⊢ wp frame (wpE (defs₀ (F := F)) Variants.none c none) E (cc2__relu_mean_kernel i arg1 harg1 arg2 harg2 arg3 harg3) K := by
  simp only [cc2__relu_mean_kernel_eq_skeleton]; unfold cc2__relu_mean_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _ _)

set_option maxHeartbeats 1000000 in
/-- The first point: the body stores the zero row into the scratch row (whatever it held), then accumulates. -/
theorem sound_kernel2_A (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (hc0 : cond2_0 i) (hc1 : ¬cond2_1 i)
    (x : Vec F S10000x128 .f32) (xi : Vec F S1x128 .f32) (K : PUnit → sProp 𝕄) :
    iprop(owns (c : Thread nD τ) arg1 fullShare x ∗ owns (c : Thread nD τ) arg2 fullShare xi ∗ (∃ d, owns (c : Thread nD τ) arg3 fullShare d)
        ∗ (iprop(owns (c : Thread nD τ) arg1 fullShare x ∗ owns (c : Thread nD τ) arg2 fullShare xi
            ∗ owns (c : Thread nD τ) arg3 fullShare (step2 x zero2)) -∗ K ⟨⟩))
      ⊢ wp frame (wpE (defs₀ (F := F)) Variants.none c none) E (cc2__relu_mean_kernel i arg1 harg1 arg2 harg2 arg3 harg3) K := by
  simp only [cc2__relu_mean_kernel_eq_skeleton]; unfold cc2__relu_mean_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover2 _ _)]
  sl_unfold_words
  unfold step2 zero2
  rw [View.canon_cons_unit_zero (S := S1x128) hz2, View.canon_unit_zero (S := S1x128) hz2, View.canon_unit_zero (S := S1x128) hz2,
    View.readCov_unit_zero (S := S1x128) _ hz2, View.ld_unit_zero (S := S1x128) hz2]
  rfl

set_option maxHeartbeats 1000000 in
/-- The last point: the body accumulates, then stores the scratch row times the constant over the output's block. -/
theorem sound_kernel2_C (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (hc0 : ¬cond2_0 i) (hc1 : cond2_1 i)
    (x : Vec F S10000x128 .f32) (s : Vec F S1x128 .f32) (K : PUnit → sProp 𝕄) :
    iprop(owns (c : Thread nD τ) arg1 fullShare x ∗ (∃ d, owns (c : Thread nD τ) arg2 fullShare d) ∗ owns (c : Thread nD τ) arg3 fullShare s
        ∗ (iprop(owns (c : Thread nD τ) arg1 fullShare x ∗ owns (c : Thread nD τ) arg2 fullShare (fin2 (step2 x s))
            ∗ owns (c : Thread nD τ) arg3 fullShare (step2 x s)) -∗ K ⟨⟩))
      ⊢ wp frame (wpE (defs₀ (F := F)) Variants.none c none) E (cc2__relu_mean_kernel i arg1 harg1 arg2 harg2 arg3 harg3) K := by
  simp only [cc2__relu_mean_kernel_eq_skeleton]; unfold cc2__relu_mean_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [View.read_writes_eq_canon _ _ _ (cover2 _ _)]
    sl_unfold_words
    unfold fin2 step2
    rw [View.canon_unit_zero (S := S1x128) hz2, View.canon_unit_zero (S := S1x128) hz2, View.canon_unit_zero (S := S1x128) hz2,
      View.readCov_unit_zero (S := S1x128) _ hz2, View.ld_unit_zero (S := S1x128) hz2]
    rfl
  iexists _; isplitr
  swap; · iexact H2
  ipureintro
  sl_unfold_words
  exact View.read_writes_eq_canon _ _ _ (cover2 _ _)

/-! ## The class's invariant, with the scratch row apart -/

/-- The class's invariant names every scoped buffer that is no staging buffer of the region at some contents: the
    twelve staging buffers of the other regions, then the scratch row. Taken apart, -/
theorem PhiA2_split (c : Dev nD) :
    (Pipeline.ΦA spec2 c : sProp 𝕄)
      ⊢ iprop((rest2 (F := F) c ∗ (∃ d, owns (c : Thread nD τ) scM2 fullShare d)) ∗ (∃ r, prngReg c r)) := by
  unfold Pipeline.ΦA rest2; rw [scopedRest2_eq]; simp only [scM2, owns_whole]
  iintro ⟨⟨H1, H2, H3, H4, H5, H6, H7, H8, H9, H10, H11, H12, HS⟩, Hg⟩
  isplitr [Hg]
  · isplitr [HS]
    ·
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iexact HS
  · iexact Hg

/-- and put together again. -/
theorem PhiA2_join (c : Dev nD) :
    iprop((rest2 (F := F) c ∗ (∃ d, owns (c : Thread nD τ) scM2 fullShare d)) ∗ (∃ r, prngReg c r))
      ⊢ (Pipeline.ΦA spec2 c : sProp 𝕄) := by
  unfold Pipeline.ΦA rest2; rw [scopedRest2_eq]; simp only [scM2, owns_whole]
  iintro ⟨⟨⟨H1, H2, H3, H4, H5, H6, H7, H8, H9, H10, H11, H12⟩, HS⟩, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  · iexact Hg

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The accumulation at a grid point: at the first, one step from the zero row; -/
theorem acc2_first (c : Dev nD) (t : Fin cfg2.N) (h : t.val = 0) :
    acc2 V c t.val t.isLt = step2 (iblk2 V c 0 t) zero2 := by
  obtain ⟨n, hn⟩ := t
  cases n with
  | zero => rfl
  | succ n => exact absurd h (Nat.succ_ne_zero _)

/-- at a later one, one step from what the point before left; -/
theorem acc2_next (c : Dev nD) (t : Fin cfg2.N) (h : t.val ≠ 0) :
    acc2 V c t.val t.isLt = step2 (iblk2 V c 0 t) (acc2 V c (t.val - 1) (Nat.lt_of_le_of_lt (Nat.sub_le _ _) t.isLt)) := by
  obtain ⟨n, hn⟩ := t
  cases n with
  | zero => exact absurd rfl h
  | succ n => rfl

/-- and the region's result is the last point's. -/
theorem res2_eq (c : Dev nD) (t : Fin cfg2.N) (h : t.val = 49) : res2 V c = fin2 (acc2 V c t.val t.isLt) := by
  obtain ⟨n, hn⟩ := t
  dsimp only at h
  subst h
  rfl

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4000000 in
/-- The body at any point. The input's memref holds its block; the closed forms of the two conditions say which of the
    three cases the point is in; the invariant hands the body the scratch row at what the point before left (at anything
    at the first point) and takes it back at this point's accumulation; off the last point the output's buffer is handed
    back as found, at the last it holds the region's result; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  have hN : t.val < 50 := lt_of_lt_of_eq t.isLt N_2
  by_cases h1 : t.val = 49
  · have hc1 : cond2_1 (grid2.coords t) := (hcond2_1 t).mpr h1
    have hz : t.val ≠ 0 := by omega
    have hc0 : ¬cond2_0 (grid2.coords t) := fun h => hz ((hcond2_0 t).mp h)
    rw [show (dat2 V c).leavesExact 1 t = owns (c : Thread nD τ) (st2_1 t) fullShare ((dat2 V c).after 1 t) from by
      unfold Dat.leavesExact; rw [liveAt2_1 t hc1], after2_1]
    rw [PhiS2_castSucc V c t, PhiS2_pos V c _ _ hz, res2_eq V c t h1, acc2_next V c t hz]
    iintro ⟨⟨⟨HR, HS⟩, Hg⟩, Ho, ⟨%d0, H0⟩, ⟨%d1, H1⟩⟩
    iapply (sound_kernel2_C c Set.univ _ _ _ _ _ _ _ hc0 hc1 (iblk2 V c 0 t) (acc2 V c (t.val - 1) (Nat.lt_of_le_of_lt (Nat.sub_le _ _) t.isLt)) _)
    isplitl [H0]; · iexact H0
    isplitl [H1]; · iexists _; iexact H1
    isplitl [HS]; · iexact HS
    iintro ⟨H0, H1, HS⟩
    isplitl [HR HS Hg]
    · isplitr [Hg]
      · isplitl [HR]; · iexact HR
        iexact HS
      · iexact Hg
    isplitl [Ho]; · iexact Ho
    isplitl [H0]; · iexact H0
    iexact H1
  · have hc1 : ¬cond2_1 (grid2.coords t) := fun h => h1 ((hcond2_1 t).mp h)
    rw [Dat.leavesExact_idle (dat2 V c) 1 t (idleAt2_1 t hc1) (noFlush2_1 t hc1)]
    by_cases hz : t.val = 0
    · have hc0 : cond2_0 (grid2.coords t) := (hcond2_0 t).mpr hz
      rw [PhiS2_castSucc V c t, PhiS2_zero V c _ _ hz, acc2_first V c t hz]
      refine (sep_mono (PhiA2_split c) .rfl).trans ?_
      iintro ⟨⟨⟨HR, HS⟩, Hg⟩, Ho, ⟨%d0, H0⟩, ⟨%d1, H1⟩⟩
      iapply (sound_kernel2_A c Set.univ _ _ _ _ _ _ _ hc0 hc1 (iblk2 V c 0 t) _ _)
      isplitl [H0]; · iexact H0
      isplitl [H1]; · iexact H1
      isplitl [HS]; · iexact HS
      iintro ⟨H0, H1, HS⟩
      isplitl [HR HS Hg]
      · isplitr [Hg]
        · isplitl [HR]; · iexact HR
          iexact HS
        · iexact Hg
      isplitl [Ho]; · iexact Ho
      isplitl [H0]; · iexact H0
      iexists _; iexact H1
    · have hc0 : ¬cond2_0 (grid2.coords t) := fun h => hz ((hcond2_0 t).mp h)
      rw [PhiS2_castSucc V c t, PhiS2_pos V c _ _ hz, acc2_next V c t hz]
      iintro ⟨⟨⟨HR, HS⟩, Hg⟩, Ho, ⟨%d0, H0⟩, ⟨%d1, H1⟩⟩
      iapply (sound_kernel2_B c Set.univ _ _ _ _ _ _ _ hc0 hc1 (iblk2 V c 0 t) _ (acc2 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HR HS Hg]
      · isplitr [Hg]
        · isplitl [HR]; · iexact HR
          iexact HS
        · iexact Hg
      isplitl [Ho]; · iexact Ho
      isplitl [H0]; · iexact H0
      iexists _; iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point the invariant gives the class's back: the scratch row's named contents are forgotten. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_join c)
  iintro ⟨⟨HR, HS⟩, Hg⟩
  isplitr [Hg]
  · isplitl [HR]; · iexact HR
    iexists _; iexact HS
  · iexact Hg

/-- The same after the last point. -/
theorem hout2 (c : Dev nD) : (dat2 V c).Φ (Fin.last cfg2.N) ⊢ Pipeline.ΦA spec2 c :=
  Phi2_out V c _ (by rw [Fin.val_last]; have : cfg2.N = 50 := N_2; omega)

end Cert.KernelIdeal.Hand

end
-- ==== Proof.KI.Segs.lean ====
/-
  The contents of every core's unscoped buffers between the items of the program, with the three regions'
  results named, and the three regions as segments of the run.

  Region K leaves in its output array what its pipeline's write-backs fold to (the proof data's array after the
  last point, the data taken at the contents the region is entered from) and every other buffer as entered; a
  host stretch leaves what its operations compute. These valuations are the conditional frame's unknown region
  outputs made concrete, and the proof data of all three pipelines are taken at them. Over them each region is a
  segment: entered from every unscoped buffer held at the contents before it, left with them held at the contents
  after it, the core's generator register and its empty debt riding along.
-/
import proofs.«426033_j56573309223970_1_alg».proof.Proof.KI.Lin0
import proofs.«426033_j56573309223970_1_alg».proof.Proof.KI.Lin1
import proofs.«426033_j56573309223970_1_alg».proof.Proof.KI.Mean
import proofs.«426033_j56573309223970_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## Region 0: entered at `V5`, leaves its output array `main_v34` -/

/-- The TensorCore's buffers when region 0 is entered, read at the TensorCore's references. -/
abbrev E5 (c : Dev nD) (b : Ref sig .tc) : Buf (Elt F) ((c : Thread nD τ).loc b) := V5 m c b

/-- What region 0 leaves in its output array: the write-backs of all points folded over the entry contents. -/
def o6 (c : Dev nD) : Buf (Elt F) ((c : Thread nD τ).loc main_v34) := (dat0 (E5 m) c).arrAt 3 cfg0.N

/-- The buffers after region 0: the output array at `o6`, every other buffer as entered. -/
def X6 (c : Dev nD) : Valuation τ sig (Elt F) := Function.update (V5 m c) main_v34 (o6 m c)

/-! ## Region 1: entered after two host stretches, leaves its output array `main_v48` -/

/-- The buffers when region 1 is entered. -/
def X8 (c : Dev nD) : Valuation τ sig (Elt F) := StableHlo.after hostOps1_1 (StableHlo.after hostOps1 (X6 m c))
abbrev E8 (c : Dev nD) (b : Ref sig .tc) : Buf (Elt F) ((c : Thread nD τ).loc b) := X8 m c b

def o9 (c : Dev nD) : Buf (Elt F) ((c : Thread nD τ).loc main_v48) := (dat1 (E8 m) c).arrAt 3 cfg1.N

/-- The buffers after region 1. -/
def X9 (c : Dev nD) : Valuation τ sig (Elt F) := Function.update (X8 m c) main_v48 (o9 m c)

/-! ## Region 2: entered after two more host stretches, leaves its output array `main_v61` -/

/-- The buffers when region 2 is entered. -/
def X11 (c : Dev nD) : Valuation τ sig (Elt F) := StableHlo.after hostOps2_1 (StableHlo.after hostOps2 (X9 m c))
abbrev E11 (c : Dev nD) (b : Ref sig .tc) : Buf (Elt F) ((c : Thread nD τ).loc b) := X11 m c b

def o12 (c : Dev nD) : Buf (Elt F) ((c : Thread nD τ).loc main_v61) := (dat2 (E11 m) c).arrAt 1 cfg2.N

/-- The buffers after region 2. -/
def X12 (c : Dev nD) : Valuation τ sig (Elt F) := Function.update (X11 m c) main_v61 (o12 m c)

/-! ## The regions' outputs, as the conditional frame reads them -/

/-- After item J−1 reference `r` holds: after a region, that region's exit contents; anywhere else the frame never
    reads it (the launch contents stand in). -/
def outs : Outs (F := F) := fun J r c =>
  match J with
  | 6 => X6 m c r
  | 9 => X9 m c r
  | 12 => X12 m c r
  | _ => m ((c : Thread nD τ).loc r)

theorem outs6 (c : Dev nD) : outs m 6 main_v34 c = o6 m c := by
  show X6 m c main_v34 = o6 m c
  unfold X6; exact Function.update_self _ _ _
theorem outs9 (c : Dev nD) : outs m 9 main_v48 c = o9 m c := by
  show X9 m c main_v48 = o9 m c
  unfold X9; exact Function.update_self _ _ _
theorem outs12 (c : Dev nD) : outs m 12 main_v61 c = o12 m c := by
  show X12 m c main_v61 = o12 m c
  unfold X12; exact Function.update_self _ _ _

/-- The frame's valuations at these outputs are the concrete ones. -/
theorem V6_eq (c : Dev nD) : V6 m (outs m) c = X6 m c := by
  show Function.update (V5 m c) main_v34 (outs m 6 main_v34 c) = X6 m c
  rw [outs6]; rfl
theorem V8_eq (c : Dev nD) : V8 m (outs m) c = X8 m c := by
  show StableHlo.after hostOps1_1 (StableHlo.after hostOps1 (V6 m (outs m) c)) = X8 m c
  rw [V6_eq]; rfl
theorem V9_eq (c : Dev nD) : V9 m (outs m) c = X9 m c := by
  show Function.update (V8 m (outs m) c) main_v48 (outs m 9 main_v48 c) = X9 m c
  rw [outs9, V8_eq]; rfl
theorem V11_eq (c : Dev nD) : V11 m (outs m) c = X11 m c := by
  show StableHlo.after hostOps2_1 (StableHlo.after hostOps2 (V9 m (outs m) c)) = X11 m c
  rw [V9_eq]; rfl
theorem V12_eq (c : Dev nD) : V12 m (outs m) c = X12 m c := by
  show Function.update (V11 m (outs m) c) main_v61 (outs m 12 main_v61 c) = X12 m c
  rw [outs12, V11_eq]; rfl

/-! ## The proof data of the three pipelines, each at its region's entry contents -/

/-- A literal match, so that the data at a numeral reduce to the region's own. -/
def pdats : (p : Fin 3) → (c : Dev nD) → Dat τ (Elt F) Unit ℕ (UR sig nD τ) ℕ (cfgs p) c
  | ⟨0, _⟩ => fun c => dat0 (E5 m) c
  | ⟨1, _⟩ => fun c => dat1 (E8 m) c
  | ⟨2, _⟩ => fun c => dat2 (E11 m) c

/-! ## What rides beside the buffers -/

/-- No core owes another anything: no level is assigned. -/
abbrev L : GSem nD τ sig → Finset Unit := fun _ => ∅
abbrev lv : GSem nD τ sig → Unit → ℕ := fun _ _ => 0
/-- Beside the buffers every item carries the core's generator register at some state (a region's invariant takes
    it in and gives it back) and the core owing nothing. -/
abbrev R (c : Dev nD) : sProp 𝕄 := iprop((∃ r, prngReg c r) ∗ ∃ W, owes (c : Thread nD τ) (0 : CellTallies nD τ sig Unit) W)
/-- The same rest between any two items. -/
abbrev E : Fin 4 → Dev nD → sProp 𝕄 := fun _ c => R c

/-! ## The exit contents against the arrays: each region's output array reads the new contents, its input arrays and
    every other buffer read through to the entry contents -/

/-- The exit contents read at the TensorCore's references. -/
abbrev E6 (c : Dev nD) (b : Ref sig .tc) : Buf (Elt F) ((c : Thread nD τ).loc b) := X6 m c b
abbrev E9 (c : Dev nD) (b : Ref sig .tc) : Buf (Elt F) ((c : Thread nD τ).loc b) := X9 m c b
abbrev E12 (c : Dev nD) (b : Ref sig .tc) : Buf (Elt F) ((c : Thread nD τ).loc b) := X12 m c b

theorem X6_of_ne (c : Dev nD) (b : Ref sig .tc) (h : b ≠ main_v34) : X6 m c b = V5 m c b := by
  unfold X6; exact Function.update_of_ne (StableHlo.devRef_ne_of_ne h) _ _
theorem X9_of_ne (c : Dev nD) (b : Ref sig .tc) (h : b ≠ main_v48) : X9 m c b = X8 m c b := by
  unfold X9; exact Function.update_of_ne (StableHlo.devRef_ne_of_ne h) _ _
theorem X12_of_ne (c : Dev nD) (b : Ref sig .tc) (h : b ≠ main_v61) : X12 m c b = X11 m c b := by
  unfold X12; exact Function.update_of_ne (StableHlo.devRef_ne_of_ne h) _ _

theorem hF0 (c : Dev nD) (w : Fin cfg0.W) : (dat0 (E5 m) c).arrAt w cfg0.N = E6 m c (Pipeline.arrRef spec0 w) :=
  match w with
  | ⟨0, _⟩ => (((dat0 (E5 m) c).arrAt_in 0 rfl _).trans (A_eq0 (E5 m) c 0)).trans (X6_of_ne m c main_arg0 (by decide)).symm
  | ⟨1, _⟩ => (((dat0 (E5 m) c).arrAt_in 1 rfl _).trans (A_eq0 (E5 m) c 1)).trans (X6_of_ne m c main_arg3 (by decide)).symm
  | ⟨2, _⟩ => (((dat0 (E5 m) c).arrAt_in 2 rfl _).trans (A_eq0 (E5 m) c 2)).trans (X6_of_ne m c main_v33 (by decide)).symm
  | ⟨3, _⟩ => (outs6 m c).symm
theorem hrest0 (c : Dev nD) : ∀ b, b ∉ Finset.univ.image (Pipeline.arrRef spec0) → E6 m c b = E5 m c b :=
  fun b hb => X6_of_ne m c b fun e => hb (Finset.mem_image.mpr ⟨3, Finset.mem_univ _, e.symm⟩)

theorem hF1 (c : Dev nD) (w : Fin cfg1.W) : (dat1 (E8 m) c).arrAt w cfg1.N = E9 m c (Pipeline.arrRef spec1 w) :=
  match w with
  | ⟨0, _⟩ => (((dat1 (E8 m) c).arrAt_in 0 rfl _).trans (A_eq1 (E8 m) c 0)).trans (X9_of_ne m c main_v46 (by decide)).symm
  | ⟨1, _⟩ => (((dat1 (E8 m) c).arrAt_in 1 rfl _).trans (A_eq1 (E8 m) c 1)).trans (X9_of_ne m c main_arg5 (by decide)).symm
  | ⟨2, _⟩ => (((dat1 (E8 m) c).arrAt_in 2 rfl _).trans (A_eq1 (E8 m) c 2)).trans (X9_of_ne m c main_v47 (by decide)).symm
  | ⟨3, _⟩ => (outs9 m c).symm
theorem hrest1 (c : Dev nD) : ∀ b, b ∉ Finset.univ.image (Pipeline.arrRef spec1) → E9 m c b = E8 m c b :=
  fun b hb => X9_of_ne m c b fun e => hb (Finset.mem_image.mpr ⟨3, Finset.mem_univ _, e.symm⟩)

theorem hF2 (c : Dev nD) (w : Fin cfg2.W) : (dat2 (E11 m) c).arrAt w cfg2.N = E12 m c (Pipeline.arrRef spec2 w) :=
  match w with
  | ⟨0, _⟩ => (((dat2 (E11 m) c).arrAt_in 0 rfl _).trans (A_eq2 (E11 m) c 0)).trans (X12_of_ne m c main_v60 (by decide)).symm
  | ⟨1, _⟩ => (outs12 m c).symm
theorem hrest2 (c : Dev nD) : ∀ b, b ∉ Finset.univ.image (Pipeline.arrRef spec2) → E12 m c b = E11 m c b :=
  fun b hb => X12_of_ne m c b fun e => hb (Finset.mem_image.mpr ⟨1, Finset.mem_univ _, e.symm⟩)

/-! ## The regions as segments -/

-- a library lemma stated over the pinned configuration unifies with the printed one only when unification may
-- unfold plain definitions in a metavariable's type
set_option backward.isDefEq.respectTransparency.types false in
/-- REGION 0 over the thread state: entered from every unscoped buffer at the contents before it, left at the
    contents after it. Its arrays are split out of the unscoped buffers at entry and put back, at the exit
    contents, at the end; the generator register goes into the invariant and comes back; nothing is owed; the
    kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun w => A_eq0 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at the contents before it, left at the
    contents after it. Its arrays are split out of the unscoped buffers at entry and put back, at the exit
    contents, at the end; the generator register goes into the invariant and comes back; nothing is owed; the
    kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none, V8_eq]
    have hsplit := Pipeline.arrays_of_unscopedBufs (p := 1) (pcfgs (F := F)) adm (pdats m) launch1.win launch1.arr_whole c
      ((pdats m 1 c).share_full fun _ => rfl) (E8 m c) fun w => A_eq1 (E8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V9_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E8 m c) (E9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at the contents before it, left at the
    contents after it. Its arrays are split out of the unscoped buffers at entry and put back, at the exit
    contents, at the end; the generator register goes into the invariant and comes back; nothing is owed; the
    kernel has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ L lv 2 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none, V11_eq]
    have hsplit := Pipeline.arrays_of_unscopedBufs (p := 2) (pcfgs (F := F)) adm (pdats m) launch2.win launch2.arr_whole c
      ((pdats m 2 c).share_full fun _ => rfl) (E11 m c) fun w => A_eq2 (E11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E11 m) c)
    unfold Pipeline.ΦA
    iintro ⟨Hp, -, Hr⟩
    isplitl [Hr]; · iexact Hr
    iexact Hp
  hout c := by
    rw [Pipeline.ownSems0_none]
    refine BIBase.Entails.trans (hout2 (E11 m) c) ?_
    unfold Pipeline.ΦA
    iintro ⟨Hr, Hp⟩
    isplitl [Hp]; · iexact Hp
    isplitr; · iempintro
    iexact Hr
  hexit c := by
    rw [V12_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E11 m c) (E12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the idealized kernel program: the conditional frame, and the same launch read at the whole last
  valuation, both instantiated at the three regions' records over the concrete contents between the items.
  What remains to give is the launch itself: the ghost state every pipeline's staging cells start from, and each
  core's first rest made from what the launch deals it.
-/
import proofs.«426033_j56573309223970_1_alg».proof.Proof.KI.Segs
import proofs.«426033_j56573309223970_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The launch's resources -/

/-- The launch's ghost state: every staging cell of every pipeline at its first round, every launch token. -/
abbrev u₀ : UR sig nD τ := initOf (Pipeline.cells cfgs cellOf_inj) (Pipeline.launchToks cfgs cellOf_inj)

/-- Owning the whole user component is owning it through the one-component embedding; no core is dealt anything more. -/
theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes its first rest from what the launch deals it: its generator register, at the launch state, and
    its `owes`, at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last rest owes nothing. -/
theorem hE3 (c : Dev nD) : E (F := F) 3 c ⊢ (iprop(∃ W, owes (c : Thread nD τ) (0 : CellTallies nD τ sig Unit) W) : sProp 𝕄) := by
  iintro ⟨-, HO⟩; iexact HO

variable (m : (ℓ : Loc nD τ sig) → Buf (Elt F) ℓ)

/-! ## The run -/

/-- THE FRAME: from any memory with zero counters every weakly fair execution of the program terminates, nothing
    faulting, and every final memory holds each argument array as launched: the conditional frame at the three
    regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond m emb₁ () Variants.none L lv (fun _ _ => rfl) ρ (outs m) (pdats m) 0 (fun _ => iprop(emp)) u₀ hu₀ E (hE0 ρ) hE3
    (reg0 m) (fun _ => .rfl) (fun _ => .rfl) (reg1 m) (fun _ => .rfl) (fun _ => .rfl) (reg2 m) (fun _ => .rfl) (fun _ => .rfl)

/-- THE RUN WITH THE WHOLE LAST VALUATION: the same executions end with every unscoped buffer of every core at the last
    valuation of the fold, the regions' outputs being the concrete ones. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) :=
  run_cond m emb₁ () Variants.none L lv (fun _ _ => rfl) ρ (outs m) (pdats m) 0 (fun _ => iprop(emp)) u₀ hu₀ E (hE0 ρ) hE3
    (reg0 m) (fun _ => .rfl) (fun _ => .rfl) (reg1 m) (fun _ => .rfl) (fun _ => .rfl) (reg2 m) (fun _ => .rfl) (fun _ => .rfl)

/-- THE RUN WITH THE RESULTS NAMED: the same executions end with the four result buffers at the last valuation of the
    fold and every argument array as launched (no item writes an argument). -/
theorem run_results (ρ : Dev nD → PrngReg) : θ_run defs (onTc (τ := τ) (main (F := F))) ⟨m, fun _ => 0, ρ⟩ (fun r => ∀ c : Dev nD,
      r.2.mem ((c.tc : Thread nD τ).loc main_v75) = V15 m (outs m) c main_v75
      ∧ r.2.mem ((c.tc : Thread nD τ).loc main_v84) = V15 m (outs m) c main_v84
      ∧ r.2.mem ((c.tc : Thread nD τ).loc main_v64) = V15 m (outs m) c main_v64
      ∧ r.2.mem ((c.tc : Thread nD τ).loc main_v67) = V15 m (outs m) c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v75 (by decide)),
    h c _ (mem_uc main_v84 (by decide)),
    h c _ (mem_uc main_v64 (by decide)),
    h c _ (mem_uc main_v67 (by decide)),
    (h c _ (mem_uc main_arg0 (by decide))).trans (V15_main_arg0 m (outs m) c),
    (h c _ (mem_uc main_arg1 (by decide))).trans (V15_main_arg1 m (outs m) c),
    (h c _ (mem_uc main_arg2 (by decide))).trans (V15_main_arg2 m (outs m) c),
    (h c _ (mem_uc main_arg3 (by decide))).trans (V15_main_arg3 m (outs m) c),
    (h c _ (mem_uc main_arg4 (by decide))).trans (V15_main_arg4 m (outs m) c),
    (h c _ (mem_uc main_arg5 (by decide))).trans (V15_main_arg5 m (outs m) c),
    (h c _ (mem_uc main_arg6 (by decide))).trans (V15_main_arg6 m (outs m) c),
    (h c _ (mem_uc main_arg7 (by decide))).trans (V15_main_arg7 m (outs m) c),
    (h c _ (mem_uc main_arg8 (by decide))).trans (V15_main_arg8 m (outs m) c),
    (h c _ (mem_uc main_arg9 (by decide))).trans (V15_main_arg9 m (outs m) c),
    (h c _ (mem_uc main_arg10 (by decide))).trans (V15_main_arg10 m (outs m) c),
    (h c _ (mem_uc main_arg11 (by decide))).trans (V15_main_arg11 m (outs m) c),
    (h c _ (mem_uc main_arg12 (by decide))).trans (V15_main_arg12 m (outs m) c),
    (h c _ (mem_uc main_arg13 (by decide))).trans (V15_main_arg13 m (outs m) c),
    (h c _ (mem_uc main_arg14 (by decide))).trans (V15_main_arg14 m (outs m) c),
    (h c _ (mem_uc main_arg15 (by decide))).trans (V15_main_arg15 m (outs m) c),
    (h c _ (mem_uc main_arg16 (by decide))).trans (V15_main_arg16 m (outs m) c)⟩) (run_all m ρ)

end Cert.KernelIdeal.Hand

end
-- ==== Proof.Val.KDefs.lean ====
/-
  The host side of the idealized kernel program as pure functions of the argument arrays and of what the three
  kernel regions produce. Every definition is the composition of the host operations of one stretch of @main,
  operation for operation:
    * `eiRow`, `eiCol`: the two rows of the edge list;
    * `idxOf v`: an index vector made non-negative the NumPy way (`v + N` where `v < 0`) and given a unit axis;
    * `disK`: `deg^(-1/2)` where the out-degree `deg` (a scatter-add of ones along the rows) is positive, `0` elsewhere;
    * `normK`: the per-edge weight `dis[row] · dis[col]`;
    * `takeK`, `take1K`: `jnp.take` along axis 0 — the gathered entry where the index is in `[0, N)`, a fill value elsewhere;
    * `aggK lin`: the scatter-add along the rows of `take(lin, col) · take(norm, col)`;
    * `muK`, `lvK`, `zK`, `nodeK`, `edgeK`: the small dense tail on the mean row `g`.
-/
import proofs.«426033_j56573309223970_1_alg».proof.KernelIdeal
import proofs.«426033_j56573309223970_1_alg».proof.Proof.Gen.KernelIdeal

noncomputable section

namespace Cert.KernelIdeal.Hand

open Cert.KernelIdeal Cert.KernelIdeal.Gen
open Idealize.ShloMosaic

variable {F : FTy → Type} [FloatOps F]

/-! ## The edge list -/

def eiRow (ei : IVec S2x500000 32) : IVec S500000 32 :=
  shapeCast _ (extractStridedSlice S1x500000 ![0, 0] ei slices_S2x500000_S1x500000_0_0) shapeCasts_S1x500000_S500000
def eiCol (ei : IVec S2x500000 32) : IVec S500000 32 :=
  shapeCast _ (extractStridedSlice S1x500000 ![1, 0] ei slices_S2x500000_S1x500000_1_0) shapeCasts_S1x500000_S500000

/-- An index vector with negative entries shifted by `N`, -/
def wrapN (v : IVec S500000 32) : IVec S500000 32 :=
  select (cmpi .slt v (broadcastInDim S500000 ![] bcast_S_S500000 (constantI S_ 32 0#32)))
    (addi v (broadcastInDim S500000 ![] bcast_S_S500000 (constantI S_ 32 500000#32))) v
/-- and given the unit axis the gather and the scatter read it through. -/
def idxOf (v : IVec S500000 32) : IVec S500000x1 32 :=
  broadcastInDim S500000x1 ![0] bcast_S500000_S500000x1_0 (wrapN v)

/-! ## The degree normalisation -/

def degK (ei : IVec S2x500000 32) : FVec F S500000 .f32 :=
  Host.scatterAdd scatter_S500000_S500000x1_S500000_n_0_0_1
    (broadcastInDim S500000 ![] bcast_S_S500000 (constant S_ .f32 0x00000000#32)) (idxOf (eiRow ei))
    (broadcastInDim S500000 ![] bcast_S_S500000 (constant S_ .f32 0x3F800000#32))
def disK (ei : IVec S2x500000 32) : FVec F S500000 .f32 :=
  select (cmpf .ogt (degK (F := F) ei) (broadcastInDim S500000 ![] bcast_S_S500000 (constant S_ .f32 0x00000000#32)))
    (Host.rsqrt (degK (F := F) ei))
    (broadcastInDim S500000 ![] bcast_S_S500000 (id (constant S_ .f32 0x00000000#32)))
def normK (ei : IVec S2x500000 32) : FVec F S500000 .f32 :=
  mulf (Host.gather gather_S500000_S500000x1_S500000_n_0_n_n_0_1_1 (disK (F := F) ei) (idxOf (eiRow ei)))
    (Host.gather gather_S500000_S500000x1_S500000_n_0_n_n_0_1_1 (disK (F := F) ei) (idxOf (eiCol ei)))

/-! ## `take` along axis 0 -/

/-- Whether each (shifted) index lies in `[0, N)`. -/
def inRangeK (v : IVec S500000 32) : IVec S500000 1 :=
  Host.reduce IntOp.andi
    (andi (cmpi .sge (idxOf v) (broadcastInDim S500000x1 ![] bcast_S_S500000x1 (constantI S_ 32 0#32)))
      (cmpi .sle (idxOf v) (broadcastInDim S500000x1 ![0, 1] bcast_S1x1_S500000x1_0_1
        (broadcastInDim S1x1 ![1] bcast_S1_S1x1_1 (constantI S1 32 499999#32)))))
    (constantI S_ 1 1#1) reducesTo_S500000x1_S500000_d1 h_S_
def takeK (x : FVec F S500000 .f32) (v : IVec S500000 32) : FVec F S500000 .f32 :=
  select (inRangeK v) (Host.gather gather_S500000_S500000x1_S500000_n_0_n_n_0_1_1 x (idxOf v))
    (broadcastInDim S500000 ![] bcast_S_S500000 (constant S_ .f32 0x7FC00000#32))
def take1K (x : FVec F S500000x128 .f32) (v : IVec S500000 32) : FVec F S500000x128 .f32 :=
  select (broadcastInDim S500000x128 ![0] bcast_S500000_S500000x128_0 (inRangeK v))
    (Host.gather gather_S500000x128_S500000x1_S500000x128_1_0_n_n_0_1_1128 x (idxOf v))
    (broadcastInDim S500000x128 ![] bcast_S_S500000x128 (constant S_ .f32 0x7FC00000#32))

/-- The per-edge weight read at the column indices. -/
def normColK (ei : IVec S2x500000 32) : FVec F S500000 .f32 := takeK (normK (F := F) ei) (eiCol ei)

/-! ## One aggregation -/

def aggK (lin : FVec F S500000x128 .f32) (ei : IVec S2x500000 32) : FVec F S500000x128 .f32 :=
  Host.scatterAdd scatter_S500000x128_S500000x1_S500000x128_1_0_0_1
    (broadcastInDim S500000x128 ![] bcast_S_S500000x128 (constant S_ .f32 0x00000000#32)) (idxOf (eiRow ei))
    (mulf (take1K lin (eiCol ei))
      (broadcastInDim S500000x128 ![0, 1] bcast_S500000x1_S500000x128_0_1
        (broadcastInDim S500000x1 ![0] bcast_S500000_S500000x1_0 (normColK (F := F) ei))))

/-- A bias vector as a row. -/
def biasRow (b : FVec F S128 .f32) : FVec F S1x128 .f32 := shapeCast _ b shapeCasts_S128_S1x128

/-! ## The dense tail on the mean row -/

def muK (g : FVec F S1x128 .f32) (w : FVec F S128x32 .f32) (b : FVec F S32 .f32) : FVec F S1x32 .f32 :=
  addf (Host.dotGeneral dot_S1x128_S128x32_S1x32_1_0_0_1_n_n none g w) (broadcastInDim S1x32 ![1] bcast_S32_S1x32_1 b)
def zK (g : FVec F S1x128 .f32) (eps : FVec F S1x32 .f32) (wmu : FVec F S128x32 .f32) (bmu : FVec F S32 .f32)
    (wlv : FVec F S128x32 .f32) (blv : FVec F S32 .f32) : FVec F S1x32 .f32 :=
  addf (muK g wmu bmu)
    (mulf eps (Host.exp (mulf (broadcastInDim S1x32 ![] bcast_S_S1x32 (constant S_ .f32 0x3F000000#32)) (muK g wlv blv))))
def nodeK (z : FVec F S1x32 .f32) (wn : FVec F S32x16 .f32) (bn : FVec F S16 .f32) : FVec F S1x16 .f32 :=
  addf (Host.dotGeneral dot_S1x32_S32x16_S1x16_1_0_0_1_n_n none z wn) (broadcastInDim S1x16 ![1] bcast_S16_S1x16_1 bn)
def edgeRowK (z : FVec F S1x32 .f32) (we1 : FVec F S64x128 .f32) (be1 : FVec F S128 .f32)
    (we2 : FVec F S128x4 .f32) (be2 : FVec F S4 .f32) : FVec F S1x4 .f32 :=
  addf (Host.dotGeneral dot_S1x128_S128x4_S1x4_1_0_0_1_n_n none
      (maximumf
        (addf (Host.dotGeneral dot_S1x64_S64x128_S1x128_1_0_0_1_n_n none
            (concatenate S1x64 1 [⟨S1x32, z⟩, ⟨S1x32, z⟩] concatenates_S1x32_S1x32_S1x64_d1) we1)
          (broadcastInDim S1x128 ![1] bcast_S128_S1x128_1 be1))
        (broadcastInDim S1x128 ![] bcast_S_S1x128 (constant S_ .f32 0x00000000#32)))
      we2)
    (broadcastInDim S1x4 ![1] bcast_S4_S1x4_1 be2)
def edgeK (z : FVec F S1x32 .f32) (we1 : FVec F S64x128 .f32) (be1 : FVec F S128 .f32)
    (we2 : FVec F S128x4 .f32) (be2 : FVec F S4 .f32) : FVec F S500000x4 .f32 :=
  broadcastInDim S500000x4 ![0, 1] bcast_S1x4_S500000x4_0_1 (edgeRowK z we1 be1 we2 be2)

end Cert.KernelIdeal.Hand

end
-- ==== Proof.Val.KHost.lean ====
/-
  The host stretches of the idealized kernel program read back as pure functions.
  Between its three kernel regions the program runs straight lines of host operations; what a buffer holds after
  such a line is the composition of the operations' functions over what the line found (the fold `StableHlo.after`).
  This module computes that composition, stretch by stretch, at the buffers the regions and the results read, and
  names it with the definitions of the host side:
    * before the first region, from the launch contents: the rows and the columns of the edge list, the per-edge
      weight taken at the columns, the first bias as a row, and the arguments untouched;
    * between two regions, from arbitrary contents `W`: the aggregation of the region's output and the next bias row;
    * after the last region, from arbitrary contents `W`: the four results as functions of the mean row.
-/
import proofs.«426033_j56573309223970_1_alg».proof.Proof.Val.KDefs
import proofs.«426033_j56573309223970_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-! ## Each host stretch at any entry contents

Every lemma of this section reads ONE stretch of host operations at one of the buffers it writes, from
arbitrary entry contents `W`: the operations' functions composed in program order. -/

section Stretch

variable (W : Valuation τ sig (Elt F))

/-- The first stretch: the two rows of the edge list, -/
theorem s0_row : StableHlo.after hostOps0 W main_v1 = eiRow (W main_arg1) := by
  after_results
  rfl
theorem s0_col : StableHlo.after hostOps0 W main_v3 = eiCol (W main_arg1) := by
  after_results
  rfl
/-- the out-degree's positivity mask, its inverse square root and the zero that stands in where the degree is not positive. -/
theorem s0_pos : StableHlo.after hostOps0 W main_v14
    = cmpf .ogt (degK (F := F) (W main_arg1)) (broadcastInDim S500000 ![] bcast_S_S500000 (constant S_ .f32 0x00000000#32)) := by
  after_results
  rfl
theorem s0_rsqrt : StableHlo.after hostOps0 W main_v15 = Host.rsqrt (degK (F := F) (W main_arg1)) := by
  after_results
  rfl
theorem s0_zero : StableHlo.after hostOps0 W main_cst_3 = (constant S_ .f32 0x00000000#32 : FVec F S_ .f32) := by
  after_results

/-- The second stretch is the `where`: the mask selects between the inverse square root and the broadcast zero. -/
theorem s1_where : StableHlo.after hostOps0_1 W main_v16
    = select (W main_v14 : IVec S500000 1) (W main_v15 : FVec F S500000 .f32)
        (broadcastInDim S500000 ![] bcast_S_S500000 (id (W main_cst_3 : FVec F S_ .f32))) := by
  after_results
  rfl

/-- The third stretch: the product of the normalisation gathered at the (shifted) rows and at the (shifted) columns. -/
theorem s2_norm : StableHlo.after hostOps0_2 W main_v31
    = mulf (Host.gather gather_S500000_S500000x1_S500000_n_0_n_n_0_1_1 (W main_v16 : FVec F S500000 .f32) (idxOf (W main_v1)))
        (Host.gather gather_S500000_S500000x1_S500000_n_0_n_n_0_1_1 (W main_v16 : FVec F S500000 .f32) (idxOf (W main_v3))) := by
  after_results_simp
  rfl

/-- The fourth stretch is the `take` of the per-edge weight at the columns. -/
theorem s3_take : StableHlo.after hostOps0_3 W main_v32 = takeK (W main_v31 : FVec F S500000 .f32) (W main_v3) := by
  after_results_simp
  simp only [StableHlo.TRef.ofBuf, StableHlo.TRef.toBuf, cast_eq]
  rfl

/-- The fifth stretch: the first bias as a row. -/
theorem s4_bias : StableHlo.after hostOps0_4 W main_v33 = biasRow (W main_arg4 : FVec F S128 .f32) := by
  after_results
  rfl

/-- Between the first and the second kernel region: the `take` of the first layer's rows at the columns, -/
theorem h1_take : StableHlo.after hostOps1 W main_v35 = take1K (W main_v34 : FVec F S500000x128 .f32) (W main_v3) := by
  after_results_simp
  simp only [StableHlo.TRef.ofBuf, StableHlo.TRef.toBuf, cast_eq]
  rfl
/-- then its weighting by the per-edge weight and the scatter-add along the (shifted) rows, -/
theorem h11_agg : StableHlo.after hostOps1_1 W main_v46
    = Host.scatterAdd scatter_S500000x128_S500000x1_S500000x128_1_0_0_1
        (broadcastInDim S500000x128 ![] bcast_S_S500000x128 (constant S_ .f32 0x00000000#32)) (idxOf (W main_v1))
        (mulf (W main_v35 : FVec F S500000x128 .f32)
          (broadcastInDim S500000x128 ![0, 1] bcast_S500000x1_S500000x128_0_1
            (broadcastInDim S500000x1 ![0] bcast_S500000_S500000x1_0 (W main_v32 : FVec F S500000 .f32)))) := by
  after_results_simp
  rfl
/-- and the second bias as a row. -/
theorem h11_bias : StableHlo.after hostOps1_1 W main_v47 = biasRow (W main_arg6 : FVec F S128 .f32) := by
  after_results
  rfl

/-- Between the second and the third kernel region: the same `take`, on the second layer's rows, -/
theorem h2_take : StableHlo.after hostOps2 W main_v49 = take1K (W main_v48 : FVec F S500000x128 .f32) (W main_v3) := by
  after_results_simp
  simp only [StableHlo.TRef.ofBuf, StableHlo.TRef.toBuf, cast_eq]
  rfl
/-- and the same weighting and scatter-add. -/
theorem h21_agg : StableHlo.after hostOps2_1 W main_v60
    = Host.scatterAdd scatter_S500000x128_S500000x1_S500000x128_1_0_0_1
        (broadcastInDim S500000x128 ![] bcast_S_S500000x128 (constant S_ .f32 0x00000000#32)) (idxOf (W main_v1))
        (mulf (W main_v49 : FVec F S500000x128 .f32)
          (broadcastInDim S500000x128 ![0, 1] bcast_S500000x1_S500000x128_0_1
            (broadcastInDim S500000x1 ![0] bcast_S500000_S500000x1_0 (W main_v32 : FVec F S500000 .f32)))) := by
  after_results_simp
  rfl

/-- After the third kernel region, the dense tail on the mean row: the two affine maps, -/
theorem t3_mu : StableHlo.after hostOps3 W main_v64
    = muK (W main_v61 : FVec F S1x128 .f32) (W main_arg7) (W main_arg8) := by
  after_results
  rfl
theorem t3_lv : StableHlo.after hostOps3 W main_v67
    = muK (W main_v61 : FVec F S1x128 .f32) (W main_arg9) (W main_arg10) := by
  after_results
  rfl
/-- the sample `mu + eps · exp(lv / 2)`, -/
theorem t3_z : StableHlo.after hostOps3 W main_v72
    = zK (W main_v61 : FVec F S1x128 .f32) (W main_arg2) (W main_arg7) (W main_arg8) (W main_arg9) (W main_arg10) := by
  after_results_simp
  rfl
/-- the node head on the sample, -/
theorem t3_node : StableHlo.after hostOps3 W main_v75
    = nodeK (zK (W main_v61 : FVec F S1x128 .f32) (W main_arg2) (W main_arg7) (W main_arg8) (W main_arg9) (W main_arg10))
        (W main_arg11) (W main_arg12) := by
  after_results_simp
  rfl
/-- the edge head's hidden row before its `relu`, -/
theorem t3_hid : StableHlo.after hostOps3 W main_v79
    = addf (Host.dotGeneral dot_S1x64_S64x128_S1x128_1_0_0_1_n_n none
          (concatenate S1x64 1
            [⟨S1x32, zK (W main_v61 : FVec F S1x128 .f32) (W main_arg2) (W main_arg7) (W main_arg8) (W main_arg9) (W main_arg10)⟩,
             ⟨S1x32, zK (W main_v61 : FVec F S1x128 .f32) (W main_arg2) (W main_arg7) (W main_arg8) (W main_arg9) (W main_arg10)⟩]
            concatenates_S1x32_S1x32_S1x64_d1) (W main_arg13 : FVec F S64x128 .f32))
        (broadcastInDim S1x128 ![1] bcast_S128_S1x128_1 (W main_arg14 : FVec F S128 .f32)) := by
  after_results_simp
  rfl
/-- the `relu`, -/
theorem t31_relu : StableHlo.after hostOps3_1 W main_v80
    = maximumf (W main_v79 : FVec F S1x128 .f32) (broadcastInDim S1x128 ![] bcast_S_S1x128 (constant S_ .f32 0x00000000#32)) := by
  after_results
  rfl
/-- and the edge head's output row, repeated for every edge. -/
theorem t32_edge : StableHlo.after hostOps3_2 W main_v84
    = broadcastInDim S500000x4 ![0, 1] bcast_S1x4_S500000x4_0_1
        (addf (Host.dotGeneral dot_S1x128_S128x4_S1x4_1_0_0_1_n_n none (W main_v80 : FVec F S1x128 .f32) (W main_arg15))
          (broadcastInDim S1x4 ![1] bcast_S4_S1x4_1 (W main_arg16 : FVec F S4 .f32))) := by
  after_results

end Stretch

/-! ## Before the first kernel region

The launch contents `m` run through the five stretches `V1 … V5`: each stretch's lemma at the contents the
stretch before it leaves, the buffers a stretch does not write carried across it. -/

section Entry

variable (m : (ℓ : Loc nD τ sig) → Buf (Elt F) ℓ) (c : Dev nD)

theorem V1_row : V1 m c main_v1 = eiRow (m ((c : Thread nD τ).loc main_arg1)) := s0_row (V0 m c)
theorem V1_col : V1 m c main_v3 = eiCol (m ((c : Thread nD τ).loc main_arg1)) := s0_col (V0 m c)
theorem V2_row : V2 m c main_v1 = eiRow (m ((c : Thread nD τ).loc main_arg1)) :=
  (V2_of m c main_v1 (by decide)).trans (V1_row m c)
theorem V2_col : V2 m c main_v3 = eiCol (m ((c : Thread nD τ).loc main_arg1)) :=
  (V2_of m c main_v3 (by decide)).trans (V1_col m c)

/-- The degree normalisation is what the `where` leaves. -/
theorem V2_dis : V2 m c main_v16 = disK (F := F) (m ((c : Thread nD τ).loc main_arg1)) := by
  refine (s1_where (V1 m c)).trans ?_
  rw [show V1 m c main_v14 = _ from s0_pos (V0 m c), show V1 m c main_v15 = _ from s0_rsqrt (V0 m c),
    show V1 m c main_cst_3 = _ from s0_zero (V0 m c)]
  rfl

theorem V3_col : V3 m c main_v3 = eiCol (m ((c : Thread nD τ).loc main_arg1)) :=
  (V3_of m c main_v3 (by decide)).trans (V2_col m c)
/-- The per-edge weight. -/
theorem V3_norm : V3 m c main_v31 = normK (F := F) (m ((c : Thread nD τ).loc main_arg1)) := by
  refine (s2_norm (V2 m c)).trans ?_
  rw [V2_dis m c, V2_row m c, V2_col m c]
  rfl
theorem V4_normCol : V4 m c main_v32 = normColK (F := F) (m ((c : Thread nD τ).loc main_arg1)) := by
  refine (s3_take (V3 m c)).trans ?_
  rw [V3_norm m c, V3_col m c]
  rfl

/-- A buffer none of the five stretches writes is at its launch contents when the first region is entered. -/
theorem V5_keep (r : Ref sig .tc) (h0 : r ∉ hostOps0_W) (h1 : r ∉ hostOps0_1_W) (h2 : r ∉ hostOps0_2_W)
    (h3 : r ∉ hostOps0_3_W) (h4 : r ∉ hostOps0_4_W) : V5 m c r = m ((c : Thread nD τ).loc r) :=
  (V5_of m c r h4).trans <| (V4_of m c r h3).trans <| (V3_of m c r h2).trans <| (V2_of m c r h1).trans (V1_of m c r h0)

theorem V5_row : V5 m c main_v1 = eiRow (m ((c : Thread nD τ).loc main_arg1)) :=
  (V5_of m c main_v1 (by decide)).trans <| (V4_of m c main_v1 (by decide)).trans <|
    (V3_of m c main_v1 (by decide)).trans (V2_row m c)
theorem V5_col : V5 m c main_v3 = eiCol (m ((c : Thread nD τ).loc main_arg1)) :=
  (V5_of m c main_v3 (by decide)).trans <| (V4_of m c main_v3 (by decide)).trans (V3_col m c)
theorem V5_normCol : V5 m c main_v32 = normColK (F := F) (m ((c : Thread nD τ).loc main_arg1)) :=
  (V5_of m c main_v32 (by decide)).trans (V4_normCol m c)
theorem V5_bias : V5 m c main_v33 = biasRow (m ((c : Thread nD τ).loc main_arg4)) := by
  refine (s4_bias (V4 m c)).trans ?_
  rw [show V4 m c main_arg4 = m ((c : Thread nD τ).loc main_arg4) from
    (V4_of m c main_arg4 (by decide)).trans <| (V3_of m c main_arg4 (by decide)).trans <|
      (V2_of m c main_arg4 (by decide)).trans (V1_of m c main_arg4 (by decide))]

theorem V5_arg0 : V5 m c main_arg0 = m ((c : Thread nD τ).loc main_arg0) :=
  V5_keep m c main_arg0 (by decide) (by decide) (by decide) (by decide) (by decide)
theorem V5_arg1 : V5 m c main_arg1 = m ((c : Thread nD τ).loc main_arg1) :=
  V5_keep m c main_arg1 (by decide) (by decide) (by decide) (by decide) (by decide)
theorem V5_arg3 : V5 m c main_arg3 = m ((c : Thread nD τ).loc main_arg3) :=
  V5_keep m c main_arg3 (by decide) (by decide) (by decide) (by decide) (by decide)
theorem V5_arg5 : V5 m c main_arg5 = m ((c : Thread nD τ).loc main_arg5) :=
  V5_keep m c main_arg5 (by decide) (by decide) (by decide) (by decide) (by decide)
theorem V5_arg6 : V5 m c main_arg6 = m ((c : Thread nD τ).loc main_arg6) :=
  V5_keep m c main_arg6 (by decide) (by decide) (by decide) (by decide) (by decide)

end Entry

/-! ## Between the kernel regions, and after the last -/

section Between

variable (W : Valuation τ sig (Elt F))

/-- A buffer the two stretches between the first and the second region do not write keeps its contents. -/
theorem keep_read1 (r : Ref sig .tc) (h : r ∉ hostOps1_W) (h' : r ∉ hostOps1_1_W) :
    StableHlo.after hostOps1_1 (StableHlo.after hostOps1 W) r = W r :=
  (StableHlo.after_of_writes_sub hostOps1_1 _ hostOps1_1_writes h').trans
    (StableHlo.after_of_writes_sub hostOps1 W hostOps1_writes h)

/-- What the second region reads as its rows: the aggregation of the first region's output. -/
theorem agg_read1 : StableHlo.after hostOps1_1 (StableHlo.after hostOps1 W) main_v46
    = Host.scatterAdd scatter_S500000x128_S500000x1_S500000x128_1_0_0_1
        (broadcastInDim S500000x128 ![] bcast_S_S500000x128 (constant S_ .f32 0x00000000#32)) (idxOf (W main_v1))
        (mulf (take1K (W main_v34 : FVec F S500000x128 .f32) (W main_v3))
          (broadcastInDim S500000x128 ![0, 1] bcast_S500000x1_S500000x128_0_1
            (broadcastInDim S500000x1 ![0] bcast_S500000_S500000x1_0 (W main_v32 : FVec F S500000 .f32)))) := by
  rw [h11_agg, h1_take,
    StableHlo.after_of_writes_sub hostOps1 W hostOps1_writes (by decide : main_v1 ∉ hostOps1_W),
    StableHlo.after_of_writes_sub hostOps1 W hostOps1_writes (by decide : main_v32 ∉ hostOps1_W)]

/-- What it reads as its bias row. -/
theorem bias_read1 : StableHlo.after hostOps1_1 (StableHlo.after hostOps1 W) main_v47 = biasRow (W main_arg6 : FVec F S128 .f32) := by
  rw [h11_bias, StableHlo.after_of_writes_sub hostOps1 W hostOps1_writes (by decide : main_arg6 ∉ hostOps1_W)]

/-- A buffer the two stretches between the second and the third region do not write keeps its contents. -/
theorem keep_read2 (r : Ref sig .tc) (h : r ∉ hostOps2_W) (h' : r ∉ hostOps2_1_W) :
    StableHlo.after hostOps2_1 (StableHlo.after hostOps2 W) r = W r :=
  (StableHlo.after_of_writes_sub hostOps2_1 _ hostOps2_1_writes h').trans
    (StableHlo.after_of_writes_sub hostOps2 W hostOps2_writes h)

/-- What the third region reads: the aggregation of the second region's output. -/
theorem agg_read2 : StableHlo.after hostOps2_1 (StableHlo.after hostOps2 W) main_v60
    = Host.scatterAdd scatter_S500000x128_S500000x1_S500000x128_1_0_0_1
        (broadcastInDim S500000x128 ![] bcast_S_S500000x128 (constant S_ .f32 0x00000000#32)) (idxOf (W main_v1))
        (mulf (take1K (W main_v48 : FVec F S500000x128 .f32) (W main_v3))
          (broadcastInDim S500000x128 ![0, 1] bcast_S500000x1_S500000x128_0_1
            (broadcastInDim S500000x1 ![0] bcast_S500000_S500000x1_0 (W main_v32 : FVec F S500000 .f32)))) := by
  rw [h21_agg, h2_take,
    StableHlo.after_of_writes_sub hostOps2 W hostOps2_writes (by decide : main_v1 ∉ hostOps2_W),
    StableHlo.after_of_writes_sub hostOps2 W hostOps2_writes (by decide : main_v32 ∉ hostOps2_W)]

/-- A buffer the first two stretches of the tail do not write keeps its contents across them. -/
theorem keep_tail (r : Ref sig .tc) (h : r ∉ hostOps3_W) (h' : r ∉ hostOps3_1_W) :
    StableHlo.after hostOps3_1 (StableHlo.after hostOps3 W) r = W r :=
  (StableHlo.after_of_writes_sub hostOps3_1 _ hostOps3_1_writes h').trans
    (StableHlo.after_of_writes_sub hostOps3 W hostOps3_writes h)

/-- The four results, after the three stretches of the tail. -/
theorem tail_mu : StableHlo.after hostOps3_2 (StableHlo.after hostOps3_1 (StableHlo.after hostOps3 W)) main_v64
    = muK (W main_v61 : FVec F S1x128 .f32) (W main_arg7) (W main_arg8) := by
  rw [StableHlo.after_of_writes_sub hostOps3_2 _ hostOps3_2_writes (by decide),
    StableHlo.after_of_writes_sub hostOps3_1 _ hostOps3_1_writes (by decide)]
  exact t3_mu W
theorem tail_lv : StableHlo.after hostOps3_2 (StableHlo.after hostOps3_1 (StableHlo.after hostOps3 W)) main_v67
    = muK (W main_v61 : FVec F S1x128 .f32) (W main_arg9) (W main_arg10) := by
  rw [StableHlo.after_of_writes_sub hostOps3_2 _ hostOps3_2_writes (by decide),
    StableHlo.after_of_writes_sub hostOps3_1 _ hostOps3_1_writes (by decide)]
  exact t3_lv W
theorem tail_node : StableHlo.after hostOps3_2 (StableHlo.after hostOps3_1 (StableHlo.after hostOps3 W)) main_v75
    = nodeK (zK (W main_v61 : FVec F S1x128 .f32) (W main_arg2) (W main_arg7) (W main_arg8) (W main_arg9) (W main_arg10))
        (W main_arg11) (W main_arg12) := by
  rw [StableHlo.after_of_writes_sub hostOps3_2 _ hostOps3_2_writes (by decide),
    StableHlo.after_of_writes_sub hostOps3_1 _ hostOps3_1_writes (by decide)]
  exact t3_node W
theorem tail_edge : StableHlo.after hostOps3_2 (StableHlo.after hostOps3_1 (StableHlo.after hostOps3 W)) main_v84
    = edgeK (zK (W main_v61 : FVec F S1x128 .f32) (W main_arg2) (W main_arg7) (W main_arg8) (W main_arg9) (W main_arg10))
        (W main_arg13) (W main_arg14) (W main_arg15) (W main_arg16) := by
  rw [t32_edge, t31_relu, t3_hid, keep_tail W main_arg15 (by decide) (by decide), keep_tail W main_arg16 (by decide) (by decide)]
  rfl

end Between

end Cert.KernelIdeal.Hand

end
-- ==== Proof.Val.LinValue.lean ====
/-
  What the two linear regions leave in their output arrays, at the ideal values (floats are extended reals,
  format changes are the identity, a matrix product into a zero accumulator is the plain sum over the contracted
  axis). Region 0 leaves `x · W1 + b1`, region 1 leaves `max(h, 0) · W2 + b2`, each as ONE function of the
  arrays the region finds, index by index: per point the payload at an index of the block, each input block read
  where the output block's rectangle says, and the fifty row blocks of 10000 tile the 500000 rows.
-/
import proofs.«426033_j56573309223970_1_alg».proof.Proof.KI.Lin0
import proofs.«426033_j56573309223970_1_alg».proof.Proof.KI.Lin1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The specification -/

/-- Row `i 0` of `x` times column `i 1` of `w`, plus the bias row at `i 1`. -/
def linG (x : S500000x128.Idx → EReal) (w : S128x128.Idx → EReal) (b : S1x128.Idx → EReal) : S500000x128.Idx → EReal :=
  fun i => (∑ k : Fin 128, x (ix2 (⟨(i 0).val, (i 0).isLt⟩ : Fin 500000) k) * w (ix2 k (⟨(i 1).val, (i 1).isLt⟩ : Fin 128)))
    + b (ix2 (0 : Fin 1) (⟨(i 1).val, (i 1).isLt⟩ : Fin 128))

/-- The same with the rows of `x` clamped below at zero first. -/
def linReluG (x : S500000x128.Idx → EReal) (w : S128x128.Idx → EReal) (b : S1x128.Idx → EReal) : S500000x128.Idx → EReal :=
  fun i => (∑ k : Fin 128, max (x (ix2 (⟨(i 0).val, (i 0).isLt⟩ : Fin 500000) k)) 0 * w (ix2 k (⟨(i 1).val, (i 1).isLt⟩ : Fin 128)))
    + b (ix2 (0 : Fin 1) (⟨(i 1).val, (i 1).isLt⟩ : Fin 128))

/-! ## The block product at an index -/

theorem lin_lhs_dot_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lin_lhs_dot_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem lin_rhs_dot_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem lin_rhs_dot_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's matrix product into the zero accumulator, at `(p, q)`: row `p` of the left block times column `q`
    of the right. -/
theorem lin_blockdot_apply (a : FVec Ideal S10000x128 .bf16) (b : FVec Ideal S128x128 .bf16) (p : Fin 10000) (q : Fin 128) :
    matmul dot_S10000x128_S128x128_S10000x128_1_0_0_1_n_n none a b (constant S10000x128 .f32 0x00000000#32) (ix2 p q)
      = ∑ k : Fin 128, a (ix2 p k) * b (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun ax => Fin.ext (by
    match ax with
    | ⟨0, _⟩ => exact lin_lhs_dot_0 _ _
    | ⟨1, _⟩ => exact (lin_lhs_dot_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun ax => Fin.ext (by
    match ax with
    | ⟨0, _⟩ => exact (lin_rhs_dot_0 _ _).trans hk
    | ⟨1, _⟩ => exact lin_rhs_dot_1 _ _)
  rw [el, er]

/-! ## The payloads at an index -/

/-- Region 0's payload at `(p, q)`. -/
theorem lin0_pay_apply (x0 : Vec Ideal S10000x128 .f32) (x1 : Vec Ideal S128x128 .f32) (x2 : Vec Ideal S1x128 .f32) (p : Fin 10000) (q : Fin 128) :
    k0_pay1 x0 x1 x2 (ix2 p q) = (∑ k : Fin 128, x0 (ix2 p k) * x1 (ix2 k q)) + x2 (ix2 (0 : Fin 1) q) := by
  unfold k0_pay1
  rw [addf_apply, lin_blockdot_apply, shapeCast_self, broadcastTo_1b_ab_apply]
  rfl

/-- Region 1's payload at `(p, q)`. -/
theorem lin1_pay_apply (x0 : Vec Ideal S10000x128 .f32) (x1 : Vec Ideal S128x128 .f32) (x2 : Vec Ideal S1x128 .f32) (p : Fin 10000) (q : Fin 128) :
    k1_pay1 x0 x1 x2 (ix2 p q) = (∑ k : Fin 128, max (x0 (ix2 p k)) 0 * x1 (ix2 k q)) + x2 (ix2 (0 : Fin 1) q) := by
  unfold k1_pay1
  rw [addf_apply, lin_blockdot_apply, shapeCast_self, shapeCast_self, broadcastTo_1b_ab_apply]
  refine congrArg (· + _) (Finset.sum_congr rfl fun k _ => ?_)
  show max (x0 (ix2 p k)) (Ideal.ofBits .f32 0x00000000#32) * _ = _
  rw [Ideal.ofBits_zero_f32]
  rfl

/-! ## Region 0: from the blocks to the array -/

theorem lin_hz : (![0, 0] : Fin 2 → Nat) = fun _ => 0 := funext fun a => by fin_cases a <;> rfl

/-- The index maps over the grid: the row blocks of the input and of the output move with the point, the weights
    and the bias stay at block zero. -/
theorem lin0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point `t` is rows `10000 t … 10000 t + 9999` of the array. -/
theorem lin0_iblk0_apply (c : Dev nD) (t : Fin cfg0.N) (p : Fin 10000) (k : Fin 128) (r : Fin 500000)
    (hr : r.val = t.val * 10000 + p.val) :
    (iblk0 V c 0 t : Vec Ideal S10000x128 .f32) (ix2 p k) = (V c main_arg0 : S500000x128.Idx → EReal) (ix2 r k) := by
  obtain ⟨e0, e1, -⟩ := lin0_idx_facts t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weights' block at every point is the whole matrix. -/
theorem lin0_iblk1_apply (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e0, e1, -⟩ := lin0_idx_facts t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias's block at every point is the whole row. -/
theorem lin0_iblk2_apply (c : Dev nD) (t : Fin cfg0.N) (z : Fin 1) (q : Fin 128) :
    (iblk0 V c 2 t : Vec Ideal S1x128 .f32) (ix2 z q) = (V c main_v33 : S1x128.Idx → EReal) (ix2 z q) := by
  obtain ⟨-, -, -, -, e0, e1, -⟩ := lin0_idx_facts t
  unfold iblk0
  rw [View.read_apply]
  show V c main_v33 _ = V c main_v33 _
  congr 1
  funext a
  apply Fin.ext
  match a with
  | ⟨0, _⟩ => show win0_2.index t (0 : Fin 2) * 1 + 1 * z.val = z.val; rw [e0]; omega
  | ⟨1, _⟩ => show win0_2.index t (1 : Fin 2) * 128 + 1 * q.val = q.val; rw [e1]; omega

/-- The payload of point `t`'s three blocks at `(p, q)` is the specification at row `10000 t + p`. -/
theorem lin0_pay_blocks (c : Dev nD) (t : Fin cfg0.N) (p : Fin 10000) (q : Fin 128) (r : Fin 500000)
    (hr : r.val = t.val * 10000 + p.val) :
    k0_pay1 (iblk0 V c 0 t) (iblk0 V c 1 t) (iblk0 V c 2 t) (ix2 p q)
      = linG (V c main_arg0) (V c main_arg3) (V c main_v33) (ix2 r q) := by
  rw [lin0_pay_apply, lin0_iblk2_apply]
  unfold linG
  refine congrArg (· + _) (Finset.sum_congr rfl fun k _ => ?_)
  rw [lin0_iblk0_apply V c t p k r hr, lin0_iblk1_apply]

/-- What point `t` leaves in the output's staging buffer, at an index of the block, is the specification where the
    block's rectangle puts that index in the array. -/
theorem lin0_after_at (c : Dev nD) (t : Fin cfg0.N) (j : S10000x128.Idx) :
    k0_pay1 (iblk0 V c 0 t) (iblk0 V c 1 t) (iblk0 V c 2 t) j
      = linG (V c main_arg0) (V c main_arg3) (V c main_v33) (((cfg0.win 3).blk t).view.emb j) := by
  obtain ⟨p, q, rfl⟩ : ∃ (p : Fin 10000) (q : Fin 128), j = ix2 p q := ⟨j 0, j 1, eq_ix2 j⟩
  have ht : t.val < 50 := lt_of_lt_of_eq t.isLt N_0
  obtain ⟨-, -, -, -, -, -, e6, e7⟩ := lin0_idx_facts t
  have e : ((cfg0.win 3).blk t).view.emb (ix2 p q) = ix2 (⟨t.val * 10000 + p.val, by have := p.isLt; omega⟩ : Fin 500000) q := by
    funext a
    apply Fin.ext
    match a with
    | ⟨0, _⟩ => show win0_3.index t (0 : Fin 2) * 10000 + 1 * p.val = t.val * 10000 + p.val; rw [e6]; omega
    | ⟨1, _⟩ => show win0_3.index t (1 : Fin 2) * 128 + 1 * q.val = q.val; rw [e7]; omega
  rw [e]
  exact lin0_pay_blocks V c t p q _ rfl

/-- WHAT POINT `t` WRITES BACK is block `t` of the specification of the arrays the region finds. -/
theorem lin0_flushed_eq (c : Dev nD) (t : Fin cfg0.N) :
    (dat0 V c).flushed 3 t = ((cfg0.win 3).blk t).view.read (Elt Ideal) (linG (V c main_arg0) (V c main_arg3) (V c main_v33)) := by
  show (cfg0.win 3).cut (grid0.coords t) ((dat0 V c).after 3 t) = _
  rw [after0_3]
  unfold out0
  rw [View.canon_unit_zero lin_hz]
  simp only [View.ld_unit_zero (S := S10000x128) lin_hz, View.ld_unit_zero (S := S128x128) lin_hz, View.ld_unit_zero (S := S1x128) lin_hz]
  funext j
  exact lin0_after_at V c t j

/-- An index of the array is in point `t`'s output block iff each coordinate is in the block's range on its axis. -/
theorem lin0_mem_blk (t : Fin cfg0.N) (i : S500000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v34).slice (win0_3.rect t)).set ↔ _
  rw [View.set_slice_whole, Rect.mem_set_unit]
  exact Iff.rfl

/-- The fifty row blocks tile the array: row `r` is in the block of point `r / 10000`. -/
theorem lin0_rows_cover (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  have hN : cfg0.N = 50 := N_0
  obtain ⟨t, ht⟩ : ∃ t : Fin cfg0.N, t.val = (i 0).val / 10000 := ⟨⟨(i 0).val / 10000, by rw [hN]; omega⟩, rfl⟩
  obtain ⟨-, -, -, -, -, -, e6, e7⟩ := lin0_idx_facts t
  refine ⟨t, flush0_3 t, ?_⟩
  rw [lin0_mem_blk]
  intro a
  match a with
  | ⟨0, _⟩ => show win0_3.index t (0 : Fin 2) * 10000 ≤ (i 0).val ∧ (i 0).val < win0_3.index t (0 : Fin 2) * 10000 + 10000; rw [e6, ht]; omega
  | ⟨1, _⟩ => show win0_3.index t (1 : Fin 2) * 128 ≤ (i 1).val ∧ (i 1).val < win0_3.index t (1 : Fin 2) * 128 + 128; rw [e7]; omega

/-- THE ARRAY after region 0: the first linear layer of the arrays the region finds. -/
theorem lin0_value (c : Dev nD) :
    (dat0 (F := Ideal) V c).arrAt 3 cfg0.N = linG (V c main_arg0) (V c main_arg3) (V c main_v33) :=
  (dat0 V c).arrAt_eq_of_cover 3 (linG (V c main_arg0) (V c main_arg3) (V c main_v33)) (fun t _ => lin0_flushed_eq V c t) lin0_rows_cover

/-! ## Region 1: from the blocks to the array -/

/-- The index maps over the grid: the row blocks of the input and of the output move with the point, the weights
    and the bias stay at block zero. -/
theorem lin1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point `t` is rows `10000 t … 10000 t + 9999` of the array. -/
theorem lin1_iblk0_apply (c : Dev nD) (t : Fin cfg1.N) (p : Fin 10000) (k : Fin 128) (r : Fin 500000)
    (hr : r.val = t.val * 10000 + p.val) :
    (iblk1 V c 0 t : Vec Ideal S10000x128 .f32) (ix2 p k) = (V c main_v46 : S500000x128.Idx → EReal) (ix2 r k) := by
  obtain ⟨e0, e1, -⟩ := lin1_idx_facts t
  unfold iblk1
  rw [View.read_apply]
  show V c main_v46 _ = V c main_v46 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- The weights' block at every point is the whole matrix. -/
theorem lin1_iblk1_apply (c : Dev nD) (t : Fin cfg1.N) (k : Fin 128) (q : Fin 128) :
    (iblk1 V c 1 t : Vec Ideal S128x128 .f32) (ix2 k q) = (V c main_arg5 : S128x128.Idx → EReal) (ix2 k q) := by
  obtain ⟨-, -, e0, e1, -⟩ := lin1_idx_facts t
  unfold iblk1
  rw [View.read_apply]
  show V c main_arg5 _ = V c main_arg5 _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias's block at every point is the whole row. -/
theorem lin1_iblk2_apply (c : Dev nD) (t : Fin cfg1.N) (z : Fin 1) (q : Fin 128) :
    (iblk1 V c 2 t : Vec Ideal S1x128 .f32) (ix2 z q) = (V c main_v47 : S1x128.Idx → EReal) (ix2 z q) := by
  obtain ⟨-, -, -, -, e0, e1, -⟩ := lin1_idx_facts t
  unfold iblk1
  rw [View.read_apply]
  show V c main_v47 _ = V c main_v47 _
  congr 1
  funext a
  apply Fin.ext
  match a with
  | ⟨0, _⟩ => show win1_2.index t (0 : Fin 2) * 1 + 1 * z.val = z.val; rw [e0]; omega
  | ⟨1, _⟩ => show win1_2.index t (1 : Fin 2) * 128 + 1 * q.val = q.val; rw [e1]; omega

/-- The payload of point `t`'s three blocks at `(p, q)` is the specification at row `10000 t + p`. -/
theorem lin1_pay_blocks (c : Dev nD) (t : Fin cfg1.N) (p : Fin 10000) (q : Fin 128) (r : Fin 500000)
    (hr : r.val = t.val * 10000 + p.val) :
    k1_pay1 (iblk1 V c 0 t) (iblk1 V c 1 t) (iblk1 V c 2 t) (ix2 p q)
      = linReluG (V c main_v46) (V c main_arg5) (V c main_v47) (ix2 r q) := by
  rw [lin1_pay_apply, lin1_iblk2_apply]
  unfold linReluG
  refine congrArg (· + _) (Finset.sum_congr rfl fun k _ => ?_)
  rw [lin1_iblk0_apply V c t p k r hr, lin1_iblk1_apply]

/-- What point `t` leaves in the output's staging buffer, at an index of the block, is the specification where the
    block's rectangle puts that index in the array. -/
theorem lin1_after_at (c : Dev nD) (t : Fin cfg1.N) (j : S10000x128.Idx) :
    k1_pay1 (iblk1 V c 0 t) (iblk1 V c 1 t) (iblk1 V c 2 t) j
      = linReluG (V c main_v46) (V c main_arg5) (V c main_v47) (((cfg1.win 3).blk t).view.emb j) := by
  obtain ⟨p, q, rfl⟩ : ∃ (p : Fin 10000) (q : Fin 128), j = ix2 p q := ⟨j 0, j 1, eq_ix2 j⟩
  have ht : t.val < 50 := lt_of_lt_of_eq t.isLt N_1
  obtain ⟨-, -, -, -, -, -, e6, e7⟩ := lin1_idx_facts t
  have e : ((cfg1.win 3).blk t).view.emb (ix2 p q) = ix2 (⟨t.val * 10000 + p.val, by have := p.isLt; omega⟩ : Fin 500000) q := by
    funext a
    apply Fin.ext
    match a with
    | ⟨0, _⟩ => show win1_3.index t (0 : Fin 2) * 10000 + 1 * p.val = t.val * 10000 + p.val; rw [e6]; omega
    | ⟨1, _⟩ => show win1_3.index t (1 : Fin 2) * 128 + 1 * q.val = q.val; rw [e7]; omega
  rw [e]
  exact lin1_pay_blocks V c t p q _ rfl

/-- WHAT POINT `t` WRITES BACK is block `t` of the specification of the arrays the region finds. -/
theorem lin1_flushed_eq (c : Dev nD) (t : Fin cfg1.N) :
    (dat1 V c).flushed 3 t = ((cfg1.win 3).blk t).view.read (Elt Ideal) (linReluG (V c main_v46) (V c main_arg5) (V c main_v47)) := by
  show (cfg1.win 3).cut (grid1.coords t) ((dat1 V c).after 3 t) = _
  rw [after1_3]
  unfold out1
  rw [View.canon_unit_zero lin_hz]
  simp only [View.ld_unit_zero (S := S10000x128) lin_hz, View.ld_unit_zero (S := S128x128) lin_hz, View.ld_unit_zero (S := S1x128) lin_hz]
  funext j
  exact lin1_after_at V c t j

/-- An index of the array is in point `t`'s output block iff each coordinate is in the block's range on its axis. -/
theorem lin1_mem_blk (t : Fin cfg1.N) (i : S500000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v48).slice (win1_3.rect t)).set ↔ _
  rw [View.set_slice_whole, Rect.mem_set_unit]
  exact Iff.rfl

/-- The fifty row blocks tile the array: row `r` is in the block of point `r / 10000`. -/
theorem lin1_rows_cover (i : S500000x128.Idx) :
    ∃ t : Fin cfg1.N, (cfg1.win 3).flush t = true ∧ i ∈ ((cfg1.win 3).blk t).view.set := by
  have hi0 : (i 0).val < 500000 := (i 0).isLt
  have hi1 : (i 1).val < 128 := (i 1).isLt
  have hN : cfg1.N = 50 := N_1
  obtain ⟨t, ht⟩ : ∃ t : Fin cfg1.N, t.val = (i 0).val / 10000 := ⟨⟨(i 0).val / 10000, by rw [hN]; omega⟩, rfl⟩
  obtain ⟨-, -, -, -, -, -, e6, e7⟩ := lin1_idx_facts t
  refine ⟨t, flush1_3 t, ?_⟩
  rw [lin1_mem_blk]
  intro a
  match a with
  | ⟨0, _⟩ => show win1_3.index t (0 : Fin 2) * 10000 ≤ (i 0).val ∧ (i 0).val < win1_3.index t (0 : Fin 2) * 10000 + 10000; rw [e6, ht]; omega
  | ⟨1, _⟩ => show win1_3.index t (1 : Fin 2) * 128 ≤ (i 1).val ∧ (i 1).val < win1_3.index t (1 : Fin 2) * 128 + 128; rw [e7]; omega

/-- THE ARRAY after region 1: the second linear layer, on the rows clamped below at zero, of the arrays the region finds. -/
theorem lin1_value (c : Dev nD) :
    (dat1 (F := Ideal) V c).arrAt 3 cfg1.N = linReluG (V c main_v46) (V c main_arg5) (V c main_v47) :=
  (dat1 V c).arrAt_eq_of_cover 3 (linReluG (V c main_v46) (V c main_arg5) (V c main_v47)) (fun t _ => lin1_flushed_eq V c t) lin1_rows_cover

end Cert.KernelIdeal.Hand

end
-- ==== Proof.Val.MeanValue.lean ====
/-
  WHAT REGION 2 LEAVES IN ITS OUTPUT ARRAY, at the ideal values: lane by lane, the sum over all 500000 rows of the input
  array of `max(entry, 0)`, times 1/500000.
  At the ideal values the three stores of the body read at an index: the reset leaves 0; one accumulation adds to the
  scratch row, lane by lane, the sum over the block's 10000 rows of the rectified entries (a maximum against a broadcast
  zero, a sum over the row axis, a unit axis put back); the last store multiplies by the named constant, which the
  certificate's table makes the rational 1/500000. Block `n` of the input is the array's rows `10000·n … 10000·n + 9999`.
  So, by induction on the point, the scratch row after point `n` holds the sum over the array's first `10000·(n+1)`
  rows: sums over an initial segment of the naturals, joined by `Finset.sum_range_add`; addition on the extended reals
  is commutative and associative, so nothing about finiteness is asked. After point 49 that is all the rows. The output
  window is written back at the last point only, and its one block is the whole `[1,128]` array.
-/
import proofs.«426033_j56573309223970_1_alg».proof.Proof.KI.Mean
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Mathlib.Algebra.BigOperators.Fin
import Mathlib.Algebra.BigOperators.Group.Finset.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window)
open scoped BigOperators

variable (V : (c : Dev nD) → (b : Ref sig .tc) → Buf (Elt Ideal) ((c : Thread nD τ).loc b))

/-! ## The constants -/

theorem mv_hz2 : (![0, 0] : Fin 2 → Nat) = fun _ => 0 := funext fun a => by fin_cases a <;> rfl

/-- The named reciprocal denotes the rational 1/500000 at the ideal values, by the certificate's table. -/
theorem inv_500000 : Named.named (F := Ideal) Cert.KernelIdeal.κ "inv_500000" (φ := .f32) 0x360637BD#32 = ((1 / 500000 : ℝ) : EReal) :=
  IdealRules.named_const.ideal_named_scalar _ _ _ _ rfl

/-! ## The three stores, read at an index -/

/-- The reset stores the zero row. -/
theorem zero2_apply (i : S1x128.Idx) : zero2 (F := Ideal) i = 0 := by
  unfold zero2
  rw [View.canon_unit_zero mv_hz2]
  unfold k2_pay1
  rw [shapeCast_self]
  exact Ideal.ofBits_zero_f32

/-- The last point's store: the scratch row times the named constant. -/
theorem fin2_apply (s : Vec Ideal S1x128 .f32) (i : S1x128.Idx) :
    fin2 s i = s i * ((1 / 500000 : ℝ) : EReal) := by
  unfold fin2
  rw [View.canon_unit_zero mv_hz2]
  unfold k2_pay3
  simp only [View.ld_unit_zero (S := S1x128) mv_hz2]
  show s i * Named.named (F := Ideal) Cert.KernelIdeal.κ "inv_500000" (φ := .f32) 0x360637BD#32 = _
  rw [inv_500000]

/-- One accumulation: the scratch row plus, lane by lane, the sum over the block's rows of the rectified entries. -/
theorem step2_apply (x : Vec Ideal S10000x128 .f32) (s : Vec Ideal S1x128 .f32) (j : Fin 128) :
    step2 x s (ix2 (0 : Fin 1) j) = s (ix2 (0 : Fin 1) j) + ∑ r : Fin 10000, max (x (ix2 r j)) 0 := by
  unfold step2
  rw [View.canon_unit_zero mv_hz2]
  unfold k2_pay2
  simp only [View.ld_unit_zero (S := S10000x128) mv_hz2, View.ld_unit_zero (S := S1x128) mv_hz2, shapeCast_self]
  refine congrArg (s (ix2 (0 : Fin 1) j) + ·) ?_
  refine (shapeCast_addUnit_apply ![128] _ _ (ix2 (0 : Fin 1) j)).trans ?_
  refine (Ideal.multiReduction_add_single _ _ reduces_S10000x128_S128 _ _ _).trans ?_
  refine Finset.sum_congr rfl fun k _ => ?_
  have e : reduces_S10000x128_S128.lift (fun a => ix2 (0 : Fin 1) j a.succ) k = ix2 (k : Fin 10000) j := by
    funext a
    apply Fin.ext
    match a with
    | ⟨0, _⟩ => rfl
    | ⟨1, _⟩ => rfl
  show max (x _) (Ideal.ofBits .f32 0x00000000#32) = _
  rw [e, Ideal.ofBits_zero_f32]
  rfl

/-! ## The input's blocks: block `n` is the rows `10000·n … 10000·n + 9999` of the array -/

/-- The array the region reads, at its literal type. -/
abbrev xarr (c : Dev nD) : S500000x128.Idx → EReal := V c main_v60

/-- Its block at point `n`, at its literal type. -/
abbrev xblk (c : Dev nD) (n : ℕ) (h : n < cfg2.N) : Vec Ideal S10000x128 .f32 := iblk2 V c 0 ⟨n, h⟩

/-- The input window's index map over the grid: row block `t`, column block 0. -/
theorem index2_0 : ∀ t : Fin grid2.N, win2_0.index t 0 = t.val ∧ win2_0.index t 1 = 0 := by decide +kernel

/-- Entry `(r, j)` of block `n` is the array's entry `(10000·n + r, j)`. -/
theorem xblk_apply (c : Dev nD) (n : ℕ) (h : n < cfg2.N) (r : Fin 10000) (j : Fin 128) (hr : 10000 * n + r.val < 500000) :
    xblk V c n h (ix2 r j) = xarr V c (ix2 ⟨10000 * n + r.val, hr⟩ j) := by
  have hi0 : win2_0.index ⟨n, h⟩ 0 = n := (index2_0 ⟨n, h⟩).1
  have hi1 : win2_0.index ⟨n, h⟩ 1 = 0 := (index2_0 ⟨n, h⟩).2
  unfold xblk xarr iblk2
  rw [View.read_apply]
  show V c main_v60 _ = V c main_v60 _
  congr 1
  funext a
  apply Fin.ext
  match a with
  | ⟨0, _⟩ =>
    show win2_0.index ⟨n, h⟩ 0 * 10000 + 1 * r.val = 10000 * n + r.val
    rw [hi0]; omega
  | ⟨1, _⟩ =>
    show win2_0.index ⟨n, h⟩ 1 * 128 + 1 * j.val = j.val
    rw [hi1]; omega

/-! ## The running sum -/

/-- The rectified entry of lane `j` at row `k` of the array; past the array's last row, nothing. -/
def rowG (a : S500000x128.Idx → EReal) (j : Fin 128) (k : ℕ) : EReal :=
  if h : k < 500000 then max (a (ix2 ⟨k, h⟩ j)) 0 else 0

theorem rowG_of_lt (a : S500000x128.Idx → EReal) (j : Fin 128) (k : ℕ) (h : k < 500000) :
    rowG a j k = max (a (ix2 ⟨k, h⟩ j)) 0 := dif_pos h

/-- Block `n`'s part of lane `j`: the rectified rows `10000·n … 10000·n + 9999`. -/
theorem blockSum (c : Dev nD) (n : ℕ) (h : n < cfg2.N) (j : Fin 128) :
    ∑ r : Fin 10000, max (xblk V c n h (ix2 r j)) 0
      = ∑ k ∈ Finset.range 10000, rowG (xarr V c) j (10000 * n + k) := by
  have hN : n < 50 := h
  rw [Finset.sum_range]
  refine Finset.sum_congr rfl fun r _ => ?_
  have hr : 10000 * n + r.val < 500000 := by have := r.isLt; omega
  rw [rowG_of_lt _ _ _ hr, xblk_apply V c n h r j hr]

/-- THE INVARIANT. After point `n` the scratch row holds, lane by lane, the sum of the rectified entries of the
    array's first `10000·(n+1)` rows: by induction on the point, one block's rows joining the sum at each step. -/
theorem acc2_apply (c : Dev nD) : ∀ (n : ℕ) (h : n < cfg2.N) (j : Fin 128),
    (acc2 V c n h : Vec Ideal S1x128 .f32) (ix2 (0 : Fin 1) j)
      = ∑ k ∈ Finset.range (10000 * (n + 1)), rowG (xarr V c) j k
  | 0, h, j => by
    show step2 (xblk V c 0 h) zero2 (ix2 (0 : Fin 1) j) = _
    refine (step2_apply (xblk V c 0 h) zero2 j).trans ?_
    rw [zero2_apply, zero_add, blockSum V c 0 h j]
    simp only [Nat.mul_zero, Nat.zero_add, Nat.mul_one]
  | n + 1, h, j => by
    show step2 (xblk V c (n + 1) h) (acc2 V c n (Nat.lt_of_succ_lt h)) (ix2 (0 : Fin 1) j) = _
    refine (step2_apply (xblk V c (n + 1) h) (acc2 V c n (Nat.lt_of_succ_lt h)) j).trans ?_
    rw [acc2_apply c n (Nat.lt_of_succ_lt h) j, blockSum V c (n + 1) h j,
      show 10000 * (n + 1 + 1) = 10000 * (n + 1) + 10000 from by omega, Finset.sum_range_add]

/-! ## The result -/

/-- THE VALUE: lane by lane, the sum over ALL the array's rows of the rectified entries, times 1/500000. -/
def meanG (a : S500000x128.Idx → EReal) : S1x128.Idx → EReal :=
  fun i => (∑ r : Fin 500000, max (a (ix2 r ⟨(i 1).val, (i 1).isLt⟩)) 0) * ((1 / 500000 : ℝ) : EReal)

/-- What the last point stores is that: the scratch row after point 49 is the sum over all 500000 rows. -/
theorem mv_res2_eq (c : Dev nD) : (res2 V c : Vec Ideal S1x128 .f32) = meanG (xarr V c) := by
  funext i
  have hi : i = ix2 (0 : Fin 1) (⟨(i 1).val, (i 1).isLt⟩ : Fin 128) := by
    funext a
    apply Fin.ext
    match a with
    | ⟨0, _⟩ => have := idx2_lt0 i; show (i 0).val = 0; omega
    | ⟨1, _⟩ => rfl
  show fin2 (acc2 V c 49 (by decide)) i = _
  refine (fin2_apply _ i).trans ?_
  refine congrArg (· * ((1 / 500000 : ℝ) : EReal)) ?_
  refine (congrArg (acc2 V c 49 (by decide) : Vec Ideal S1x128 .f32) hi).trans ?_
  refine (acc2_apply V c 49 (by decide) ⟨(i 1).val, (i 1).isLt⟩).trans ?_
  show ∑ k ∈ Finset.range 500000, rowG (xarr V c) ⟨(i 1).val, (i 1).isLt⟩ k = _
  rw [Finset.sum_range]
  exact Finset.sum_congr rfl fun r _ => rowG_of_lt _ _ _ r.isLt

/-! ## The output array -/

/-- The output window's index map over the grid: block (0, 0) at every point. -/
theorem index2_1 : ∀ t : Fin grid2.N, win2_1.index t 0 = 0 ∧ win2_1.index t 1 = 0 := by decide +kernel

/-- The last point of the grid, the one write-back. -/
abbrev t49 : Fin cfg2.N := ⟨49, by decide⟩

/-- A write-back writes the result: the output's block, read through zero offsets, is the whole array. -/
theorem flushed2_1 (c : Dev nD) (t : Fin cfg2.N) (hf : (cfg2.win 1).flush t = true) :
    (dat2 V c).flushed 1 t = ((cfg2.win 1).blk t).view.read (Elt Ideal) (meanG (xarr V c)) := by
  show (cfg2.win 1).cut (grid2.coords t) ((dat2 V c).after 1 t) = _
  rw [after2_1, mv_res2_eq]
  have hz' : (fun a => win2_1.index t a * main_v61.ty.shape.size a) = fun _ => 0 := funext fun a => by
    match a with
    | ⟨0, _⟩ => show win2_1.index t 0 * _ = 0; rw [(index2_1 t).1, Nat.zero_mul]
    | ⟨1, _⟩ => show win2_1.index t 1 * _ = 0; rw [(index2_1 t).2, Nat.zero_mul]
  exact (Memref.read_access_unit_zero (Elt Ideal) main_v61 hz' (fun a => by rw [congrFun hz' a]; simp) (meanG (xarr V c))).symm

/-- WHAT THE REGION LEAVES in its output array: lane by lane the mean of the rectified rows of its input array. The last
    point is the one write-back and its block covers the whole array. -/
theorem mean_value (c : Dev nD) : (dat2 (F := Ideal) V c).arrAt 1 cfg2.N = meanG (V c main_v60) :=
  (dat2 V c).arrAt_eq_of_cover 1 (meanG (xarr V c)) (flushed2_1 V c) fun i =>
    ⟨t49, (flush2_1 t49).mpr rfl, by
      show i ∈ ((View.whole main_v61).slice (win2_1.rect t49)).set
      rw [View.set_slice_whole, Rect.mem_set_unit]
      intro a
      have h0 : (i 0 : Nat) < 1 := (i 0).isLt
      have h1 : (i 1 : Nat) < 128 := (i 1).isLt
      match a with
      | ⟨0, _⟩ =>
        show win2_1.index t49 0 * win2_1.size 0 ≤ (i 0 : Nat) ∧ (i 0 : Nat) < win2_1.index t49 0 * win2_1.size 0 + win2_1.xsize (grid2.coords t49) 0
        rw [show win2_1.index t49 0 * win2_1.size 0 = 0 from by decide +kernel, show win2_1.xsize (grid2.coords t49) 0 = 1 from by decide +kernel]; omega
      | ⟨1, _⟩ =>
        show win2_1.index t49 1 * win2_1.size 1 ≤ (i 1 : Nat) ∧ (i 1 : Nat) < win2_1.index t49 1 * win2_1.size 1 + win2_1.xsize (grid2.coords t49) 1
        rw [show win2_1.index t49 1 * win2_1.size 1 = 0 from by decide +kernel, show win2_1.xsize (grid2.coords t49) 1 = 128 from by decide +kernel]; omega⟩

end Cert.KernelIdeal.Hand

end
-- ==== Proof.Val.KValue.lean ====
/-
  The four results of the idealized kernel program as functions of its arguments, at the ideal values.
  The buffers between the items of the program are followed from the launch contents: the host stretches
  before the first region make the edge rows, the edge columns, the per-edge weight and the first bias row; region 0
  leaves the first linear layer; two host stretches aggregate it along the edges; region 1 leaves the second linear
  layer on the rows clamped below at zero; two more stretches aggregate that; region 2 leaves the column means;
  the tail computes the four results from that mean row. Each step is one named equation, and the four results
  are the tail's functions at `kG` of the arguments.
-/
import proofs.«426033_j56573309223970_1_alg».proof.Proof.KI.Segs
import proofs.«426033_j56573309223970_1_alg».proof.Proof.Val.KHost
import proofs.«426033_j56573309223970_1_alg».proof.Proof.Val.LinValue
import proofs.«426033_j56573309223970_1_alg».proof.Proof.Val.MeanValue

set_option maxRecDepth 16384

noncomputable section

namespace Cert.KernelIdeal.Hand

open Cert.KernelIdeal Cert.KernelIdeal.Gen
open Idealize.ShloMosaic Idealize.ShloMosaic.TcCoe

/-- The mean row the three regions and the host stretches between them compute from the arguments: two rounds of
    (linear layer, aggregation along the edges), the second on the rows clamped below at zero, then the column means. -/
def kG (a0 : FVec Ideal S500000x128 .f32) (a1 : IVec S2x500000 32) (a3 : FVec Ideal S128x128 .f32) (a4 : FVec Ideal S128 .f32)
    (a5 : FVec Ideal S128x128 .f32) (a6 : FVec Ideal S128 .f32) : FVec Ideal S1x128 .f32 :=
  meanG (aggK (F := Ideal) (linReluG (aggK (F := Ideal) (linG a0 a3 (biasRow (F := Ideal) a4)) a1) a5 (biasRow (F := Ideal) a6)) a1)

variable (m : (ℓ : Loc nD τ sig) → Buf (Elt Ideal) ℓ) (c : Dev nD)

/-! ## After region 0 -/

theorem X6_v34 : X6 m c main_v34 = o6 m c := by
  unfold X6; exact Function.update_self _ _ _
/-- Every other buffer is as the region found it. -/
theorem X6_of (r : Ref sig .tc) (h : r ≠ main_v34) : X6 m c r = V5 m c r := by
  unfold X6; exact Function.update_of_ne (StableHlo.devRef_ne_of_ne h) _ _

/-- Region 0 leaves the first linear layer of the arguments. -/
theorem o6_eq : o6 m c = linG (m ((c : Thread nD τ).loc main_arg0)) (m ((c : Thread nD τ).loc main_arg3)) (biasRow (F := Ideal) (m ((c : Thread nD τ).loc main_arg4))) := by
  refine (lin0_value (E5 m) c).trans ?_
  show linG (V5 m c main_arg0) (V5 m c main_arg3) (V5 m c main_v33) = _
  rw [V5_arg0, V5_arg3, V5_bias]

theorem X6_row : X6 m c main_v1 = eiRow (m ((c : Thread nD τ).loc main_arg1)) := (X6_of m c main_v1 (by decide)).trans (V5_row m c)
theorem X6_col : X6 m c main_v3 = eiCol (m ((c : Thread nD τ).loc main_arg1)) := (X6_of m c main_v3 (by decide)).trans (V5_col m c)
theorem X6_normCol : X6 m c main_v32 = normColK (F := Ideal) (m ((c : Thread nD τ).loc main_arg1)) :=
  (X6_of m c main_v32 (by decide)).trans (V5_normCol m c)

/-! ## When region 1 is entered -/

/-- Its rows are the aggregation of the first layer. -/
theorem X8_v46 : X8 m c main_v46 = aggK (F := Ideal) (o6 m c) (m ((c : Thread nD τ).loc main_arg1)) := by
  unfold X8
  rw [agg_read1 (X6 m c), X6_row, X6_col, X6_normCol, X6_v34]
  rfl
theorem X8_v47 : X8 m c main_v47 = biasRow (F := Ideal) (m ((c : Thread nD τ).loc main_arg6)) := by
  unfold X8
  rw [bias_read1 (X6 m c), X6_of m c main_arg6 (by decide), V5_arg6]
theorem X8_arg5 : X8 m c main_arg5 = (m ((c : Thread nD τ).loc main_arg5)) := by
  unfold X8
  rw [keep_read1 (X6 m c) main_arg5 (by decide) (by decide), X6_of m c main_arg5 (by decide), V5_arg5]
theorem X8_row : X8 m c main_v1 = eiRow (m ((c : Thread nD τ).loc main_arg1)) := by
  unfold X8
  rw [keep_read1 (X6 m c) main_v1 (by decide) (by decide), X6_row]
theorem X8_col : X8 m c main_v3 = eiCol (m ((c : Thread nD τ).loc main_arg1)) := by
  unfold X8
  rw [keep_read1 (X6 m c) main_v3 (by decide) (by decide), X6_col]
theorem X8_normCol : X8 m c main_v32 = normColK (F := Ideal) (m ((c : Thread nD τ).loc main_arg1)) := by
  unfold X8
  rw [keep_read1 (X6 m c) main_v32 (by decide) (by decide), X6_normCol]

/-! ## After region 1 -/

/-- Region 1 leaves the second linear layer, on the aggregated rows clamped below at zero. -/
theorem o9_eq : o9 m c = linReluG (aggK (F := Ideal) (o6 m c) (m ((c : Thread nD τ).loc main_arg1))) (m ((c : Thread nD τ).loc main_arg5)) (biasRow (F := Ideal) (m ((c : Thread nD τ).loc main_arg6))) := by
  refine (lin1_value (E8 m) c).trans ?_
  show linReluG (X8 m c main_v46) (X8 m c main_arg5) (X8 m c main_v47) = _
  rw [X8_v46, X8_arg5, X8_v47]

theorem X9_v48 : X9 m c main_v48 = o9 m c := by
  unfold X9; exact Function.update_self _ _ _
theorem X9_of (r : Ref sig .tc) (h : r ≠ main_v48) : X9 m c r = X8 m c r := by
  unfold X9; exact Function.update_of_ne (StableHlo.devRef_ne_of_ne h) _ _

/-! ## When region 2 is entered -/

/-- Its rows are the aggregation of the second layer. -/
theorem X11_v60 : X11 m c main_v60 = aggK (F := Ideal) (o9 m c) (m ((c : Thread nD τ).loc main_arg1)) := by
  unfold X11
  rw [agg_read2 (X9 m c), X9_of m c main_v1 (by decide), X9_of m c main_v3 (by decide), X9_of m c main_v32 (by decide),
    X9_v48, X8_row, X8_col, X8_normCol]
  rfl

/-! ## After region 2 -/

/-- Region 2 leaves the column means of what it read. -/
theorem o12_eq : o12 m c = kG (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (mean_value (E11 m) c).trans ?_
  show meanG (X11 m c main_v60) = _
  rw [X11_v60, o9_eq, o6_eq]
  rfl

theorem X12_v61 : X12 m c main_v61 = kG (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  unfold X12; exact (Function.update_self _ _ _).trans (o12_eq m c)

/-- A buffer no host stretch writes and no region changes is at its launch contents after region 2. -/
theorem X12_keep (r : Ref sig .tc) (h0 : r ∉ hostOps0_W) (h1 : r ∉ hostOps0_1_W) (h2 : r ∉ hostOps0_2_W) (h3 : r ∉ hostOps0_3_W)
    (h4 : r ∉ hostOps0_4_W) (h5 : r ≠ main_v34) (h6 : r ∉ hostOps1_W) (h7 : r ∉ hostOps1_1_W) (h8 : r ≠ main_v48)
    (h9 : r ∉ hostOps2_W) (h10 : r ∉ hostOps2_1_W) (h11 : r ≠ main_v61) : X12 m c r = m ((c : Thread nD τ).loc r) := by
  have e12 : X12 m c r = X11 m c r := by
    unfold X12; exact Function.update_of_ne (StableHlo.devRef_ne_of_ne h11) _ _
  have e11 : X11 m c r = X9 m c r := by
    unfold X11; exact keep_read2 (X9 m c) r h9 h10
  have e8 : X8 m c r = X6 m c r := by
    unfold X8; exact keep_read1 (X6 m c) r h6 h7
  exact e12.trans <| e11.trans <| (X9_of m c r h8).trans <| e8.trans <| (X6_of m c r h5).trans (V5_keep m c r h0 h1 h2 h3 h4)

theorem X12_arg2 : X12 m c main_arg2 = (m ((c : Thread nD τ).loc main_arg2)) :=
  X12_keep m c main_arg2 (by decide) (by decide) (by decide) (by decide) (by decide) (by decide) (by decide) (by decide) (by decide) (by decide) (by decide) (by decide)
theorem X12_arg7 : X12 m c main_arg7 = (m ((c : Thread nD τ).loc main_arg7)) :=
  X12_keep m c main_arg7 (by decide) (by decide) (by decide) (by decide) (by decide) (by decide) (by decide) (by decide) (by decide) (by decide) (by decide) (by decide)
theorem X12_arg8 : X12 m c main_arg8 = (m ((c : Thread nD τ).loc main_arg8)) :=
  X12_keep m c main_arg8 (by decide) (by decide) (by decide) (by decide) (by decide) (by decide) (by decide) (by decide) (by decide) (by decide) (by decide) (by decide)
theorem X12_arg9 : X12 m c main_arg9 = (m ((c : Thread nD τ).loc main_arg9)) :=
  X12_keep m c main_arg9 (by decide) (by decide) (by decide) (by decide) (by decide) (by decide) (by decide) (by decide) (by decide) (by decide) (by decide) (by decide)
theorem X12_arg10 : X12 m c main_arg10 = (m ((c : Thread nD τ).loc main_arg10)) :=
  X12_keep m c main_arg10 (by decide) (by decide) (by decide) (by decide) (by decide) (by decide) (by decide) (by decide) (by decide) (by decide) (by decide) (by decide)
theorem X12_arg11 : X12 m c main_arg11 = (m ((c : Thread nD τ).loc main_arg11)) :=
  X12_keep m c main_arg11 (by decide) (by decide) (by decide) (by decide) (by decide) (by decide) (by decide) (by decide) (by decide) (by decide) (by decide) (by decide)
theorem X12_arg12 : X12 m c main_arg12 = (m ((c : Thread nD τ).loc main_arg12)) :=
  X12_keep m c main_arg12 (by decide) (by decide) (by decide) (by decide) (by decide) (by decide) (by decide) (by decide) (by decide) (by decide) (by decide) (by decide)
theorem X12_arg13 : X12 m c main_arg13 = (m ((c : Thread nD τ).loc main_arg13)) :=
  X12_keep m c main_arg13 (by decide) (by decide) (by decide) (by decide) (by decide) (by decide) (by decide) (by decide) (by decide) (by decide) (by decide) (by decide)
theorem X12_arg14 : X12 m c main_arg14 = (m ((c : Thread nD τ).loc main_arg14)) :=
  X12_keep m c main_arg14 (by decide) (by decide) (by decide) (by decide) (by decide) (by decide) (by decide) (by decide) (by decide) (by decide) (by decide) (by decide)
theorem X12_arg15 : X12 m c main_arg15 = (m ((c : Thread nD τ).loc main_arg15)) :=
  X12_keep m c main_arg15 (by decide) (by decide) (by decide) (by decide) (by decide) (by decide) (by decide) (by decide) (by decide) (by decide) (by decide) (by decide)
theorem X12_arg16 : X12 m c main_arg16 = (m ((c : Thread nD τ).loc main_arg16)) :=
  X12_keep m c main_arg16 (by decide) (by decide) (by decide) (by decide) (by decide) (by decide) (by decide) (by decide) (by decide) (by decide) (by decide) (by decide)

/-! ## The four results -/

theorem k_mu : V15 m (outs m) c main_v64 = muK (kG (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) := by
  show StableHlo.after hostOps3_2 (StableHlo.after hostOps3_1 (StableHlo.after hostOps3 (V12 m (outs m) c))) main_v64 = _
  rw [V12_eq, tail_mu (X12 m c), X12_v61, X12_arg7, X12_arg8]

theorem k_lv : V15 m (outs m) c main_v67 = muK (kG (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg9)) (m ((c : Thread nD τ).loc main_arg10)) := by
  show StableHlo.after hostOps3_2 (StableHlo.after hostOps3_1 (StableHlo.after hostOps3 (V12 m (outs m) c))) main_v67 = _
  rw [V12_eq, tail_lv (X12 m c), X12_v61, X12_arg9, X12_arg10]

theorem k_node : V15 m (outs m) c main_v75
    = nodeK (zK (kG (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) := by
  show StableHlo.after hostOps3_2 (StableHlo.after hostOps3_1 (StableHlo.after hostOps3 (V12 m (outs m) c))) main_v75 = _
  rw [V12_eq, tail_node (X12 m c), X12_v61, X12_arg2, X12_arg7, X12_arg8, X12_arg9, X12_arg10, X12_arg11, X12_arg12]

theorem k_edge : V15 m (outs m) c main_v84
    = edgeK (zK (kG (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) (m ((c : Thread nD τ).loc main_arg10))) (m ((c : Thread nD τ).loc main_arg13)) (m ((c : Thread nD τ).loc main_arg14)) (m ((c : Thread nD τ).loc main_arg15)) (m ((c : Thread nD τ).loc main_arg16)) := by
  show StableHlo.after hostOps3_2 (StableHlo.after hostOps3_1 (StableHlo.after hostOps3 (V12 m (outs m) c))) main_v84 = _
  rw [V12_eq, tail_edge (X12 m c), X12_v61, X12_arg2, X12_arg7, X12_arg8, X12_arg9, X12_arg10, X12_arg13, X12_arg14, X12_arg15, X12_arg16]

end Cert.KernelIdeal.Hand

end
-- ==== Proof.Val.ColRange.lean ====
/-
  What the index-range conjunct of the precondition gives, at the ideal instance.
    * `edges_in_range`: the precondition's last conjunct, decoded: every entry of the edge list lies in `[0, N)`, `N = 500000`.
    * `col_inRange`: then the range test of a `take` at the column indices is all ones (a non-negative index is not shifted,
      and `0 ≤ v ≤ N - 1` makes both comparisons true);
    * `takeK_inRange`, `take1K_inRange`: a `take` whose range test is all ones is the plain gather;
    * `gather1_apply`, `gather128_apply`: the two gathers read at an index — entry, resp. row, `rowOf idx e` of the operand,
      the same row for both;
    * `gather_mul`: gathering rows commutes with scaling each row by its own weight.
-/
import proofs.«426033_j56573309223970_1_alg».proof.Proof.Val.KDefs
import proofs.«426033_j56573309223970_1_alg».proof.Pre_finite_inputs
import proofs.«426033_j56573309223970_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-! ## An all-reduce by `and` of an array of ones -/

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all_one f hf l

/-- A `reduce` by `and` from the constant 1 of an array whose every element is 1 is 1 everywhere. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_of_all_one x hx _

/-! ## The column indices pass the range test -/

/-- The unit-axis index vector read at `(e, 0)`: the shifted vector at `e`. -/
theorem idxOf_apply (v : IVec S500000 32) (i : S500000x1.Idx) : idxOf v i = wrapN v (ix1 ⟨(i 0).val, (i 0).isLt⟩) := by
  unfold idxOf
  refine broadcastInDim_apply _ _ _ i _ fun a => ?_
  match a with
  | ⟨0, _⟩ => rfl

/-- A non-negative index is left alone. -/
theorem wrapN_of_nonneg (v : IVec S500000 32) (k : S500000.Idx) (h0 : 0 ≤ (v k).toInt) : wrapN v k = v k := by
  unfold wrapN
  rw [select_apply]
  have hc : ¬ cmpi .slt v (broadcastInDim S500000 ![] bcast_S_S500000 (constantI S_ 32 0#32)) k = 1#1 := by
    show ¬ IntOp.cmpi .slt (v k) 0#32 = 1#1
    rw [IntOp.cmpi_slt]
    have : (0#32 : BitVec 32).toInt = 0 := by decide
    omega
  rw [eq_zero_of_ne_one hc, select_zero]

/-- The second row of the edge list, entry `e`. -/
theorem eiCol_apply (ei : IVec S2x500000 32) (k : S500000.Idx) :
    eiCol ei k = ei (ix2 (1 : Fin 2) ⟨(k 0).val, (k 0).isLt⟩) := by
  unfold eiCol
  refine (shapeCast_apply _ _ k (ix2 (0 : Fin 1) ⟨(k 0).val, (k 0).isLt⟩) ?_).trans ?_
  · rw [Shape.rowMajor_val_two, Shape.rowMajor_val_one]
    show 0 * 500000 + (k 0).val = (k 0).val
    omega
  · refine extractStridedSlice_apply _ _ _ _ _ fun a => ?_
    match a with
    | ⟨0, _⟩ => rfl
    | ⟨1, _⟩ => show (k 0).val = 0 + (k 0).val; omega

/-- The range test of an index vector whose entries lie in `[0, N)` is all ones. -/
theorem inRangeK_of_range (v : IVec S500000 32) (h : ∀ k : S500000.Idx, (0 : Int) ≤ (v k).toInt ∧ (v k).toInt < 500000) :
    inRangeK v = fun _ => 1#1 := by
  funext j
  unfold inRangeK
  refine reduce_andi_of_all_one _ _ _ _ rfl (fun i => ?_) j
  obtain ⟨h0, h1⟩ := h (ix1 ⟨(i 0).val, (i 0).isLt⟩)
  have e : idxOf v i = v (ix1 ⟨(i 0).val, (i 0).isLt⟩) := (idxOf_apply v i).trans (wrapN_of_nonneg v _ h0)
  show IntOp.andi (IntOp.cmpi .sge (idxOf v i) 0#32) (IntOp.cmpi .sle (idxOf v i) 499999#32) = 1#1
  rw [e, IntOp.andi_eq_one, IntOp.cmpi_sge, IntOp.cmpi_sle]
  have z : (0#32 : BitVec 32).toInt = 0 := by decide
  have n : (499999#32 : BitVec 32).toInt = 499999 := by decide
  omega

theorem col_inRange (ei : IVec S2x500000 32) (h : ∀ i : S2x500000.Idx, (0 : Int) ≤ (ei i).toInt ∧ (ei i).toInt < 500000) :
    inRangeK (eiCol ei) = fun _ => 1#1 :=
  inRangeK_of_range _ fun k => by rw [eiCol_apply]; exact h _

/-! ## A `take` whose range test is all ones is the gather -/

theorem takeK_inRange {F : FTy → Type} [FloatOps F] (x : FVec F S500000 .f32) (v : IVec S500000 32) (h : inRangeK v = fun _ => 1#1) :
    takeK x v = Host.gather gather_S500000_S500000x1_S500000_n_0_n_n_0_1_1 x (idxOf v) := by
  funext i
  unfold takeK
  rw [select_apply, h, select_one]

theorem take1K_inRange {F : FTy → Type} [FloatOps F] (x : FVec F S500000x128 .f32) (v : IVec S500000 32) (h : inRangeK v = fun _ => 1#1) :
    take1K x v = Host.gather gather_S500000x128_S500000x1_S500000x128_1_0_n_n_0_1_1128 x (idxOf v) := by
  funext i
  unfold take1K
  rw [select_apply, h]
  show Scalar.select 1#1 _ _ = _
  rw [select_one]

/-! ## The precondition's index-range conjunct, decoded -/

theorem edges_in_range (a0 : FVec Ideal Cert.Pre_finite_inputs.S500000x128 .f32) (ei : IVec Cert.Pre_finite_inputs.S2x500000 32)
    (a2 : FVec Ideal Cert.Pre_finite_inputs.S1x32 .f32) (a3 : FVec Ideal Cert.Pre_finite_inputs.S128x128 .f32)
    (a4 : FVec Ideal Cert.Pre_finite_inputs.S128 .f32) (a5 : FVec Ideal Cert.Pre_finite_inputs.S128x128 .f32)
    (a6 : FVec Ideal Cert.Pre_finite_inputs.S128 .f32) (a7 : FVec Ideal Cert.Pre_finite_inputs.S128x32 .f32)
    (a8 : FVec Ideal Cert.Pre_finite_inputs.S32 .f32) (a9 : FVec Ideal Cert.Pre_finite_inputs.S128x32 .f32)
    (a10 : FVec Ideal Cert.Pre_finite_inputs.S32 .f32) (a11 : FVec Ideal Cert.Pre_finite_inputs.S32x16 .f32)
    (a12 : FVec Ideal Cert.Pre_finite_inputs.S16 .f32) (a13 : FVec Ideal Cert.Pre_finite_inputs.S64x128 .f32)
    (a14 : FVec Ideal Cert.Pre_finite_inputs.S128 .f32) (a15 : FVec Ideal Cert.Pre_finite_inputs.S128x4 .f32)
    (a16 : FVec Ideal Cert.Pre_finite_inputs.S4 .f32)
    (h : Cert.Pre_finite_inputs.fn (F := Ideal) a0 ei a2 a3 a4 a5 a6 a7 a8 a9 a10 a11 a12 a13 a14 a15 a16 = (fun _ => 1#1)) :
    ∀ i : S2x500000.Idx, (0 : Int) ≤ (ei i).toInt ∧ (ei i).toInt < 500000 := by
  intro i
  haveI : Subsingleton Cert.Pre_finite_inputs.S_.Idx := ⟨fun a b => funext fun d => d.elim0⟩
  have e := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  have e84 := (IntOp.andi_eq_one.1 e).2
  have ei1 := Host.reduce_andi_all _ _ _ _ _ e84 i
  obtain ⟨h0, h1⟩ := IntOp.andi_eq_one.1 ei1
  replace h0 : IntOp.cmpi .sge (ei i) 0#32 = 1#1 := h0
  replace h1 : IntOp.cmpi .slt (ei i) 500000#32 = 1#1 := h1
  have z : (0#32 : BitVec 32).toInt = 0 := by decide
  have n : (500000#32 : BitVec 32).toInt = 500000 := by decide
  exact ⟨by have := IntOp.cmpi_sge.1 h0; omega, by have := IntOp.cmpi_slt.1 h1; omega⟩

/-! ## The two gathers read at an index -/

/-- The row a gather reads for edge `e`: the start index `idx[e, 0]` read signed and clamped into `[0, N - 1]`. It depends on
    the index vector only, so the entry gather and the row gather read the same row. -/
def rowOf (idx : IVec S500000x1 32) (e : Fin 500000) : Fin 500000 :=
  ⟨min (idx (ix2 e (0 : Fin 1))).toInt.toNat 499999, by omega⟩

/-- The gather of entries, read at `e`: entry `rowOf idx e` of the operand. -/
theorem gather1_apply {α : Type} (x : S500000.Idx → α) (idx : IVec S500000x1 32) (y : S500000.Idx) :
    Host.gather gather_S500000_S500000x1_S500000_n_0_n_n_0_1_1 x idx y = x (ix1 (rowOf idx ⟨(y 0).val, (y 0).isLt⟩)) := by
  unfold Host.gather
  congr 1
  funext a
  obtain rfl : a = 0 := Subsingleton.elim _ _
  refine Fin.ext ?_
  show gather_S500000_S500000x1_S500000_n_0_n_n_0_1_1.start y idx 0 + gather_S500000_S500000x1_S500000_n_0_n_n_0_1_1.batchCoord y 0
      + gather_S500000_S500000x1_S500000_n_0_n_n_0_1_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S500000_S500000x1_S500000_n_0_n_n_0_1_1.startIndexMap from List.mem_singleton.mpr rfl)]
  have hsi : gather_S500000_S500000x1_S500000_n_0_n_n_0_1_1.siIdx y
      ⟨List.idxOf (0 : Fin 1) gather_S500000_S500000x1_S500000_n_0_n_n_0_1_1.startIndexMap,
        List.idxOf_lt_length_iff.2 (List.mem_singleton.mpr rfl)⟩ = ix2 ⟨(y 0).val, (y 0).isLt⟩ (0 : Fin 1) := by
    funext b; refine Fin.ext ?_
    match b with
    | ⟨0, _⟩ => rfl
    | ⟨1, _⟩ => rfl
  rw [hsi]
  rfl

/-- The gather of rows, read at `(e, c)`: column `c` of row `rowOf idx e` of the operand. -/
theorem gather128_apply {α : Type} (x : S500000x128.Idx → α) (idx : IVec S500000x1 32) (y : S500000x128.Idx) :
    Host.gather gather_S500000x128_S500000x1_S500000x128_1_0_n_n_0_1_1128 x idx y
      = x (ix2 (rowOf idx ⟨(y 0).val, (y 0).isLt⟩) ⟨(y 1).val, (y 1).isLt⟩) := by
  unfold Host.gather
  congr 1
  funext a
  refine Fin.ext ?_
  match a with
  | ⟨0, _⟩ =>
    show gather_S500000x128_S500000x1_S500000x128_1_0_n_n_0_1_1128.start y idx (0 : Fin 2) + gather_S500000x128_S500000x1_S500000x128_1_0_n_n_0_1_1128.batchCoord y (0 : Fin 2) + gather_S500000x128_S500000x1_S500000x128_1_0_n_n_0_1_1128.offCoord y (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S500000x128_S500000x1_S500000x128_1_0_n_n_0_1_1128.startIndexMap from List.mem_singleton.mpr rfl)]
    have hsi : gather_S500000x128_S500000x1_S500000x128_1_0_n_n_0_1_1128.siIdx y
        ⟨List.idxOf (0 : Fin 2) gather_S500000x128_S500000x1_S500000x128_1_0_n_n_0_1_1128.startIndexMap,
          List.idxOf_lt_length_iff.2 (List.mem_singleton.mpr rfl)⟩ = ix2 ⟨(y 0).val, (y 0).isLt⟩ (0 : Fin 1) := by
      funext b; refine Fin.ext ?_
      match b with
      | ⟨0, _⟩ => rfl
      | ⟨1, _⟩ => rfl
    rw [hsi]
    rfl
  | ⟨1, _⟩ =>
    show gather_S500000x128_S500000x1_S500000x128_1_0_n_n_0_1_1128.start y idx (1 : Fin 2) + gather_S500000x128_S500000x1_S500000x128_1_0_n_n_0_1_1128.batchCoord y (1 : Fin 2) + gather_S500000x128_S500000x1_S500000x128_1_0_n_n_0_1_1128.offCoord y (1 : Fin 2) = (y 1).val
    have hs : gather_S500000x128_S500000x1_S500000x128_1_0_n_n_0_1_1128.start y idx (1 : Fin 2) = 0 := by
      unfold GatherDims.start
      rw [dif_neg (show ¬ (1 : Fin 2) ∈ gather_S500000x128_S500000x1_S500000x128_1_0_n_n_0_1_1128.startIndexMap from fun h => absurd (List.mem_singleton.1 h) (by decide))]
    have ho : gather_S500000x128_S500000x1_S500000x128_1_0_n_n_0_1_1128.offCoord y (1 : Fin 2) = (y 1).val := by
      unfold GatherDims.offCoord
      rw [dif_pos ((GatherDims.mem_sKept _ _).2
        ⟨(show ¬ (1 : Fin 2) ∈ gather_S500000x128_S500000x1_S500000x128_1_0_n_n_0_1_1128.collapsedSliceDims from fun h => absurd (List.mem_singleton.1 h) (by decide)), List.not_mem_nil⟩)]
      rfl
    rw [hs, ho, GatherDims.batchCoord_eq_zero _ _ _ List.not_mem_nil, Nat.zero_add]

/-! ## Gathering rows commutes with scaling each row by its own weight -/

/-- A vector laid along the rows of the rectangle (constant along each row), read at `(e, c)`: the vector at `e`. -/
theorem bcastRows_apply {α : Type} (v : S500000.Idx → α) (y : S500000x128.Idx) :
    broadcastInDim S500000x128 ![0, 1] bcast_S500000x1_S500000x128_0_1 (broadcastInDim S500000x1 ![0] bcast_S500000_S500000x1_0 v) y
      = v (ix1 ⟨(y 0).val, (y 0).isLt⟩) := by
  refine (broadcastInDim_apply _ _ _ y (ix2 ⟨(y 0).val, (y 0).isLt⟩ (0 : Fin 1)) fun a => ?_).trans
    (broadcastInDim_apply _ _ _ _ _ fun a => ?_)
  · match a with
    | ⟨0, _⟩ => rfl
    | ⟨1, _⟩ => rfl
  · match a with
    | ⟨0, _⟩ => rfl

theorem gather_mul (lin : S500000x128.Idx → EReal) (n : S500000.Idx → EReal) (idx : IVec S500000x1 32) :
    mulf (F := Ideal) (φ := .f32) (Host.gather gather_S500000x128_S500000x1_S500000x128_1_0_n_n_0_1_1128 lin idx)
        (broadcastInDim S500000x128 ![0, 1] bcast_S500000x1_S500000x128_0_1
          (broadcastInDim S500000x1 ![0] bcast_S500000_S500000x1_0 (Host.gather gather_S500000_S500000x1_S500000_n_0_n_n_0_1_1 n idx)))
      = Host.gather gather_S500000x128_S500000x1_S500000x128_1_0_n_n_0_1_1128
          (mulf (F := Ideal) (φ := .f32) lin (broadcastInDim S500000x128 ![0, 1] bcast_S500000x1_S500000x128_0_1
            (broadcastInDim S500000x1 ![0] bcast_S500000_S500000x1_0 n))) idx := by
  funext y
  rw [mulf_apply, gather128_apply, bcastRows_apply, gather1_apply, gather128_apply, mulf_apply, bcastRows_apply]

end Cert.KernelIdeal.Hand

end
-- ==== Proof.Val.AggForm.lean ====
/-
  One aggregation, in the form the reference spells it. Where every column index lies in `[0, N)` both `take`s
  are plain gathers, and gathering rows commutes with scaling each row by its own weight: so
  `take(lin, col) · take(norm, col)`, scattered along the rows, is the gather at `col` of `lin · norm`, scattered
  along the rows.
-/
import proofs.«426033_j56573309223970_1_alg».proof.Proof.Val.ColRange

noncomputable section

namespace Cert.KernelIdeal.Hand

open Cert.KernelIdeal Cert.KernelIdeal.Gen
open Idealize.ShloMosaic

/-- The scatter-add along the rows of the column-gather of `lin` scaled row by row by the edge weights. -/
def aggG {F : FTy → Type} [FloatOps F] (lin : FVec F S500000x128 .f32) (ei : IVec S2x500000 32) : FVec F S500000x128 .f32 :=
  Host.scatterAdd scatter_S500000x128_S500000x1_S500000x128_1_0_0_1
    (broadcastInDim S500000x128 ![] bcast_S_S500000x128 (constant S_ .f32 0x00000000#32)) (idxOf (eiRow ei))
    (Host.gather gather_S500000x128_S500000x1_S500000x128_1_0_n_n_0_1_1128
      (mulf lin (broadcastInDim S500000x128 ![0, 1] bcast_S500000x1_S500000x128_0_1
        (broadcastInDim S500000x1 ![0] bcast_S500000_S500000x1_0 (normK (F := F) ei))))
      (idxOf (eiCol ei)))

theorem aggK_eq (lin : FVec Ideal S500000x128 .f32) (ei : IVec S2x500000 32)
    (hcol : inRangeK (eiCol ei) = fun _ => 1#1) : aggK (F := Ideal) lin ei = aggG (F := Ideal) lin ei := by
  unfold aggK aggG normColK
  rw [takeK_inRange _ _ hcol, take1K_inRange _ _ hcol, gather_mul]

end Cert.KernelIdeal.Hand

end
-- ==== Proof.Val.RefGen.lean ====
/-
  The reference program's run and its stages read at an index, gathered under one import.
-/
import proofs.«426033_j56573309223970_1_alg».proof.Proof.Val.RunP
import proofs.«426033_j56573309223970_1_alg».proof.Proof.Val.ReadP
-- ==== Proof.Val.RefShape.lean ====
/-
  The reference program's stages that are, operation for operation, the host functions of the kernel program:
  each aggregation (the scatter-add along the rows of the column-gather of `lin · norm`, with the same index
  vectors and the same degree normalisation), and the dense tail on the mean row (`mu`, `logvar`, `z`, the node
  logits). The two programs name their shapes and operation records in two namespaces; the shapes are the same
  literals and the records the same data, so these are equalities by unfolding.
-/
import proofs.«426033_j56573309223970_1_alg».proof.Proof.Val.AggForm
import proofs.«426033_j56573309223970_1_alg».proof.Proof.Val.RefGen

set_option maxRecDepth 8192

noncomputable section

namespace Cert.Bridge

open Idealize.ShloMosaic
open Cert.KernelIdeal.Hand
open Cert.ReferenceIdeal.ReadP

variable {F : FTy → Type} [FloatOps F]

variable (x0 : (⟨Cert.ReferenceIdeal.S500000x128, .f32⟩ : BufTy).Contents (Elt F)) (x1 : (⟨Cert.ReferenceIdeal.S2x500000, .i32⟩ : BufTy).Contents (Elt F)) (x2 : (⟨Cert.ReferenceIdeal.S1x32, .f32⟩ : BufTy).Contents (Elt F))
  (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F))
  (x7 : (⟨Cert.ReferenceIdeal.S128x32, .f32⟩ : BufTy).Contents (Elt F)) (x8 : (⟨Cert.ReferenceIdeal.S32, .f32⟩ : BufTy).Contents (Elt F)) (x9 : (⟨Cert.ReferenceIdeal.S128x32, .f32⟩ : BufTy).Contents (Elt F)) (x10 : (⟨Cert.ReferenceIdeal.S32, .f32⟩ : BufTy).Contents (Elt F))
  (x11 : (⟨Cert.ReferenceIdeal.S32x16, .f32⟩ : BufTy).Contents (Elt F)) (x12 : (⟨Cert.ReferenceIdeal.S16, .f32⟩ : BufTy).Contents (Elt F))

/-- The first aggregation of the reference: `aggG` of its first linear layer. -/
theorem ref_agg1 : val_main_v53 (F := F) x0 x1 x3 x4 = aggG (F := F) (val_main_v7 (F := F) x0 x3 x4) x1 := rfl

/-- The second aggregation: `aggG` of its second linear layer. -/
theorem ref_agg2 : val_main_v104 (F := F) x0 x1 x3 x4 x5 x6 = aggG (F := F) (val_main_v58 (F := F) x0 x1 x3 x4 x5 x6) x1 := rfl

/-- `mu`, `logvar`, `z` and the node logits are the same dense tail on the mean row. -/
theorem ref_mu : val_main_v112 (F := F) x0 x1 x3 x4 x5 x6 x7 x8 = muK (F := F) (val_main_v109 (F := F) x0 x1 x3 x4 x5 x6) x7 x8 := rfl
theorem ref_lv : val_main_v115 (F := F) x0 x1 x3 x4 x5 x6 x9 x10 = muK (F := F) (val_main_v109 (F := F) x0 x1 x3 x4 x5 x6) x9 x10 := rfl
theorem ref_z : val_main_v120 (F := F) x0 x1 x2 x3 x4 x5 x6 x7 x8 x9 x10
    = zK (F := F) (val_main_v109 (F := F) x0 x1 x3 x4 x5 x6) x2 x7 x8 x9 x10 := rfl
theorem ref_node : val_main_v123 (F := F) x0 x1 x2 x3 x4 x5 x6 x7 x8 x9 x10 x11 x12
    = nodeK (F := F) (val_main_v120 (F := F) x0 x1 x2 x3 x4 x5 x6 x7 x8 x9 x10) x11 x12 := rfl

end Cert.Bridge

end
-- ==== Proof.Val.RefLin.lean ====
/-
  The reference's two linear layers are the same functions of their arrays as the kernel regions': the first
  is `linG` of the input, the weights and the bias as a row; the second is `linReluG` of the aggregated
  array it clamps below at zero, its weights and its bias as a row. Index by index: a product of a row with a
  column is the sum over the contracted axis on both sides, the bias broadcast over the rows is the bias row
  at the column, and the clamp is `max · 0`.
-/
import proofs.«426033_j56573309223970_1_alg».proof.Proof.Val.LinValue
import proofs.«426033_j56573309223970_1_alg».proof.Proof.Val.KDefs
import proofs.«426033_j56573309223970_1_alg».proof.Proof.Val.RefGen

noncomputable section

namespace Cert.Bridge

open Idealize.ShloMosaic Idealize.ShloMosaic.ValueIdx Cert.KernelIdeal.Hand Cert.ReferenceIdeal.ReadP

/-- The bias as a row, read at `(u, q)`, is the vector at `q`. -/
theorem biasRow_apply (b : FVec Ideal Cert.KernelIdeal.S128 .f32) (u : Fin 1) (q : Fin 128) :
    biasRow (F := Ideal) b (ix2 u q) = b (ix1 q) := by
  unfold biasRow
  exact shapeCast_a_1a_apply b _ u q

/-- The reference's first linear layer, `x · W1` plus the bias broadcast over the rows, is `linG`. -/
theorem ref_lin1 (x0 : (⟨Cert.ReferenceIdeal.S500000x128, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal)) :
    val_main_v7 (F := Ideal) x0 x3 x4 = linG x0 x3 (biasRow (F := Ideal) x4) := by
  funext i
  rw [val_main_v7_apply, val_main_v4_apply, val_main_v6_apply, val_main_v5_apply]
  unfold linG
  rw [biasRow_apply]
  have eb : idx_main_v5 (idx_main_v6 i) = ix1 (⟨(i 1).val, (i 1).isLt⟩ : Fin 128) :=
    funext fun a => by match a with | ⟨0, _⟩ => rfl
  rw [eb]
  show (_ : EReal) + _ = _ + _
  refine congrArg (· + _) (Finset.sum_congr rfl fun k _ => ?_)
  have el : lidx_main_v4 i k = ix2 (⟨(i 0).val, (i 0).isLt⟩ : Fin 500000) k :=
    funext fun a => by match a with | ⟨0, _⟩ => rfl | ⟨1, _⟩ => rfl
  have er : ridx_main_v4 i k = ix2 k (⟨(i 1).val, (i 1).isLt⟩ : Fin 128) :=
    funext fun a => by match a with | ⟨0, _⟩ => rfl | ⟨1, _⟩ => rfl
  rw [el, er]

-- the aggregated array is an opaque operand here: nothing below looks inside it
attribute [local irreducible] Cert.ReferenceIdeal.ReadP.val_main_v53 in
/-- The reference's second linear layer, on its input clamped below at zero, is `linReluG` of that input. -/
theorem ref_lin2 (x0 : (⟨Cert.ReferenceIdeal.S500000x128, .f32⟩ : BufTy).Contents (Elt Ideal))
    (x1 : (⟨Cert.ReferenceIdeal.S2x500000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal)) :
    val_main_v58 (F := Ideal) x0 x1 x3 x4 x5 x6
      = linReluG (val_main_v53 (F := Ideal) x0 x1 x3 x4) x5 (biasRow (F := Ideal) x6) := by
  funext i
  rw [val_main_v58_apply, val_main_v55_apply, val_main_v57_apply, val_main_v56_apply]
  unfold linReluG
  rw [biasRow_apply]
  have eb : idx_main_v56 (idx_main_v57 i) = ix1 (⟨(i 1).val, (i 1).isLt⟩ : Fin 128) :=
    funext fun a => by match a with | ⟨0, _⟩ => rfl
  rw [eb]
  show (_ : EReal) + _ = _ + _
  refine congrArg (· + _) (Finset.sum_congr rfl fun k _ => ?_)
  have el : lidx_main_v55 i k = ix2 (⟨(i 0).val, (i 0).isLt⟩ : Fin 500000) k :=
    funext fun a => by match a with | ⟨0, _⟩ => rfl | ⟨1, _⟩ => rfl
  have er : ridx_main_v55 i k = ix2 k (⟨(i 1).val, (i 1).isLt⟩ : Fin 128) :=
    funext fun a => by match a with | ⟨0, _⟩ => rfl | ⟨1, _⟩ => rfl
  rw [el, er, val_main_v54_apply, val_main_call1_v0_apply, val_main_call1_cst_apply]
  show max _ (Ideal.ofBits .f32 0x00000000#32) * _ = _
  rw [Ideal.ofBits_zero_f32]

end Cert.Bridge

end
-- ==== Proof.Val.Consts.lean ====
/-
  The one float constant of the reference that the comparison evaluates: the word of `500000.0`, the row count the
  reference divides the column sums by, denotes the real `500000`.
-/
import Idealize.ShloMosaic.PureOps.Ideal

noncomputable section

namespace Cert.Consts

open Idealize.ShloMosaic

/-- `500000.0 = 1.9073486328125 · 2^18` exactly. -/
theorem ofBits_500000 : Ideal.ofBits .f32 0x48F42400#32 = ((500000 : ℝ) : EReal) := by
  simp [Ideal.ofBits, Ideal.ieee, -EReal.coe_mul]; norm_num

end Cert.Consts

end
-- ==== Proof.Val.RefMean.lean ====
/-
  THE REFERENCE'S MEAN ROW is `meanG` of its second aggregate. The reference rectifies the aggregate against a
  broadcast zero, sums it over the row axis from a zero initial value, puts the unit axis back, and divides by the
  constant `500000.0`. At the ideal values, index by index: the host's division by the real 500000 is the product with
  the rational 1/500000; the initial value is 0 and drops out of the sum; the maximum is the extended reals' `max`; and
  the index the reduction reads at lane `i 1`, row `k`, is `(k, i 1)`. That is `meanG` as the kernel side states it.
-/
import proofs.«426033_j56573309223970_1_alg».proof.Proof.Val.MeanValue
import proofs.«426033_j56573309223970_1_alg».proof.Proof.Val.RefGen
import proofs.«426033_j56573309223970_1_alg».proof.Proof.Val.Consts
import Idealize.ShloMosaic.Lib.ValueIdx
import Idealize.ShloMosaic.PureOps.Ideal.Laws
import Mathlib.Algebra.BigOperators.Group.Finset.Basic

noncomputable section

namespace Cert.Bridge

open Idealize.ShloMosaic Idealize.ShloMosaic.ValueIdx Cert.KernelIdeal.Hand Cert.ReferenceIdeal.ReadP
open scoped BigOperators

/-- At the ideal values the reference's mean row, as a function of the arguments of its program, is `meanG` of the
    second aggregate: the quotient by 500000 of the sums over the rows of the rectified entries. -/
theorem ref_mean (x0 : (⟨Cert.ReferenceIdeal.S500000x128, .f32⟩ : BufTy).Contents (Elt Ideal))
    (x1 : (⟨Cert.ReferenceIdeal.S2x500000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal)) :
    val_main_v109 (F := Ideal) x0 x1 x3 x4 x5 x6 = meanG (val_main_v104 (F := Ideal) x0 x1 x3 x4 x5 x6) := by
  funext i
  rw [val_main_v109_apply, val_main_v107_apply, val_main_v108_apply, val_main_cst_29_apply, val_main_v106_apply,
    val_main_cst_28_apply]
  rw [Ideal.hostDivf_def, Ideal.ofBits_def, Ideal.ofBits_def, Cert.Consts.ofBits_500000,
    Ideal.div_coe (by norm_num : (500000 : ℝ) ≠ 0), Ideal.ofBits_zero_f32, zero_add]
  unfold meanG
  refine congrArg (· * ((1 / 500000 : ℝ) : EReal)) ?_
  refine Finset.sum_congr rfl fun k _ => ?_
  rw [val_main_v105_apply, val_main_call3_v0_apply, val_main_call3_cst_apply, Ideal.maximumf_def, Ideal.ofBits_def,
    Ideal.ofBits_zero_f32]
  have e : idx_main_v106 (idx_main_v107 i) k = ix2 k ⟨(i 1).val, (i 1).isLt⟩ := by
    funext a
    match a with
    | ⟨0, _⟩ => rfl
    | ⟨1, _⟩ => rfl
  exact congrArg (fun z => max (val_main_v104 (F := Ideal) x0 x1 x3 x4 x5 x6 z) 0) e

end Cert.Bridge

end
-- ==== Proof.Val.RefEdge.lean ====
/-
  The edge logits of the two programs agree.
  Both programs compute, for every edge `e` and column `j`,
      ∑ k, max (∑ l, C (0, l) · We1 (l, k) + be1 k) 0 · We2 (k, j) + be2 j
  with `C` the row `z` joined with itself: a two-layer perceptron on one row, its result not depending on the
  edge. The kernel program evaluates it once on the row and repeats the resulting row for every edge; the reference
  program repeats the joined row for every edge first and evaluates the perceptron on every copy. Entry by entry the
  two are the same sums: each matrix product is read at an index as the sum over its contracted axis, each repetition
  reads its operand at the row's one index, and rectification and addition act entry by entry.
-/
import proofs.«426033_j56573309223970_1_alg».proof.Proof.Val.KDefs
import proofs.«426033_j56573309223970_1_alg».proof.Proof.Val.RefGen
import Idealize.ShloMosaic.Lib.Pipeline.Value
import Idealize.ShloMosaic.Lib.ValueIdx
import Idealize.ShloMosaic.Lib.ValueLayout
import Idealize.ShloMosaic.PureOps.Ideal.Laws

set_option maxRecDepth 8192

noncomputable section

namespace Cert.Bridge

open Idealize.ShloMosaic Idealize.ShloMosaic.ValueIdx
open Cert.KernelIdeal.Hand
open Cert.ReferenceIdeal.ReadP

/-! ## The common form -/

/-- The perceptron's entry at column `j` on the joined row `C`. -/
def edgeForm (C : FVec Ideal Cert.KernelIdeal.S1x64 .f32) (we1 : FVec Ideal Cert.KernelIdeal.S64x128 .f32) (be1 : FVec Ideal Cert.KernelIdeal.S128 .f32)
    (we2 : FVec Ideal Cert.KernelIdeal.S128x4 .f32) (be2 : FVec Ideal Cert.KernelIdeal.S4 .f32) (j : Fin 4) : Ideal .f32 :=
  (∑ k : Fin 128, max ((∑ l : Fin 64, C (ix2 (0 : Fin 1) l) * we1 (ix2 l k)) + be1 (ix1 k)) 0 * we2 (ix2 k j)) + be2 (ix1 j)

/-! ## The kernel program's side -/

section KernelSide

open Cert.KernelIdeal Cert.KernelIdeal.Gen

/-! The two matrix products of the kernel program's dense tail, read at an index: the operand indices at output
    index `(r, c)` and contraction index `k` are `(r, k)` and `(k, c)`, axis by axis. -/

theorem lhsA_0 (i : S1x128.Idx) (q : dot_S1x64_S64x128_S1x128_1_0_0_1_n_n.contr.Idx) :
    (dot_S1x64_S64x128_S1x128_1_0_0_1_n_n.lhsIdx i q 0).val = (i 0).val := by
  unfold DotDims.lhsIdx
  rw [dif_neg (show ¬(0 : Fin S1x64.rank) ∈ dot_S1x64_S64x128_S1x128_1_0_0_1_n_n.lhsBatch by decide), dif_pos (show (0 : Fin S1x64.rank) ∈ dot_S1x64_S64x128_S1x128_1_0_0_1_n_n.lhsNonContracting by decide)]
  rfl
theorem lhsA_1 (i : S1x128.Idx) (q : dot_S1x64_S64x128_S1x128_1_0_0_1_n_n.contr.Idx) :
    (dot_S1x64_S64x128_S1x128_1_0_0_1_n_n.lhsIdx i q 1).val = (q ⟨0, by decide⟩).val :=
  dot_S1x64_S64x128_S1x128_1_0_0_1_n_n.lhsIdx_val_of_single rfl i q
theorem rhsA_0 (i : S1x128.Idx) (q : dot_S1x64_S64x128_S1x128_1_0_0_1_n_n.contr.Idx) :
    (dot_S1x64_S64x128_S1x128_1_0_0_1_n_n.rhsIdx i q 0).val = (q ⟨0, by decide⟩).val :=
  dot_S1x64_S64x128_S1x128_1_0_0_1_n_n.rhsIdx_val_of_single rfl i q
theorem rhsA_1 (i : S1x128.Idx) (q : dot_S1x64_S64x128_S1x128_1_0_0_1_n_n.contr.Idx) :
    (dot_S1x64_S64x128_S1x128_1_0_0_1_n_n.rhsIdx i q 1).val = (i 1).val := by
  unfold DotDims.rhsIdx
  rw [dif_neg (show ¬(1 : Fin S64x128.rank) ∈ dot_S1x64_S64x128_S1x128_1_0_0_1_n_n.rhsBatch by decide), dif_pos (show (1 : Fin S64x128.rank) ∈ dot_S1x64_S64x128_S1x128_1_0_0_1_n_n.rhsNonContracting by decide)]
  rfl

theorem lhsB_0 (i : S1x4.Idx) (q : dot_S1x128_S128x4_S1x4_1_0_0_1_n_n.contr.Idx) :
    (dot_S1x128_S128x4_S1x4_1_0_0_1_n_n.lhsIdx i q 0).val = (i 0).val := by
  unfold DotDims.lhsIdx
  rw [dif_neg (show ¬(0 : Fin S1x128.rank) ∈ dot_S1x128_S128x4_S1x4_1_0_0_1_n_n.lhsBatch by decide), dif_pos (show (0 : Fin S1x128.rank) ∈ dot_S1x128_S128x4_S1x4_1_0_0_1_n_n.lhsNonContracting by decide)]
  rfl
theorem lhsB_1 (i : S1x4.Idx) (q : dot_S1x128_S128x4_S1x4_1_0_0_1_n_n.contr.Idx) :
    (dot_S1x128_S128x4_S1x4_1_0_0_1_n_n.lhsIdx i q 1).val = (q ⟨0, by decide⟩).val :=
  dot_S1x128_S128x4_S1x4_1_0_0_1_n_n.lhsIdx_val_of_single rfl i q
theorem rhsB_0 (i : S1x4.Idx) (q : dot_S1x128_S128x4_S1x4_1_0_0_1_n_n.contr.Idx) :
    (dot_S1x128_S128x4_S1x4_1_0_0_1_n_n.rhsIdx i q 0).val = (q ⟨0, by decide⟩).val :=
  dot_S1x128_S128x4_S1x4_1_0_0_1_n_n.rhsIdx_val_of_single rfl i q
theorem rhsB_1 (i : S1x4.Idx) (q : dot_S1x128_S128x4_S1x4_1_0_0_1_n_n.contr.Idx) :
    (dot_S1x128_S128x4_S1x4_1_0_0_1_n_n.rhsIdx i q 1).val = (i 1).val := by
  unfold DotDims.rhsIdx
  rw [dif_neg (show ¬(1 : Fin S128x4.rank) ∈ dot_S1x128_S128x4_S1x4_1_0_0_1_n_n.rhsBatch by decide), dif_pos (show (1 : Fin S128x4.rank) ∈ dot_S1x128_S128x4_S1x4_1_0_0_1_n_n.rhsNonContracting by decide)]
  rfl

/-- The first layer's product `[1,64] · [64,128]` at an index: the sum over the 64 contracted entries. -/
theorem dotA_apply (X : FVec Ideal S1x64 .f32) (W : FVec Ideal S64x128 .f32) (i : S1x128.Idx) :
    Host.dotGeneral dot_S1x64_S64x128_S1x128_1_0_0_1_n_n none X W i = ∑ k : Fin 64, X (ix2 (i 0) k) * W (ix2 k (i 1)) := by
  simp only [Host.dotGeneral]
  rw [Ideal.dotGeneral_apply, ← Equiv.sum_comp (ValueIdx.contrEquiv1 dot_S1x64_S64x128_S1x128_1_0_0_1_n_n 64 rfl rfl).symm]
  refine Finset.sum_congr rfl fun k _ => ?_
  have hk := ValueIdx.contrEquiv1_symm_val dot_S1x64_S64x128_S1x128_1_0_0_1_n_n 64 rfl rfl k
  have el : dot_S1x64_S64x128_S1x128_1_0_0_1_n_n.lhsIdx i ((ValueIdx.contrEquiv1 dot_S1x64_S64x128_S1x128_1_0_0_1_n_n 64 rfl rfl).symm k) = ix2 (i 0) k := funext fun a => Fin.ext (by
    match a with
    | ⟨0, _⟩ => exact lhsA_0 _ _
    | ⟨1, _⟩ => exact (lhsA_1 _ _).trans hk)
  have er : dot_S1x64_S64x128_S1x128_1_0_0_1_n_n.rhsIdx i ((ValueIdx.contrEquiv1 dot_S1x64_S64x128_S1x128_1_0_0_1_n_n 64 rfl rfl).symm k) = ix2 k (i 1) := funext fun a => Fin.ext (by
    match a with
    | ⟨0, _⟩ => exact (rhsA_0 _ _).trans hk
    | ⟨1, _⟩ => exact rhsA_1 _ _)
  rw [el, er]
  rfl

/-- The second layer's product `[1,128] · [128,4]` at an index: the sum over the 128 contracted entries. -/
theorem dotB_apply (X : FVec Ideal S1x128 .f32) (W : FVec Ideal S128x4 .f32) (i : S1x4.Idx) :
    Host.dotGeneral dot_S1x128_S128x4_S1x4_1_0_0_1_n_n none X W i = ∑ k : Fin 128, X (ix2 (i 0) k) * W (ix2 k (i 1)) := by
  simp only [Host.dotGeneral]
  rw [Ideal.dotGeneral_apply, ← Equiv.sum_comp (ValueIdx.contrEquiv1 dot_S1x128_S128x4_S1x4_1_0_0_1_n_n 128 rfl rfl).symm]
  refine Finset.sum_congr rfl fun k _ => ?_
  have hk := ValueIdx.contrEquiv1_symm_val dot_S1x128_S128x4_S1x4_1_0_0_1_n_n 128 rfl rfl k
  have el : dot_S1x128_S128x4_S1x4_1_0_0_1_n_n.lhsIdx i ((ValueIdx.contrEquiv1 dot_S1x128_S128x4_S1x4_1_0_0_1_n_n 128 rfl rfl).symm k) = ix2 (i 0) k := funext fun a => Fin.ext (by
    match a with
    | ⟨0, _⟩ => exact lhsB_0 _ _
    | ⟨1, _⟩ => exact (lhsB_1 _ _).trans hk)
  have er : dot_S1x128_S128x4_S1x4_1_0_0_1_n_n.rhsIdx i ((ValueIdx.contrEquiv1 dot_S1x128_S128x4_S1x4_1_0_0_1_n_n 128 rfl rfl).symm k) = ix2 k (i 1) := funext fun a => Fin.ext (by
    match a with
    | ⟨0, _⟩ => exact (rhsB_0 _ _).trans hk
    | ⟨1, _⟩ => exact rhsB_1 _ _)
  rw [el, er]
  rfl

/-- A bias vector spread along a row reads its own entry at the column. -/
theorem biasA_apply (b : FVec Ideal S128 .f32) (i : S1x128.Idx) :
    broadcastInDim S1x128 ![1] bcast_S128_S1x128_1 b i = b (ix1 (i 1)) :=
  broadcastInDim_apply _ bcast_S128_S1x128_1 b i (ix1 (i 1)) (fun a => match a with
    | ⟨0, _⟩ => by show (i 1).val = if (128 : Nat) = 1 then 0 else (i 1).val; rw [if_neg (by decide)])
theorem biasB_apply (b : FVec Ideal S4 .f32) (i : S1x4.Idx) :
    broadcastInDim S1x4 ![1] bcast_S4_S1x4_1 b i = b (ix1 (i 1)) :=
  broadcastInDim_apply _ bcast_S4_S1x4_1 b i (ix1 (i 1)) (fun a => match a with
    | ⟨0, _⟩ => by show (i 1).val = if (4 : Nat) = 1 then 0 else (i 1).val; rw [if_neg (by decide)])

/-- The zero constant spread over a row is `0` at every entry. -/
theorem zeroA_apply (i : S1x128.Idx) :
    broadcastInDim S1x128 ![] bcast_S_S1x128 (constant S_ .f32 0x00000000#32 : FVec Ideal S_ .f32) i = 0 := by
  rw [broadcastInDim_apply _ bcast_S_S1x128 (constant S_ .f32 0x00000000#32 : FVec Ideal S_ .f32) i (fun a => a.elim0) (fun a => a.elim0)]
  exact Ideal.ofBits_zero_f32

/-- One row repeated for every edge reads the row at the column. -/
theorem rowB_apply (r : FVec Ideal S1x4 .f32) (i : S500000x4.Idx) :
    broadcastInDim S500000x4 ![0, 1] bcast_S1x4_S500000x4_0_1 r i = r (ix2 (0 : Fin 1) (i 1)) :=
  broadcastInDim_apply _ bcast_S1x4_S500000x4_0_1 r i (ix2 (0 : Fin 1) (i 1)) (fun a => match a with
    | ⟨0, _⟩ => by show 0 = if (1 : Nat) = 1 then 0 else (i 0).val; rw [if_pos rfl]
    | ⟨1, _⟩ => by show (i 1).val = if (4 : Nat) = 1 then 0 else (i 1).val; rw [if_neg (by decide)])

/-- The kernel program's edge logits at an index: the common form at the index's column. -/
theorem edgeK_apply (z : FVec Ideal S1x32 .f32) (we1 : FVec Ideal S64x128 .f32) (be1 : FVec Ideal S128 .f32)
    (we2 : FVec Ideal S128x4 .f32) (be2 : FVec Ideal S4 .f32) (i : S500000x4.Idx) :
    edgeK z we1 be1 we2 be2 i
      = edgeForm (concatenate S1x64 1 [⟨S1x32, z⟩, ⟨S1x32, z⟩] concatenates_S1x32_S1x32_S1x64_d1) we1 be1 we2 be2 (i 1) := by
  unfold edgeK edgeRowK edgeForm
  generalize concatenate S1x64 1 [⟨S1x32, z⟩, ⟨S1x32, z⟩] concatenates_S1x32_S1x32_S1x64_d1 = C
  rw [rowB_apply]
  show Host.dotGeneral dot_S1x128_S128x4_S1x4_1_0_0_1_n_n none _ we2 (ix2 (0 : Fin 1) (i 1)) + broadcastInDim S1x4 ![1] bcast_S4_S1x4_1 be2 (ix2 (0 : Fin 1) (i 1)) = _
  rw [dotB_apply, biasB_apply]
  refine congrArg₂ (· + ·) (Finset.sum_congr rfl fun k _ => ?_) rfl
  show max (Host.dotGeneral dot_S1x64_S64x128_S1x128_1_0_0_1_n_n none C we1 (ix2 (0 : Fin 1) k) + broadcastInDim S1x128 ![1] bcast_S128_S1x128_1 be1 (ix2 (0 : Fin 1) k))
      (broadcastInDim S1x128 ![] bcast_S_S1x128 (constant S_ .f32 0x00000000#32 : FVec Ideal S_ .f32) (ix2 (0 : Fin 1) k)) * _ = _
  rw [dotA_apply, biasA_apply, zeroA_apply]

end KernelSide

/-! ## The reference program's side -/

section ReferenceSide

open Cert.ReferenceIdeal Cert.ReferenceIdeal.Gen

variable (x0 : (⟨Cert.ReferenceIdeal.S500000x128, .f32⟩ : BufTy).Contents (Elt Ideal)) (x1 : (⟨Cert.ReferenceIdeal.S2x500000, .i32⟩ : BufTy).Contents (Elt Ideal)) (x2 : (⟨Cert.ReferenceIdeal.S1x32, .f32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
  (x7 : (⟨Cert.ReferenceIdeal.S128x32, .f32⟩ : BufTy).Contents (Elt Ideal)) (x8 : (⟨Cert.ReferenceIdeal.S32, .f32⟩ : BufTy).Contents (Elt Ideal)) (x9 : (⟨Cert.ReferenceIdeal.S128x32, .f32⟩ : BufTy).Contents (Elt Ideal)) (x10 : (⟨Cert.ReferenceIdeal.S32, .f32⟩ : BufTy).Contents (Elt Ideal))
  (x13 : (⟨Cert.ReferenceIdeal.S64x128, .f32⟩ : BufTy).Contents (Elt Ideal)) (x14 : (⟨Cert.ReferenceIdeal.S128, .f32⟩ : BufTy).Contents (Elt Ideal)) (x15 : (⟨Cert.ReferenceIdeal.S128x4, .f32⟩ : BufTy).Contents (Elt Ideal)) (x16 : (⟨Cert.ReferenceIdeal.S4, .f32⟩ : BufTy).Contents (Elt Ideal))

/-- The zero word is `0`. -/
theorem zero_word : (FloatOps.ofBits (F := Ideal) .f32 0x00000000#32) = 0 := Ideal.ofBits_zero_f32

/-- The reference program's edge logits at an index: the common form at the index's column, on its own joined row.
    The stages are read at the index one after the other; what is left is that the operand indices they name are the
    coordinates the common form names. -/
theorem ref_edge_apply (i : S500000x4.Idx) :
    val_main_v134 (F := Ideal) x0 x1 x2 x3 x4 x5 x6 x7 x8 x9 x10 x13 x14 x15 x16 i
      = edgeForm (val_main_v124 (F := Ideal) x0 x1 x2 x3 x4 x5 x6 x7 x8 x9 x10) x13 x14 x15 x16 (i 1) := by
  rw [val_main_v134_apply, val_main_v131_apply, val_main_v133_apply, val_main_v132_apply, Ideal.addf_def]
  unfold edgeForm
  refine congrArg₂ (· + ·) (Finset.sum_congr rfl fun k _ => ?_) (congrArg x16 (funext fun a => by match a with | ⟨0, _⟩ => rfl))
  rw [val_main_v130_apply, val_main_v129_apply, val_main_v126_apply, val_main_v128_apply, val_main_v127_apply,
    val_main_call4_v0_apply, val_main_call4_cst_apply, zero_word, Ideal.maximumf_def, Ideal.addf_def]
  simp only [val_main_v125_apply]
  generalize val_main_v124 (F := Ideal) x0 x1 x2 x3 x4 x5 x6 x7 x8 x9 x10 = C
  have e1 : ridx_main_v131 i k = ix2 k (i 1) := funext fun a => by match a with | ⟨0, _⟩ => rfl | ⟨1, _⟩ => rfl
  have e2 : idx_main_v127 (idx_main_v128 (lidx_main_v131 i k)) = ix1 k := funext fun a => by match a with | ⟨0, _⟩ => rfl
  have e3 : ∀ l : Fin 64, idx_main_v125 (lidx_main_v126 (lidx_main_v131 i k) l) = ix2 (0 : Fin 1) l :=
    fun l => funext fun a => by match a with | ⟨0, _⟩ => rfl | ⟨1, _⟩ => rfl
  have e4 : ∀ l : Fin 64, ridx_main_v126 (lidx_main_v131 i k) l = ix2 l k :=
    fun l => funext fun a => by match a with | ⟨0, _⟩ => rfl | ⟨1, _⟩ => rfl
  rw [e1, e2]
  simp only [e3, e4]
  rfl

/-- The reference program joins the row `z` with itself as the kernel program does. -/
theorem ref_concat :
    val_main_v124 (F := Ideal) x0 x1 x2 x3 x4 x5 x6 x7 x8 x9 x10
      = concatenate Cert.KernelIdeal.S1x64 1 [⟨Cert.KernelIdeal.S1x32, val_main_v120 (F := Ideal) x0 x1 x2 x3 x4 x5 x6 x7 x8 x9 x10⟩,
          ⟨Cert.KernelIdeal.S1x32, val_main_v120 (F := Ideal) x0 x1 x2 x3 x4 x5 x6 x7 x8 x9 x10⟩] Cert.KernelIdeal.Gen.concatenates_S1x32_S1x32_S1x64_d1 := rfl

/-- THE EDGE LOGITS: the reference program's are the kernel program's perceptron on the reference's row `z`. -/
theorem ref_edge :
    val_main_v134 (F := Ideal) x0 x1 x2 x3 x4 x5 x6 x7 x8 x9 x10 x13 x14 x15 x16
      = edgeK (F := Ideal) (val_main_v120 (F := Ideal) x0 x1 x2 x3 x4 x5 x6 x7 x8 x9 x10) x13 x14 x15 x16 := by
  funext i
  rw [ref_edge_apply, edgeK_apply, ref_concat]

end ReferenceSide

end Cert.Bridge

end
-- ==== Proof.Val.Bridge.lean ====
/-
  The reference's results as the kernel-side functions of the same arguments, where every column index lies in
  `[0, N)`. The mean row: the reference's `sum / N` of `max(·, 0)` of its second aggregate is `meanG` of it; each
  aggregate is `aggG` of a linear layer (by unfolding), which under the range fact is the kernel's `aggK`; each
  linear layer is `linG` / `linReluG`. The tail (`mu`, `logvar`, `z`, node logits) is the same composition of
  operations on that row; the edge logits agree index by index.
-/
import proofs.«426033_j56573309223970_1_alg».proof.Proof.Val.RefShape
import proofs.«426033_j56573309223970_1_alg».proof.Proof.Val.RefLin
import proofs.«426033_j56573309223970_1_alg».proof.Proof.Val.RefMean
import proofs.«426033_j56573309223970_1_alg».proof.Proof.Val.RefEdge

set_option maxRecDepth 8192

noncomputable section

namespace Cert.Bridge

open Idealize.ShloMosaic
open Cert.KernelIdeal.Hand
open Cert.ReferenceIdeal.ReadP

variable (x0 : (⟨Cert.ReferenceIdeal.S500000x128, .f32⟩ : BufTy).Contents (Elt Ideal)) (x1 : (⟨Cert.ReferenceIdeal.S2x500000, .i32⟩ : BufTy).Contents (Elt Ideal)) (x2 : (⟨Cert.ReferenceIdeal.S1x32, .f32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
  (x7 : (⟨Cert.ReferenceIdeal.S128x32, .f32⟩ : BufTy).Contents (Elt Ideal)) (x8 : (⟨Cert.ReferenceIdeal.S32, .f32⟩ : BufTy).Contents (Elt Ideal)) (x9 : (⟨Cert.ReferenceIdeal.S128x32, .f32⟩ : BufTy).Contents (Elt Ideal)) (x10 : (⟨Cert.ReferenceIdeal.S32, .f32⟩ : BufTy).Contents (Elt Ideal))
  (x11 : (⟨Cert.ReferenceIdeal.S32x16, .f32⟩ : BufTy).Contents (Elt Ideal)) (x12 : (⟨Cert.ReferenceIdeal.S16, .f32⟩ : BufTy).Contents (Elt Ideal)) (x13 : (⟨Cert.ReferenceIdeal.S64x128, .f32⟩ : BufTy).Contents (Elt Ideal)) (x14 : (⟨Cert.ReferenceIdeal.S128, .f32⟩ : BufTy).Contents (Elt Ideal))
  (x15 : (⟨Cert.ReferenceIdeal.S128x4, .f32⟩ : BufTy).Contents (Elt Ideal)) (x16 : (⟨Cert.ReferenceIdeal.S4, .f32⟩ : BufTy).Contents (Elt Ideal))
  (hcol : inRangeK (eiCol x1) = fun _ => 1#1)

include hcol

/-- The reference's mean row is the kernel-side composite of the same arguments. -/
theorem ref_g : val_main_v109 (F := Ideal) x0 x1 x3 x4 x5 x6
    = (meanG (aggK (F := Ideal) (linReluG (aggK (F := Ideal) (linG x0 x3 (biasRow (F := Ideal) x4)) x1) x5 (biasRow (F := Ideal) x6)) x1)) := by
  rw [aggK_eq _ _ hcol, aggK_eq _ _ hcol, ref_mean, ref_agg2, ref_lin2, ref_agg1, ref_lin1]

theorem bridge_mu : val_main_v112 (F := Ideal) x0 x1 x3 x4 x5 x6 x7 x8 = muK (F := Ideal) (meanG (aggK (F := Ideal) (linReluG (aggK (F := Ideal) (linG x0 x3 (biasRow (F := Ideal) x4)) x1) x5 (biasRow (F := Ideal) x6)) x1)) x7 x8 := by
  rw [ref_mu, ref_g x0 x1 x3 x4 x5 x6 hcol]

theorem bridge_lv : val_main_v115 (F := Ideal) x0 x1 x3 x4 x5 x6 x9 x10 = muK (F := Ideal) (meanG (aggK (F := Ideal) (linReluG (aggK (F := Ideal) (linG x0 x3 (biasRow (F := Ideal) x4)) x1) x5 (biasRow (F := Ideal) x6)) x1)) x9 x10 := by
  rw [ref_lv, ref_g x0 x1 x3 x4 x5 x6 hcol]

theorem bridge_node : val_main_v123 (F := Ideal) x0 x1 x2 x3 x4 x5 x6 x7 x8 x9 x10 x11 x12
    = nodeK (F := Ideal) (zK (F := Ideal) (meanG (aggK (F := Ideal) (linReluG (aggK (F := Ideal) (linG x0 x3 (biasRow (F := Ideal) x4)) x1) x5 (biasRow (F := Ideal) x6)) x1)) x2 x7 x8 x9 x10) x11 x12 := by
  rw [ref_node, ref_z, ref_g x0 x1 x3 x4 x5 x6 hcol]

theorem bridge_edge : val_main_v134 (F := Ideal) x0 x1 x2 x3 x4 x5 x6 x7 x8 x9 x10 x13 x14 x15 x16
    = edgeK (F := Ideal) (zK (F := Ideal) (meanG (aggK (F := Ideal) (linReluG (aggK (F := Ideal) (linG x0 x3 (biasRow (F := Ideal) x4)) x1) x5 (biasRow (F := Ideal) x6)) x1)) x2 x7 x8 x9 x10) x13 x14 x15 x16 := by
  rw [ref_edge, ref_z, ref_g x0 x1 x3 x4 x5 x6 hcol]

end Cert.Bridge

end
-- ==== Proof.Val.Results.lean ====
/-
  The four results of the two idealized programs, from memories that agree on the arguments and satisfy the
  precondition: the reference's result is its last stage at the arguments, the kernel program's last
  valuation reads the kernel-side function of the arguments, and the two functions agree where the column
  indices are in range — which the precondition's last conjunct says of every entry of the edge list.
-/
import proofs.«426033_j56573309223970_1_alg».proof.Proof.Val.Bridge
import proofs.«426033_j56573309223970_1_alg».proof.Proof.Val.KValue

set_option maxRecDepth 8192

noncomputable section

namespace Cert.Bridge

open Idealize.ShloMosaic Idealize.ShloMosaic.TcCoe Idealize.SL.Sem
open Cert.KernelIdeal.Hand
open Cert.ReferenceIdeal.ReadP

/-- The precondition puts every column index in range. -/
theorem col_of_pre (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = (fun _ => 1#1)) :
    inRangeK (eiCol (m ((c.tc : Thread Cert.KernelIdeal.nD Cert.KernelIdeal.τ).loc Cert.KernelIdeal.main_arg1))) = fun _ => 1#1 :=
  col_inRange _ (edges_in_range _ _ _ _ _ _ _ _ _ _ _ _ _ _ _ _ _ hpre)

/-- The node logits. -/
theorem result0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    val_main_v123 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = Cert.KernelIdeal.Gen.V15 m (outs m) c Cert.KernelIdeal.main_v75 := by
  rw [hagree.1, hagree.2.1, hagree.2.2.1, hagree.2.2.2.1, hagree.2.2.2.2.1, hagree.2.2.2.2.2.1, hagree.2.2.2.2.2.2.1, hagree.2.2.2.2.2.2.2.1, hagree.2.2.2.2.2.2.2.2.1, hagree.2.2.2.2.2.2.2.2.2.1, hagree.2.2.2.2.2.2.2.2.2.2.1, hagree.2.2.2.2.2.2.2.2.2.2.2.1, hagree.2.2.2.2.2.2.2.2.2.2.2.2.1, k_node]
  unfold kG
  exact bridge_node _ _ _ _ _ _ _ _ _ _ _ _ _ (col_of_pre m c hpre)

/-- The edge logits. -/
theorem result1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    val_main_v134 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
      = Cert.KernelIdeal.Gen.V15 m (outs m) c Cert.KernelIdeal.main_v84 := by
  rw [hagree.1, hagree.2.1, hagree.2.2.1, hagree.2.2.2.1, hagree.2.2.2.2.1, hagree.2.2.2.2.2.1, hagree.2.2.2.2.2.2.1, hagree.2.2.2.2.2.2.2.1, hagree.2.2.2.2.2.2.2.2.1, hagree.2.2.2.2.2.2.2.2.2.1, hagree.2.2.2.2.2.2.2.2.2.2.1, hagree.2.2.2.2.2.2.2.2.2.2.2.2.2.1, hagree.2.2.2.2.2.2.2.2.2.2.2.2.2.2.1, hagree.2.2.2.2.2.2.2.2.2.2.2.2.2.2.2.1, hagree.2.2.2.2.2.2.2.2.2.2.2.2.2.2.2.2, k_edge]
  unfold kG
  exact bridge_edge _ _ _ _ _ _ _ _ _ _ _ _ _ _ _ (col_of_pre m c hpre)

/-- `mu`. -/
theorem result2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    val_main_v112 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = Cert.KernelIdeal.Gen.V15 m (outs m) c Cert.KernelIdeal.main_v64 := by
  rw [hagree.1, hagree.2.1, hagree.2.2.2.1, hagree.2.2.2.2.1, hagree.2.2.2.2.2.1, hagree.2.2.2.2.2.2.1, hagree.2.2.2.2.2.2.2.1, hagree.2.2.2.2.2.2.2.2.1, k_mu]
  unfold kG
  exact bridge_mu _ _ _ _ _ _ _ _ (col_of_pre m c hpre)

/-- `logvar`. -/
theorem result3 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    val_main_v115 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Cert.KernelIdeal.Gen.V15 m (outs m) c Cert.KernelIdeal.main_v67 := by
  rw [hagree.1, hagree.2.1, hagree.2.2.2.1, hagree.2.2.2.2.1, hagree.2.2.2.2.2.1, hagree.2.2.2.2.2.2.1, hagree.2.2.2.2.2.2.2.2.2.1, hagree.2.2.2.2.2.2.2.2.2.2.1, k_lv]
  unfold kG
  exact bridge_lv _ _ _ _ _ _ _ _ (col_of_pre m c hpre)

end Cert.Bridge

end
-- ==== Proof.Val.RefRun.lean ====
/-
  The reference program's run, proved stretch by stretch.
  @main of the reference is one straight line of 178 host operations. The line is cut into eleven stretches at the
  stages a later stretch reads (the edge rows and columns and the first linear layer; the degree normalisation; the
  per-edge weight; the first aggregation; the second layer; the normalisation and the weight again; the second
  aggregation; the column means; the two affine maps, the sample and the node head; the edge head). For each stretch
  and each buffer a later stretch or a result reads, one lemma at ARBITRARY entry contents `W`: if `W` holds the
  stages at the buffers the stretch reads, then after the stretch the buffer holds its own stage (the stretch's
  operations composed, compared with the stage's definition by unfolding). The buffers a stretch does not write are
  carried across it. Chained from the launch contents, this gives the four results as their stages of the arguments and
  the arguments unchanged; the library's run of a straight line of host operations does the rest.
-/
import proofs.«426033_j56573309223970_1_alg».proof.Proof.Val.RefGen
import Idealize.ShloMosaic.Lib.Pipeline.Frame

set_option maxRecDepth 16384

noncomputable section

namespace Cert.Bridge

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The stretches -/

/-- Operations 0 … 7 of @main, in order. -/
abbrev opsA : List (HloOp τ sig (Elt F)) :=
  [
    unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    binary main_arg0 main_arg3 main_v4 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S500000x128 ![0, 1] bcast_S1x128_S500000x128_0_1 : (⟨S1x128, .f32⟩ : BufTy).Contents (Elt F) → (⟨S500000x128, .f32⟩ : BufTy).Contents (Elt F)),
    binary main_v4 main_v6 main_v7 (addf : (⟨S500000x128, .f32⟩ : BufTy).Contents (Elt F) → (⟨S500000x128, .f32⟩ : BufTy).Contents (Elt F) → (⟨S500000x128, .f32⟩ : BufTy).Contents (Elt F)) ]
/-- The references they write. -/
abbrev opsA_W : List (Ref sig .tc) := [main_v0, main_v1, main_v2, main_v3, main_v4, main_v5, main_v6, main_v7]
theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sA_v1 (W : Valuation τ sig (Elt F)) (x1 : (⟨S2x500000, .i32⟩ : BufTy).Contents (Elt F))
    (h_arg1 : W main_arg1 = x1) :
    after opsA W main_v1 = (val_main_v1 (F := F) x1) := by
  after_results_simp
  try simp only [TRef.ofBuf, TRef.toBuf, cast_eq]
  rw [h_arg1]
  rfl

theorem sA_v3 (W : Valuation τ sig (Elt F)) (x1 : (⟨S2x500000, .i32⟩ : BufTy).Contents (Elt F))
    (h_arg1 : W main_arg1 = x1) :
    after opsA W main_v3 = (val_main_v3 (F := F) x1) := by
  after_results_simp
  try simp only [TRef.ofBuf, TRef.toBuf, cast_eq]
  rw [h_arg1]
  rfl

theorem sA_v7 (W : Valuation τ sig (Elt F)) (x0 : (⟨S500000x128, .f32⟩ : BufTy).Contents (Elt F)) (x3 : (⟨S128x128, .f32⟩ : BufTy).Contents (Elt F)) (x4 : (⟨S128, .f32⟩ : BufTy).Contents (Elt F))
    (h_arg0 : W main_arg0 = x0)
    (h_arg3 : W main_arg3 = x3)
    (h_arg4 : W main_arg4 = x4) :
    after opsA W main_v7 = (val_main_v7 (F := F) x0 x3 x4) := by
  after_results_simp
  try simp only [TRef.ofBuf, TRef.toBuf, cast_eq]
  rw [h_arg0, h_arg3, h_arg4]
  rfl

/-- Operations 8 … 28 of @main, in order. -/
abbrev opsB : List (HloOp τ sig (Elt F)) :=
  [
    nullary main_cst (constant S_ .f32 0x00000000#32),
    unary main_cst main_v8 (broadcastInDim S500000 ![] bcast_S_S500000 : (⟨S_, .f32⟩ : BufTy).Contents (Elt F) → (⟨S500000, .f32⟩ : BufTy).Contents (Elt F)),
    nullary main_c (constantI S_ 32 0#32),
    unary main_c main_v9 (broadcastInDim S500000 ![] bcast_S_S500000 : (⟨S_, .i32⟩ : BufTy).Contents (Elt F) → (⟨S500000, .i32⟩ : BufTy).Contents (Elt F)),
    binary main_v1 main_v9 main_v10 (cmpi .slt : (⟨S500000, .i32⟩ : BufTy).Contents (Elt F) → (⟨S500000, .i32⟩ : BufTy).Contents (Elt F) → (⟨S500000, .i1⟩ : BufTy).Contents (Elt F)),
    nullary main_c_0 (constantI S_ 32 500000#32),
    unary main_c_0 main_v11 (broadcastInDim S500000 ![] bcast_S_S500000 : (⟨S_, .i32⟩ : BufTy).Contents (Elt F) → (⟨S500000, .i32⟩ : BufTy).Contents (Elt F)),
    binary main_v1 main_v11 main_v12 (addi : (⟨S500000, .i32⟩ : BufTy).Contents (Elt F) → (⟨S500000, .i32⟩ : BufTy).Contents (Elt F) → (⟨S500000, .i32⟩ : BufTy).Contents (Elt F)),
    ternary main_v10 main_v12 main_v1 main_v13 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v13 main_v14 (broadcastInDim S500000x1 ![0] bcast_S500000_S500000x1_0 : (⟨S500000, .i32⟩ : BufTy).Contents (Elt F) → (⟨S500000x1, .i32⟩ : BufTy).Contents (Elt F)),
    nullary main_cst_1 (constant S_ .f32 0x3F800000#32),
    unary main_cst_1 main_v15 (broadcastInDim S500000 ![] bcast_S_S500000 : (⟨S_, .f32⟩ : BufTy).Contents (Elt F) → (⟨S500000, .f32⟩ : BufTy).Contents (Elt F)),
    ternary main_v8 main_v14 main_v15 main_v16 ((fun x i u => Host.scatterAdd scatter_S500000_S500000x1_S500000_n_0_0_1 x i u) : (⟨S500000, .f32⟩ : BufTy).Contents (Elt F) → (⟨S500000x1, .i32⟩ : BufTy).Contents (Elt F) → (⟨S500000, .f32⟩ : BufTy).Contents (Elt F) → (⟨S500000, .f32⟩ : BufTy).Contents (Elt F)),
    nullary main_cst_2 (constant S_ .f32 0x00000000#32),
    unary main_cst_2 main_v17 (broadcastInDim S500000 ![] bcast_S_S500000 : (⟨S_, .f32⟩ : BufTy).Contents (Elt F) → (⟨S500000, .f32⟩ : BufTy).Contents (Elt F)),
    binary main_v16 main_v17 main_v18 (cmpf (F := F) .ogt : (⟨S500000, .f32⟩ : BufTy).Contents (Elt F) → (⟨S500000, .f32⟩ : BufTy).Contents (Elt F) → (⟨S500000, .i1⟩ : BufTy).Contents (Elt F)),
    unary main_v16 main_v19 (Host.rsqrt : (⟨S500000, .f32⟩ : BufTy).Contents (Elt F) → (⟨S500000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S500000, .f32⟩) main_call0_v1) (broadcastInDim S500000 ![] bcast_S_S500000),
    TRef.ternary (TRef.of (T := ⟨S500000, .i1⟩) main_v18) (TRef.of (T := ⟨S500000, .f32⟩) main_v19) (TRef.of (T := ⟨S500000, .f32⟩) main_call0_v1) (TRef.of (T := ⟨S500000, .f32⟩) main_v20) select ]
/-- The references they write. -/
abbrev opsB_W : List (Ref sig .tc) := [main_cst, main_v8, main_c, main_v9, main_v10, main_c_0, main_v11, main_v12, main_v13, main_v14, main_cst_1, main_v15, main_v16, main_cst_2, main_v17, main_v18, main_v19, main_cst_3, main_call0_v0, main_call0_v1, main_v20]
theorem opsB_writes : (opsB : List (HloOp τ sig (Elt F))).Forall fun op => op.writes ⊆ (opsB_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sB_v20 (W : Valuation τ sig (Elt F)) (x1 : (⟨S2x500000, .i32⟩ : BufTy).Contents (Elt F))
    (h_v1 : W main_v1 = (val_main_v1 (F := F) x1)) :
    after opsB W main_v20 = (val_main_v20 (F := F) x1) := by
  after_results_simp
  try simp only [TRef.ofBuf, TRef.toBuf, cast_eq]
  rw [h_v1]
  rfl

/-- Operations 29 … 47 of @main, in order. -/
abbrev opsC : List (HloOp τ sig (Elt F)) :=
  [
    nullary main_c_4 (constantI S_ 32 0#32),
    unary main_c_4 main_v21 (broadcastInDim S500000 ![] bcast_S_S500000 : (⟨S_, .i32⟩ : BufTy).Contents (Elt F) → (⟨S500000, .i32⟩ : BufTy).Contents (Elt F)),
    binary main_v1 main_v21 main_v22 (cmpi .slt : (⟨S500000, .i32⟩ : BufTy).Contents (Elt F) → (⟨S500000, .i32⟩ : BufTy).Contents (Elt F) → (⟨S500000, .i1⟩ : BufTy).Contents (Elt F)),
    nullary main_c_5 (constantI S_ 32 500000#32),
    unary main_c_5 main_v23 (broadcastInDim S500000 ![] bcast_S_S500000 : (⟨S_, .i32⟩ : BufTy).Contents (Elt F) → (⟨S500000, .i32⟩ : BufTy).Contents (Elt F)),
    binary main_v1 main_v23 main_v24 (addi : (⟨S500000, .i32⟩ : BufTy).Contents (Elt F) → (⟨S500000, .i32⟩ : BufTy).Contents (Elt F) → (⟨S500000, .i32⟩ : BufTy).Contents (Elt F)),
    ternary main_v22 main_v24 main_v1 main_v25 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v25 main_v26 (broadcastInDim S500000x1 ![0] bcast_S500000_S500000x1_0 : (⟨S500000, .i32⟩ : BufTy).Contents (Elt F) → (⟨S500000x1, .i32⟩ : BufTy).Contents (Elt F)),
    binary main_v20 main_v26 main_v27 ((fun x i => Host.gather gather_S500000_S500000x1_S500000_n_0_n_n_0_1_1 x i) : (⟨S500000, .f32⟩ : BufTy).Contents (Elt F) → (⟨S500000x1, .i32⟩ : BufTy).Contents (Elt F) → (⟨S500000, .f32⟩ : BufTy).Contents (Elt F)),
    nullary main_c_6 (constantI S_ 32 0#32),
    unary main_c_6 main_v28 (broadcastInDim S500000 ![] bcast_S_S500000 : (⟨S_, .i32⟩ : BufTy).Contents (Elt F) → (⟨S500000, .i32⟩ : BufTy).Contents (Elt F)),
    binary main_v3 main_v28 main_v29 (cmpi .slt : (⟨S500000, .i32⟩ : BufTy).Contents (Elt F) → (⟨S500000, .i32⟩ : BufTy).Contents (Elt F) → (⟨S500000, .i1⟩ : BufTy).Contents (Elt F)),
    nullary main_c_7 (constantI S_ 32 500000#32),
    unary main_c_7 main_v30 (broadcastInDim S500000 ![] bcast_S_S500000 : (⟨S_, .i32⟩ : BufTy).Contents (Elt F) → (⟨S500000, .i32⟩ : BufTy).Contents (Elt F)),
    binary main_v3 main_v30 main_v31 (addi : (⟨S500000, .i32⟩ : BufTy).Contents (Elt F) → (⟨S500000, .i32⟩ : BufTy).Contents (Elt F) → (⟨S500000, .i32⟩ : BufTy).Contents (Elt F)),
    ternary main_v29 main_v31 main_v3 main_v32 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v32 main_v33 (broadcastInDim S500000x1 ![0] bcast_S500000_S500000x1_0 : (⟨S500000, .i32⟩ : BufTy).Contents (Elt F) → (⟨S500000x1, .i32⟩ : BufTy).Contents (Elt F)),
    binary main_v20 main_v33 main_v34 ((fun x i => Host.gather gather_S500000_S500000x1_S500000_n_0_n_n_0_1_1 x i) : (⟨S500000, .f32⟩ : BufTy).Contents (Elt F) → (⟨S500000x1, .i32⟩ : BufTy).Contents (Elt F) → (⟨S500000, .f32⟩ : BufTy).Contents (Elt F)),
    binary main_v27 main_v34 main_v35 (mulf : (⟨S500000, .f32⟩ : BufTy).Contents (Elt F) → (⟨S500000, .f32⟩ : BufTy).Contents (Elt F) → (⟨S500000, .f32⟩ : BufTy).Contents (Elt F)) ]
/-- The references they write. -/
abbrev opsC_W : List (Ref sig .tc) := [main_c_4, main_v21, main_v22, main_c_5, main_v23, main_v24, main_v25, main_v26, main_v27, main_c_6, main_v28, main_v29, main_c_7, main_v30, main_v31, main_v32, main_v33, main_v34, main_v35]
theorem opsC_writes : (opsC : List (HloOp τ sig (Elt F))).Forall fun op => op.writes ⊆ (opsC_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sC_v35 (W : Valuation τ sig (Elt F)) (x1 : (⟨S2x500000, .i32⟩ : BufTy).Contents (Elt F))
    (h_v20 : W main_v20 = (val_main_v20 (F := F) x1))
    (h_v1 : W main_v1 = (val_main_v1 (F := F) x1))
    (h_v3 : W main_v3 = (val_main_v3 (F := F) x1)) :
    after opsC W main_v35 = (val_main_v35 (F := F) x1) := by
  after_results_simp
  try simp only [TRef.ofBuf, TRef.toBuf, cast_eq]
  rw [h_v20, h_v1, h_v3]
  rfl

/-- Operations 48 … 70 of @main, in order. -/
abbrev opsD : List (HloOp τ sig (Elt F)) :=
  [
    unary main_v35 main_v36 (broadcastInDim S500000x1 ![0] bcast_S500000_S500000x1_0 : (⟨S500000, .f32⟩ : BufTy).Contents (Elt F) → (⟨S500000x1, .f32⟩ : BufTy).Contents (Elt F)),
    unary main_v36 main_v37 (broadcastInDim S500000x128 ![0, 1] bcast_S500000x1_S500000x128_0_1 : (⟨S500000x1, .f32⟩ : BufTy).Contents (Elt F) → (⟨S500000x128, .f32⟩ : BufTy).Contents (Elt F)),
    binary main_v7 main_v37 main_v38 (mulf : (⟨S500000x128, .f32⟩ : BufTy).Contents (Elt F) → (⟨S500000x128, .f32⟩ : BufTy).Contents (Elt F) → (⟨S500000x128, .f32⟩ : BufTy).Contents (Elt F)),
    nullary main_cst_8 (constant S_ .f32 0x00000000#32),
    unary main_cst_8 main_v39 (broadcastInDim S500000x128 ![] bcast_S_S500000x128 : (⟨S_, .f32⟩ : BufTy).Contents (Elt F) → (⟨S500000x128, .f32⟩ : BufTy).Contents (Elt F)),
    nullary main_c_9 (constantI S_ 32 0#32),
    unary main_c_9 main_v40 (broadcastInDim S500000 ![] bcast_S_S500000 : (⟨S_, .i32⟩ : BufTy).Contents (Elt F) → (⟨S500000, .i32⟩ : BufTy).Contents (Elt F)),
    binary main_v3 main_v40 main_v41 (cmpi .slt : (⟨S500000, .i32⟩ : BufTy).Contents (Elt F) → (⟨S500000, .i32⟩ : BufTy).Contents (Elt F) → (⟨S500000, .i1⟩ : BufTy).Contents (Elt F)),
    nullary main_c_10 (constantI S_ 32 500000#32),
    unary main_c_10 main_v42 (broadcastInDim S500000 ![] bcast_S_S500000 : (⟨S_, .i32⟩ : BufTy).Contents (Elt F) → (⟨S500000, .i32⟩ : BufTy).Contents (Elt F)),
    binary main_v3 main_v42 main_v43 (addi : (⟨S500000, .i32⟩ : BufTy).Contents (Elt F) → (⟨S500000, .i32⟩ : BufTy).Contents (Elt F) → (⟨S500000, .i32⟩ : BufTy).Contents (Elt F)),
    ternary main_v41 main_v43 main_v3 main_v44 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v44 main_v45 (broadcastInDim S500000x1 ![0] bcast_S500000_S500000x1_0 : (⟨S500000, .i32⟩ : BufTy).Contents (Elt F) → (⟨S500000x1, .i32⟩ : BufTy).Contents (Elt F)),
    binary main_v38 main_v45 main_v46 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    nullary main_c_11 (constantI S_ 32 0#32),
    unary main_c_11 main_v47 (broadcastInDim S500000 ![] bcast_S_S500000 : (⟨S_, .i32⟩ : BufTy).Contents (Elt F) → (⟨S500000, .i32⟩ : BufTy).Contents (Elt F)),
    binary main_v1 main_v47 main_v48 (cmpi .slt : (⟨S500000, .i32⟩ : BufTy).Contents (Elt F) → (⟨S500000, .i32⟩ : BufTy).Contents (Elt F) → (⟨S500000, .i1⟩ : BufTy).Contents (Elt F)),
    nullary main_c_12 (constantI S_ 32 500000#32),
    unary main_c_12 main_v49 (broadcastInDim S500000 ![] bcast_S_S500000 : (⟨S_, .i32⟩ : BufTy).Contents (Elt F) → (⟨S500000, .i32⟩ : BufTy).Contents (Elt F)),
    binary main_v1 main_v49 main_v50 (addi : (⟨S500000, .i32⟩ : BufTy).Contents (Elt F) → (⟨S500000, .i32⟩ : BufTy).Contents (Elt F) → (⟨S500000, .i32⟩ : BufTy).Contents (Elt F)),
    ternary main_v48 main_v50 main_v1 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v51 main_v52 (broadcastInDim S500000x1 ![0] bcast_S500000_S500000x1_0 : (⟨S500000, .i32⟩ : BufTy).Contents (Elt F) → (⟨S500000x1, .i32⟩ : BufTy).Contents (Elt F)),
    ternary main_v39 main_v52 main_v46 main_v53 ((fun x i u => Host.scatterAdd scatter_S500000x128_S500000x1_S500000x128_1_0_0_1 x i u) : (⟨S500000x128, .f32⟩ : BufTy).Contents (Elt F) → (⟨S500000x1, .i32⟩ : BufTy).Contents (Elt F) → (⟨S500000x128, .f32⟩ : BufTy).Contents (Elt F) → (⟨S500000x128, .f32⟩ : BufTy).Contents (Elt F)) ]
/-- The references they write. -/
abbrev opsD_W : List (Ref sig .tc) := [main_v36, main_v37, main_v38, main_cst_8, main_v39, main_c_9, main_v40, main_v41, main_c_10, main_v42, main_v43, main_v44, main_v45, main_v46, main_c_11, main_v47, main_v48, main_c_12, main_v49, main_v50, main_v51, main_v52, main_v53]
theorem opsD_writes : (opsD : List (HloOp τ sig (Elt F))).Forall fun op => op.writes ⊆ (opsD_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sD_v53 (W : Valuation τ sig (Elt F)) (x0 : (⟨S500000x128, .f32⟩ : BufTy).Contents (Elt F)) (x1 : (⟨S2x500000, .i32⟩ : BufTy).Contents (Elt F)) (x3 : (⟨S128x128, .f32⟩ : BufTy).Contents (Elt F)) (x4 : (⟨S128, .f32⟩ : BufTy).Contents (Elt F))
    (h_v1 : W main_v1 = (val_main_v1 (F := F) x1))
    (h_v7 : W main_v7 = (val_main_v7 (F := F) x0 x3 x4))
    (h_v35 : W main_v35 = (val_main_v35 (F := F) x1))
    (h_v3 : W main_v3 = (val_main_v3 (F := F) x1)) :
    after opsD W main_v53 = (val_main_v53 (F := F) x0 x1 x3 x4) := by
  after_results_simp
  try simp only [TRef.ofBuf, TRef.toBuf, cast_eq]
  rw [h_v1, h_v7, h_v35, h_v3]
  rfl

/-- Operations 71 … 77 of @main, in order. -/
abbrev opsE : List (HloOp τ sig (Elt F)) :=
  [
    TRef.nullary (TRef.of (T := ⟨S_, .f32⟩) main_call1_cst) (constant S_ .f32 0x00000000#32),
    TRef.unary (TRef.of (T := ⟨S_, .f32⟩) main_call1_cst) (TRef.of (T := ⟨S500000x128, .f32⟩) main_call1_v0) (broadcastInDim S500000x128 ![] bcast_S_S500000x128),
    TRef.binary (TRef.of (T := ⟨S500000x128, .f32⟩) main_v53) (TRef.of (T := ⟨S500000x128, .f32⟩) main_call1_v0) (TRef.of (T := ⟨S500000x128, .f32⟩) main_v54) maximumf,
    binary main_v54 main_arg5 main_v55 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg6 main_v56 (broadcastInDim S1x128 ![1] bcast_S128_S1x128_1 : (⟨S128, .f32⟩ : BufTy).Contents (Elt F) → (⟨S1x128, .f32⟩ : BufTy).Contents (Elt F)),
    unary main_v56 main_v57 (broadcastInDim S500000x128 ![0, 1] bcast_S1x128_S500000x128_0_1 : (⟨S1x128, .f32⟩ : BufTy).Contents (Elt F) → (⟨S500000x128, .f32⟩ : BufTy).Contents (Elt F)),
    binary main_v55 main_v57 main_v58 (addf : (⟨S500000x128, .f32⟩ : BufTy).Contents (Elt F) → (⟨S500000x128, .f32⟩ : BufTy).Contents (Elt F) → (⟨S500000x128, .f32⟩ : BufTy).Contents (Elt F)) ]
/-- The references they write. -/
abbrev opsE_W : List (Ref sig .tc) := [main_call1_cst, main_call1_v0, main_v54, main_v55, main_v56, main_v57, main_v58]
theorem opsE_writes : (opsE : List (HloOp τ sig (Elt F))).Forall fun op => op.writes ⊆ (opsE_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sE_v58 (W : Valuation τ sig (Elt F)) (x0 : (⟨S500000x128, .f32⟩ : BufTy).Contents (Elt F)) (x1 : (⟨S2x500000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h_v53 : W main_v53 = (val_main_v53 (F := F) x0 x1 x3 x4))
    (h_arg5 : W main_arg5 = x5)
    (h_arg6 : W main_arg6 = x6) :
    after opsE W main_v58 = (val_main_v58 (F := F) x0 x1 x3 x4 x5 x6) := by
  after_results_simp
  try simp only [TRef.ofBuf, TRef.toBuf, cast_eq]
  rw [h_v53, h_arg5, h_arg6]
  rfl

/-- Operations 78 … 98 of @main, in order. -/
abbrev opsF : List (HloOp τ sig (Elt F)) :=
  [
    nullary main_cst_13 (constant S_ .f32 0x00000000#32),
    unary main_cst_13 main_v59 (broadcastInDim S500000 ![] bcast_S_S500000 : (⟨S_, .f32⟩ : BufTy).Contents (Elt F) → (⟨S500000, .f32⟩ : BufTy).Contents (Elt F)),
    nullary main_c_14 (constantI S_ 32 0#32),
    unary main_c_14 main_v60 (broadcastInDim S500000 ![] bcast_S_S500000 : (⟨S_, .i32⟩ : BufTy).Contents (Elt F) → (⟨S500000, .i32⟩ : BufTy).Contents (Elt F)),
    binary main_v1 main_v60 main_v61 (cmpi .slt : (⟨S500000, .i32⟩ : BufTy).Contents (Elt F) → (⟨S500000, .i32⟩ : BufTy).Contents (Elt F) → (⟨S500000, .i1⟩ : BufTy).Contents (Elt F)),
    nullary main_c_15 (constantI S_ 32 500000#32),
    unary main_c_15 main_v62 (broadcastInDim S500000 ![] bcast_S_S500000 : (⟨S_, .i32⟩ : BufTy).Contents (Elt F) → (⟨S500000, .i32⟩ : BufTy).Contents (Elt F)),
    binary main_v1 main_v62 main_v63 (addi : (⟨S500000, .i32⟩ : BufTy).Contents (Elt F) → (⟨S500000, .i32⟩ : BufTy).Contents (Elt F) → (⟨S500000, .i32⟩ : BufTy).Contents (Elt F)),
    ternary main_v61 main_v63 main_v1 main_v64 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v64 main_v65 (broadcastInDim S500000x1 ![0] bcast_S500000_S500000x1_0 : (⟨S500000, .i32⟩ : BufTy).Contents (Elt F) → (⟨S500000x1, .i32⟩ : BufTy).Contents (Elt F)),
    nullary main_cst_16 (constant S_ .f32 0x3F800000#32),
    unary main_cst_16 main_v66 (broadcastInDim S500000 ![] bcast_S_S500000 : (⟨S_, .f32⟩ : BufTy).Contents (Elt F) → (⟨S500000, .f32⟩ : BufTy).Contents (Elt F)),
    ternary main_v59 main_v65 main_v66 main_v67 ((fun x i u => Host.scatterAdd scatter_S500000_S500000x1_S500000_n_0_0_1 x i u) : (⟨S500000, .f32⟩ : BufTy).Contents (Elt F) → (⟨S500000x1, .i32⟩ : BufTy).Contents (Elt F) → (⟨S500000, .f32⟩ : BufTy).Contents (Elt F) → (⟨S500000, .f32⟩ : BufTy).Contents (Elt F)),
    nullary main_cst_17 (constant S_ .f32 0x00000000#32),
    unary main_cst_17 main_v68 (broadcastInDim S500000 ![] bcast_S_S500000 : (⟨S_, .f32⟩ : BufTy).Contents (Elt F) → (⟨S500000, .f32⟩ : BufTy).Contents (Elt F)),
    binary main_v67 main_v68 main_v69 (cmpf (F := F) .ogt : (⟨S500000, .f32⟩ : BufTy).Contents (Elt F) → (⟨S500000, .f32⟩ : BufTy).Contents (Elt F) → (⟨S500000, .i1⟩ : BufTy).Contents (Elt F)),
    unary main_v67 main_v70 (Host.rsqrt : (⟨S500000, .f32⟩ : BufTy).Contents (Elt F) → (⟨S500000, .f32⟩ : BufTy).Contents (Elt F)),
    nullary main_cst_18 (constant S_ .f32 0x00000000#32),
    TRef.unary (TRef.of (T := ⟨S_, .f32⟩) main_cst_18) (TRef.of (T := ⟨S_, .f32⟩) main_call2_v0) id,
    TRef.unary (TRef.of (T := ⟨S_, .f32⟩) main_call2_v0) (TRef.of (T := ⟨S500000, .f32⟩) main_call2_v1) (broadcastInDim S500000 ![] bcast_S_S500000),
    TRef.ternary (TRef.of (T := ⟨S500000, .i1⟩) main_v69) (TRef.of (T := ⟨S500000, .f32⟩) main_v70) (TRef.of (T := ⟨S500000, .f32⟩) main_call2_v1) (TRef.of (T := ⟨S500000, .f32⟩) main_v71) select ]
/-- The references they write. -/
abbrev opsF_W : List (Ref sig .tc) := [main_cst_13, main_v59, main_c_14, main_v60, main_v61, main_c_15, main_v62, main_v63, main_v64, main_v65, main_cst_16, main_v66, main_v67, main_cst_17, main_v68, main_v69, main_v70, main_cst_18, main_call2_v0, main_call2_v1, main_v71]
theorem opsF_writes : (opsF : List (HloOp τ sig (Elt F))).Forall fun op => op.writes ⊆ (opsF_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sF_v71 (W : Valuation τ sig (Elt F)) (x1 : (⟨S2x500000, .i32⟩ : BufTy).Contents (Elt F))
    (h_v1 : W main_v1 = (val_main_v1 (F := F) x1)) :
    after opsF W main_v71 = (val_main_v71 (F := F) x1) := by
  after_results_simp
  try simp only [TRef.ofBuf, TRef.toBuf, cast_eq]
  rw [h_v1]
  rfl

/-- Operations 99 … 117 of @main, in order. -/
abbrev opsG : List (HloOp τ sig (Elt F)) :=
  [
    nullary main_c_19 (constantI S_ 32 0#32),
    unary main_c_19 main_v72 (broadcastInDim S500000 ![] bcast_S_S500000 : (⟨S_, .i32⟩ : BufTy).Contents (Elt F) → (⟨S500000, .i32⟩ : BufTy).Contents (Elt F)),
    binary main_v1 main_v72 main_v73 (cmpi .slt : (⟨S500000, .i32⟩ : BufTy).Contents (Elt F) → (⟨S500000, .i32⟩ : BufTy).Contents (Elt F) → (⟨S500000, .i1⟩ : BufTy).Contents (Elt F)),
    nullary main_c_20 (constantI S_ 32 500000#32),
    unary main_c_20 main_v74 (broadcastInDim S500000 ![] bcast_S_S500000 : (⟨S_, .i32⟩ : BufTy).Contents (Elt F) → (⟨S500000, .i32⟩ : BufTy).Contents (Elt F)),
    binary main_v1 main_v74 main_v75 (addi : (⟨S500000, .i32⟩ : BufTy).Contents (Elt F) → (⟨S500000, .i32⟩ : BufTy).Contents (Elt F) → (⟨S500000, .i32⟩ : BufTy).Contents (Elt F)),
    ternary main_v73 main_v75 main_v1 main_v76 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v76 main_v77 (broadcastInDim S500000x1 ![0] bcast_S500000_S500000x1_0 : (⟨S500000, .i32⟩ : BufTy).Contents (Elt F) → (⟨S500000x1, .i32⟩ : BufTy).Contents (Elt F)),
    binary main_v71 main_v77 main_v78 ((fun x i => Host.gather gather_S500000_S500000x1_S500000_n_0_n_n_0_1_1 x i) : (⟨S500000, .f32⟩ : BufTy).Contents (Elt F) → (⟨S500000x1, .i32⟩ : BufTy).Contents (Elt F) → (⟨S500000, .f32⟩ : BufTy).Contents (Elt F)),
    nullary main_c_21 (constantI S_ 32 0#32),
    unary main_c_21 main_v79 (broadcastInDim S500000 ![] bcast_S_S500000 : (⟨S_, .i32⟩ : BufTy).Contents (Elt F) → (⟨S500000, .i32⟩ : BufTy).Contents (Elt F)),
    binary main_v3 main_v79 main_v80 (cmpi .slt : (⟨S500000, .i32⟩ : BufTy).Contents (Elt F) → (⟨S500000, .i32⟩ : BufTy).Contents (Elt F) → (⟨S500000, .i1⟩ : BufTy).Contents (Elt F)),
    nullary main_c_22 (constantI S_ 32 500000#32),
    unary main_c_22 main_v81 (broadcastInDim S500000 ![] bcast_S_S500000 : (⟨S_, .i32⟩ : BufTy).Contents (Elt F) → (⟨S500000, .i32⟩ : BufTy).Contents (Elt F)),
    binary main_v3 main_v81 main_v82 (addi : (⟨S500000, .i32⟩ : BufTy).Contents (Elt F) → (⟨S500000, .i32⟩ : BufTy).Contents (Elt F) → (⟨S500000, .i32⟩ : BufTy).Contents (Elt F)),
    ternary main_v80 main_v82 main_v3 main_v83 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v83 main_v84 (broadcastInDim S500000x1 ![0] bcast_S500000_S500000x1_0 : (⟨S500000, .i32⟩ : BufTy).Contents (Elt F) → (⟨S500000x1, .i32⟩ : BufTy).Contents (Elt F)),
    binary main_v71 main_v84 main_v85 ((fun x i => Host.gather gather_S500000_S500000x1_S500000_n_0_n_n_0_1_1 x i) : (⟨S500000, .f32⟩ : BufTy).Contents (Elt F) → (⟨S500000x1, .i32⟩ : BufTy).Contents (Elt F) → (⟨S500000, .f32⟩ : BufTy).Contents (Elt F)),
    binary main_v78 main_v85 main_v86 (mulf : (⟨S500000, .f32⟩ : BufTy).Contents (Elt F) → (⟨S500000, .f32⟩ : BufTy).Contents (Elt F) → (⟨S500000, .f32⟩ : BufTy).Contents (Elt F)) ]
/-- The references they write. -/
abbrev opsG_W : List (Ref sig .tc) := [main_c_19, main_v72, main_v73, main_c_20, main_v74, main_v75, main_v76, main_v77, main_v78, main_c_21, main_v79, main_v80, main_c_22, main_v81, main_v82, main_v83, main_v84, main_v85, main_v86]
theorem opsG_writes : (opsG : List (HloOp τ sig (Elt F))).Forall fun op => op.writes ⊆ (opsG_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sG_v86 (W : Valuation τ sig (Elt F)) (x1 : (⟨S2x500000, .i32⟩ : BufTy).Contents (Elt F))
    (h_v71 : W main_v71 = (val_main_v71 (F := F) x1))
    (h_v1 : W main_v1 = (val_main_v1 (F := F) x1))
    (h_v3 : W main_v3 = (val_main_v3 (F := F) x1)) :
    after opsG W main_v86 = (val_main_v86 (F := F) x1) := by
  after_results_simp
  try simp only [TRef.ofBuf, TRef.toBuf, cast_eq]
  rw [h_v71, h_v1, h_v3]
  rfl

/-- Operations 118 … 140 of @main, in order. -/
abbrev opsH : List (HloOp τ sig (Elt F)) :=
  [
    unary main_v86 main_v87 (broadcastInDim S500000x1 ![0] bcast_S500000_S500000x1_0 : (⟨S500000, .f32⟩ : BufTy).Contents (Elt F) → (⟨S500000x1, .f32⟩ : BufTy).Contents (Elt F)),
    unary main_v87 main_v88 (broadcastInDim S500000x128 ![0, 1] bcast_S500000x1_S500000x128_0_1 : (⟨S500000x1, .f32⟩ : BufTy).Contents (Elt F) → (⟨S500000x128, .f32⟩ : BufTy).Contents (Elt F)),
    binary main_v58 main_v88 main_v89 (mulf : (⟨S500000x128, .f32⟩ : BufTy).Contents (Elt F) → (⟨S500000x128, .f32⟩ : BufTy).Contents (Elt F) → (⟨S500000x128, .f32⟩ : BufTy).Contents (Elt F)),
    nullary main_cst_23 (constant S_ .f32 0x00000000#32),
    unary main_cst_23 main_v90 (broadcastInDim S500000x128 ![] bcast_S_S500000x128 : (⟨S_, .f32⟩ : BufTy).Contents (Elt F) → (⟨S500000x128, .f32⟩ : BufTy).Contents (Elt F)),
    nullary main_c_24 (constantI S_ 32 0#32),
    unary main_c_24 main_v91 (broadcastInDim S500000 ![] bcast_S_S500000 : (⟨S_, .i32⟩ : BufTy).Contents (Elt F) → (⟨S500000, .i32⟩ : BufTy).Contents (Elt F)),
    binary main_v3 main_v91 main_v92 (cmpi .slt : (⟨S500000, .i32⟩ : BufTy).Contents (Elt F) → (⟨S500000, .i32⟩ : BufTy).Contents (Elt F) → (⟨S500000, .i1⟩ : BufTy).Contents (Elt F)),
    nullary main_c_25 (constantI S_ 32 500000#32),
    unary main_c_25 main_v93 (broadcastInDim S500000 ![] bcast_S_S500000 : (⟨S_, .i32⟩ : BufTy).Contents (Elt F) → (⟨S500000, .i32⟩ : BufTy).Contents (Elt F)),
    binary main_v3 main_v93 main_v94 (addi : (⟨S500000, .i32⟩ : BufTy).Contents (Elt F) → (⟨S500000, .i32⟩ : BufTy).Contents (Elt F) → (⟨S500000, .i32⟩ : BufTy).Contents (Elt F)),
    ternary main_v92 main_v94 main_v3 main_v95 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v95 main_v96 (broadcastInDim S500000x1 ![0] bcast_S500000_S500000x1_0 : (⟨S500000, .i32⟩ : BufTy).Contents (Elt F) → (⟨S500000x1, .i32⟩ : BufTy).Contents (Elt F)),
    binary main_v89 main_v96 main_v97 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    nullary main_c_26 (constantI S_ 32 0#32),
    unary main_c_26 main_v98 (broadcastInDim S500000 ![] bcast_S_S500000 : (⟨S_, .i32⟩ : BufTy).Contents (Elt F) → (⟨S500000, .i32⟩ : BufTy).Contents (Elt F)),
    binary main_v1 main_v98 main_v99 (cmpi .slt : (⟨S500000, .i32⟩ : BufTy).Contents (Elt F) → (⟨S500000, .i32⟩ : BufTy).Contents (Elt F) → (⟨S500000, .i1⟩ : BufTy).Contents (Elt F)),
    nullary main_c_27 (constantI S_ 32 500000#32),
    unary main_c_27 main_v100 (broadcastInDim S500000 ![] bcast_S_S500000 : (⟨S_, .i32⟩ : BufTy).Contents (Elt F) → (⟨S500000, .i32⟩ : BufTy).Contents (Elt F)),
    binary main_v1 main_v100 main_v101 (addi : (⟨S500000, .i32⟩ : BufTy).Contents (Elt F) → (⟨S500000, .i32⟩ : BufTy).Contents (Elt F) → (⟨S500000, .i32⟩ : BufTy).Contents (Elt F)),
    ternary main_v99 main_v101 main_v1 main_v102 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v102 main_v103 (broadcastInDim S500000x1 ![0] bcast_S500000_S500000x1_0 : (⟨S500000, .i32⟩ : BufTy).Contents (Elt F) → (⟨S500000x1, .i32⟩ : BufTy).Contents (Elt F)),
    ternary main_v90 main_v103 main_v97 main_v104 ((fun x i u => Host.scatterAdd scatter_S500000x128_S500000x1_S500000x128_1_0_0_1 x i u) : (⟨S500000x128, .f32⟩ : BufTy).Contents (Elt F) → (⟨S500000x1, .i32⟩ : BufTy).Contents (Elt F) → (⟨S500000x128, .f32⟩ : BufTy).Contents (Elt F) → (⟨S500000x128, .f32⟩ : BufTy).Contents (Elt F)) ]
/-- The references they write. -/
abbrev opsH_W : List (Ref sig .tc) := [main_v87, main_v88, main_v89, main_cst_23, main_v90, main_c_24, main_v91, main_v92, main_c_25, main_v93, main_v94, main_v95, main_v96, main_v97, main_c_26, main_v98, main_v99, main_c_27, main_v100, main_v101, main_v102, main_v103, main_v104]
theorem opsH_writes : (opsH : List (HloOp τ sig (Elt F))).Forall fun op => op.writes ⊆ (opsH_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sH_v104 (W : Valuation τ sig (Elt F)) (x0 : (⟨S500000x128, .f32⟩ : BufTy).Contents (Elt F)) (x1 : (⟨S2x500000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h_v1 : W main_v1 = (val_main_v1 (F := F) x1))
    (h_v58 : W main_v58 = (val_main_v58 (F := F) x0 x1 x3 x4 x5 x6))
    (h_v86 : W main_v86 = (val_main_v86 (F := F) x1))
    (h_v3 : W main_v3 = (val_main_v3 (F := F) x1)) :
    after opsH W main_v104 = (val_main_v104 (F := F) x0 x1 x3 x4 x5 x6) := by
  after_results_simp
  try simp only [TRef.ofBuf, TRef.toBuf, cast_eq]
  rw [h_v1, h_v58, h_v86, h_v3]
  rfl

/-- Operations 141 … 149 of @main, in order. -/
abbrev opsI : List (HloOp τ sig (Elt F)) :=
  [
    TRef.nullary (TRef.of (T := ⟨S_, .f32⟩) main_call3_cst) (constant S_ .f32 0x00000000#32),
    TRef.unary (TRef.of (T := ⟨S_, .f32⟩) main_call3_cst) (TRef.of (T := ⟨S500000x128, .f32⟩) main_call3_v0) (broadcastInDim S500000x128 ![] bcast_S_S500000x128),
    TRef.binary (TRef.of (T := ⟨S500000x128, .f32⟩) main_v104) (TRef.of (T := ⟨S500000x128, .f32⟩) main_call3_v0) (TRef.of (T := ⟨S500000x128, .f32⟩) main_v105) maximumf,
    nullary main_cst_28 (constant S_ .f32 0x00000000#32),
    binary main_v105 main_cst_28 main_v106 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    unary main_v106 main_v107 (broadcastInDim S1x128 ![1] bcast_S128_S1x128_1 : (⟨S128, .f32⟩ : BufTy).Contents (Elt F) → (⟨S1x128, .f32⟩ : BufTy).Contents (Elt F)),
    nullary main_cst_29 (constant S_ .f32 0x48F42400#32),
    unary main_cst_29 main_v108 (broadcastInDim S1x128 ![] bcast_S_S1x128 : (⟨S_, .f32⟩ : BufTy).Contents (Elt F) → (⟨S1x128, .f32⟩ : BufTy).Contents (Elt F)),
    binary main_v107 main_v108 main_v109 (Host.divf : (⟨S1x128, .f32⟩ : BufTy).Contents (Elt F) → (⟨S1x128, .f32⟩ : BufTy).Contents (Elt F) → (⟨S1x128, .f32⟩ : BufTy).Contents (Elt F)) ]
/-- The references they write. -/
abbrev opsI_W : List (Ref sig .tc) := [main_call3_cst, main_call3_v0, main_v105, main_cst_28, main_v106, main_v107, main_cst_29, main_v108, main_v109]
theorem opsI_writes : (opsI : List (HloOp τ sig (Elt F))).Forall fun op => op.writes ⊆ (opsI_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sI_v109 (W : Valuation τ sig (Elt F)) (x0 : (⟨S500000x128, .f32⟩ : BufTy).Contents (Elt F)) (x1 : (⟨S2x500000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h_v104 : W main_v104 = (val_main_v104 (F := F) x0 x1 x3 x4 x5 x6)) :
    after opsI W main_v109 = (val_main_v109 (F := F) x0 x1 x3 x4 x5 x6) := by
  after_results_simp
  try simp only [TRef.ofBuf, TRef.toBuf, cast_eq]
  rw [h_v104]
  rfl

/-- Operations 150 … 164 of @main, in order. -/
abbrev opsJ : List (HloOp τ sig (Elt F)) :=
  [
    binary main_v109 main_arg7 main_v110 ((fun l r => Host.dotGeneral dot_S1x128_S128x32_S1x32_1_0_0_1_n_n none l r) : (⟨S1x128, .f32⟩ : BufTy).Contents (Elt F) → (⟨S128x32, .f32⟩ : BufTy).Contents (Elt F) → (⟨S1x32, .f32⟩ : BufTy).Contents (Elt F)),
    unary main_arg8 main_v111 (broadcastInDim S1x32 ![1] bcast_S32_S1x32_1 : (⟨S32, .f32⟩ : BufTy).Contents (Elt F) → (⟨S1x32, .f32⟩ : BufTy).Contents (Elt F)),
    binary main_v110 main_v111 main_v112 (addf : (⟨S1x32, .f32⟩ : BufTy).Contents (Elt F) → (⟨S1x32, .f32⟩ : BufTy).Contents (Elt F) → (⟨S1x32, .f32⟩ : BufTy).Contents (Elt F)),
    binary main_v109 main_arg9 main_v113 ((fun l r => Host.dotGeneral dot_S1x128_S128x32_S1x32_1_0_0_1_n_n none l r) : (⟨S1x128, .f32⟩ : BufTy).Contents (Elt F) → (⟨S128x32, .f32⟩ : BufTy).Contents (Elt F) → (⟨S1x32, .f32⟩ : BufTy).Contents (Elt F)),
    unary main_arg10 main_v114 (broadcastInDim S1x32 ![1] bcast_S32_S1x32_1 : (⟨S32, .f32⟩ : BufTy).Contents (Elt F) → (⟨S1x32, .f32⟩ : BufTy).Contents (Elt F)),
    binary main_v113 main_v114 main_v115 (addf : (⟨S1x32, .f32⟩ : BufTy).Contents (Elt F) → (⟨S1x32, .f32⟩ : BufTy).Contents (Elt F) → (⟨S1x32, .f32⟩ : BufTy).Contents (Elt F)),
    nullary main_cst_30 (constant S_ .f32 0x3F000000#32),
    unary main_cst_30 main_v116 (broadcastInDim S1x32 ![] bcast_S_S1x32 : (⟨S_, .f32⟩ : BufTy).Contents (Elt F) → (⟨S1x32, .f32⟩ : BufTy).Contents (Elt F)),
    binary main_v116 main_v115 main_v117 (mulf : (⟨S1x32, .f32⟩ : BufTy).Contents (Elt F) → (⟨S1x32, .f32⟩ : BufTy).Contents (Elt F) → (⟨S1x32, .f32⟩ : BufTy).Contents (Elt F)),
    unary main_v117 main_v118 (Host.exp : (⟨S1x32, .f32⟩ : BufTy).Contents (Elt F) → (⟨S1x32, .f32⟩ : BufTy).Contents (Elt F)),
    binary main_arg2 main_v118 main_v119 (mulf : (⟨S1x32, .f32⟩ : BufTy).Contents (Elt F) → (⟨S1x32, .f32⟩ : BufTy).Contents (Elt F) → (⟨S1x32, .f32⟩ : BufTy).Contents (Elt F)),
    binary main_v112 main_v119 main_v120 (addf : (⟨S1x32, .f32⟩ : BufTy).Contents (Elt F) → (⟨S1x32, .f32⟩ : BufTy).Contents (Elt F) → (⟨S1x32, .f32⟩ : BufTy).Contents (Elt F)),
    binary main_v120 main_arg11 main_v121 ((fun l r => Host.dotGeneral dot_S1x32_S32x16_S1x16_1_0_0_1_n_n none l r) : (⟨S1x32, .f32⟩ : BufTy).Contents (Elt F) → (⟨S32x16, .f32⟩ : BufTy).Contents (Elt F) → (⟨S1x16, .f32⟩ : BufTy).Contents (Elt F)),
    unary main_arg12 main_v122 (broadcastInDim S1x16 ![1] bcast_S16_S1x16_1 : (⟨S16, .f32⟩ : BufTy).Contents (Elt F) → (⟨S1x16, .f32⟩ : BufTy).Contents (Elt F)),
    binary main_v121 main_v122 main_v123 (addf : (⟨S1x16, .f32⟩ : BufTy).Contents (Elt F) → (⟨S1x16, .f32⟩ : BufTy).Contents (Elt F) → (⟨S1x16, .f32⟩ : BufTy).Contents (Elt F)) ]
/-- The references they write. -/
abbrev opsJ_W : List (Ref sig .tc) := [main_v110, main_v111, main_v112, main_v113, main_v114, main_v115, main_cst_30, main_v116, main_v117, main_v118, main_v119, main_v120, main_v121, main_v122, main_v123]
theorem opsJ_writes : (opsJ : List (HloOp τ sig (Elt F))).Forall fun op => op.writes ⊆ (opsJ_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sJ_v112 (W : Valuation τ sig (Elt F)) (x0 : (⟨S500000x128, .f32⟩ : BufTy).Contents (Elt F)) (x1 : (⟨S2x500000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x32, .f32⟩ : BufTy).Contents (Elt F)) (x8 : (⟨S32, .f32⟩ : BufTy).Contents (Elt F))
    (h_v109 : W main_v109 = (val_main_v109 (F := F) x0 x1 x3 x4 x5 x6))
    (h_arg7 : W main_arg7 = x7)
    (h_arg8 : W main_arg8 = x8) :
    after opsJ W main_v112 = (val_main_v112 (F := F) x0 x1 x3 x4 x5 x6 x7 x8) := by
  after_results_simp
  try simp only [TRef.ofBuf, TRef.toBuf, cast_eq]
  rw [h_v109, h_arg7, h_arg8]
  rfl

theorem sJ_v115 (W : Valuation τ sig (Elt F)) (x0 : (⟨S500000x128, .f32⟩ : BufTy).Contents (Elt F)) (x1 : (⟨S2x500000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x9 : (⟨S128x32, .f32⟩ : BufTy).Contents (Elt F)) (x10 : (⟨S32, .f32⟩ : BufTy).Contents (Elt F))
    (h_v109 : W main_v109 = (val_main_v109 (F := F) x0 x1 x3 x4 x5 x6))
    (h_arg9 : W main_arg9 = x9)
    (h_arg10 : W main_arg10 = x10) :
    after opsJ W main_v115 = (val_main_v115 (F := F) x0 x1 x3 x4 x5 x6 x9 x10) := by
  after_results_simp
  try simp only [TRef.ofBuf, TRef.toBuf, cast_eq]
  rw [h_v109, h_arg9, h_arg10]
  rfl

theorem sJ_v120 (W : Valuation τ sig (Elt F)) (x0 : (⟨S500000x128, .f32⟩ : BufTy).Contents (Elt F)) (x1 : (⟨S2x500000, .i32⟩ : BufTy).Contents (Elt F)) (x2 : (⟨S1x32, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x32, .f32⟩ : BufTy).Contents (Elt F)) (x8 : (⟨S32, .f32⟩ : BufTy).Contents (Elt F)) (x9 : (⟨S128x32, .f32⟩ : BufTy).Contents (Elt F)) (x10 : (⟨S32, .f32⟩ : BufTy).Contents (Elt F))
    (h_v109 : W main_v109 = (val_main_v109 (F := F) x0 x1 x3 x4 x5 x6))
    (h_arg7 : W main_arg7 = x7)
    (h_arg8 : W main_arg8 = x8)
    (h_arg2 : W main_arg2 = x2)
    (h_arg9 : W main_arg9 = x9)
    (h_arg10 : W main_arg10 = x10) :
    after opsJ W main_v120 = (val_main_v120 (F := F) x0 x1 x2 x3 x4 x5 x6 x7 x8 x9 x10) := by
  after_results_simp
  try simp only [TRef.ofBuf, TRef.toBuf, cast_eq]
  rw [h_v109, h_arg7, h_arg8, h_arg2, h_arg9, h_arg10]
  rfl

theorem sJ_v123 (W : Valuation τ sig (Elt F)) (x0 : (⟨S500000x128, .f32⟩ : BufTy).Contents (Elt F)) (x1 : (⟨S2x500000, .i32⟩ : BufTy).Contents (Elt F)) (x2 : (⟨S1x32, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x32, .f32⟩ : BufTy).Contents (Elt F)) (x8 : (⟨S32, .f32⟩ : BufTy).Contents (Elt F)) (x9 : (⟨S128x32, .f32⟩ : BufTy).Contents (Elt F)) (x10 : (⟨S32, .f32⟩ : BufTy).Contents (Elt F)) (x11 : (⟨S32x16, .f32⟩ : BufTy).Contents (Elt F)) (x12 : (⟨S16, .f32⟩ : BufTy).Contents (Elt F))
    (h_v109 : W main_v109 = (val_main_v109 (F := F) x0 x1 x3 x4 x5 x6))
    (h_arg7 : W main_arg7 = x7)
    (h_arg8 : W main_arg8 = x8)
    (h_arg2 : W main_arg2 = x2)
    (h_arg9 : W main_arg9 = x9)
    (h_arg10 : W main_arg10 = x10)
    (h_arg11 : W main_arg11 = x11)
    (h_arg12 : W main_arg12 = x12) :
    after opsJ W main_v123 = (val_main_v123 (F := F) x0 x1 x2 x3 x4 x5 x6 x7 x8 x9 x10 x11 x12) := by
  after_results_simp
  try simp only [TRef.ofBuf, TRef.toBuf, cast_eq]
  rw [h_v109, h_arg7, h_arg8, h_arg2, h_arg9, h_arg10, h_arg11, h_arg12]
  rfl

/-- Operations 165 … 177 of @main, in order. -/
abbrev opsK : List (HloOp τ sig (Elt F)) :=
  [
    binary main_v120 main_v120 main_v124 ((fun a b => concatenate S1x64 1 [⟨S1x32, a⟩, ⟨S1x32, b⟩] concatenates_S1x32_S1x32_S1x64_d1) : (⟨S1x32, .f32⟩ : BufTy).Contents (Elt F) → (⟨S1x32, .f32⟩ : BufTy).Contents (Elt F) → (⟨S1x64, .f32⟩ : BufTy).Contents (Elt F)),
    unary main_v124 main_v125 (broadcastInDim S500000x64 ![0, 1] bcast_S1x64_S500000x64_0_1 : (⟨S1x64, .f32⟩ : BufTy).Contents (Elt F) → (⟨S500000x64, .f32⟩ : BufTy).Contents (Elt F)),
    binary main_v125 main_arg13 main_v126 ((fun l r => Host.dotGeneral dot_S500000x64_S64x128_S500000x128_1_0_0_1_n_n none l r) : (⟨S500000x64, .f32⟩ : BufTy).Contents (Elt F) → (⟨S64x128, .f32⟩ : BufTy).Contents (Elt F) → (⟨S500000x128, .f32⟩ : BufTy).Contents (Elt F)),
    unary main_arg14 main_v127 (broadcastInDim S1x128 ![1] bcast_S128_S1x128_1 : (⟨S128, .f32⟩ : BufTy).Contents (Elt F) → (⟨S1x128, .f32⟩ : BufTy).Contents (Elt F)),
    unary main_v127 main_v128 (broadcastInDim S500000x128 ![0, 1] bcast_S1x128_S500000x128_0_1 : (⟨S1x128, .f32⟩ : BufTy).Contents (Elt F) → (⟨S500000x128, .f32⟩ : BufTy).Contents (Elt F)),
    binary main_v126 main_v128 main_v129 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S500000x128, .f32⟩) main_call4_v0) (broadcastInDim S500000x128 ![] bcast_S_S500000x128),
    TRef.binary (TRef.of (T := ⟨S500000x128, .f32⟩) main_v129) (TRef.of (T := ⟨S500000x128, .f32⟩) main_call4_v0) (TRef.of (T := ⟨S500000x128, .f32⟩) main_v130) maximumf,
    binary main_v130 main_arg15 main_v131 ((fun l r => Host.dotGeneral dot_S500000x128_S128x4_S500000x4_1_0_0_1_n_n none l r) : (⟨S500000x128, .f32⟩ : BufTy).Contents (Elt F) → (⟨S128x4, .f32⟩ : BufTy).Contents (Elt F) → (⟨S500000x4, .f32⟩ : BufTy).Contents (Elt F)),
    unary main_arg16 main_v132 (broadcastInDim S1x4 ![1] bcast_S4_S1x4_1 : (⟨S4, .f32⟩ : BufTy).Contents (Elt F) → (⟨S1x4, .f32⟩ : BufTy).Contents (Elt F)),
    unary main_v132 main_v133 (broadcastInDim S500000x4 ![0, 1] bcast_S1x4_S500000x4_0_1 : (⟨S1x4, .f32⟩ : BufTy).Contents (Elt F) → (⟨S500000x4, .f32⟩ : BufTy).Contents (Elt F)),
    binary main_v131 main_v133 main_v134 (addf : (⟨S500000x4, .f32⟩ : BufTy).Contents (Elt F) → (⟨S500000x4, .f32⟩ : BufTy).Contents (Elt F) → (⟨S500000x4, .f32⟩ : BufTy).Contents (Elt F)) ]
/-- The references they write. -/
abbrev opsK_W : List (Ref sig .tc) := [main_v124, main_v125, main_v126, main_v127, main_v128, main_v129, main_call4_cst, main_call4_v0, main_v130, main_v131, main_v132, main_v133, main_v134]
theorem opsK_writes : (opsK : List (HloOp τ sig (Elt F))).Forall fun op => op.writes ⊆ (opsK_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem sK_v134 (W : Valuation τ sig (Elt F)) (x0 : (⟨S500000x128, .f32⟩ : BufTy).Contents (Elt F)) (x1 : (⟨S2x500000, .i32⟩ : BufTy).Contents (Elt F)) (x2 : (⟨S1x32, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x32, .f32⟩ : BufTy).Contents (Elt F)) (x8 : (⟨S32, .f32⟩ : BufTy).Contents (Elt F)) (x9 : (⟨S128x32, .f32⟩ : BufTy).Contents (Elt F)) (x10 : (⟨S32, .f32⟩ : BufTy).Contents (Elt F)) (x13 : (⟨S64x128, .f32⟩ : BufTy).Contents (Elt F)) (x14 : (⟨S128, .f32⟩ : BufTy).Contents (Elt F)) (x15 : (⟨S128x4, .f32⟩ : BufTy).Contents (Elt F)) (x16 : (⟨S4, .f32⟩ : BufTy).Contents (Elt F))
    (h_v120 : W main_v120 = (val_main_v120 (F := F) x0 x1 x2 x3 x4 x5 x6 x7 x8 x9 x10))
    (h_arg13 : W main_arg13 = x13)
    (h_arg14 : W main_arg14 = x14)
    (h_arg15 : W main_arg15 = x15)
    (h_arg16 : W main_arg16 = x16) :
    after opsK W main_v134 = (val_main_v134 (F := F) x0 x1 x2 x3 x4 x5 x6 x7 x8 x9 x10 x13 x14 x15 x16) := by
  after_results_simp
  try simp only [TRef.ofBuf, TRef.toBuf, cast_eq]
  rw [h_v120, h_arg13, h_arg14, h_arg15, h_arg16]
  rfl

/-! ## The buffers after each stretch, from arbitrary launch contents `V` -/

section Chain

variable (V : Valuation τ sig (Elt F))

/-- The buffers after the first 1 stretch. -/
abbrev P1 : Valuation τ sig (Elt F) := after opsA V
/-- The buffers after the first 2 stretches. -/
abbrev P2 : Valuation τ sig (Elt F) := after opsB (P1 V)
/-- The buffers after the first 3 stretches. -/
abbrev P3 : Valuation τ sig (Elt F) := after opsC (P2 V)
/-- The buffers after the first 4 stretches. -/
abbrev P4 : Valuation τ sig (Elt F) := after opsD (P3 V)
/-- The buffers after the first 5 stretches. -/
abbrev P5 : Valuation τ sig (Elt F) := after opsE (P4 V)
/-- The buffers after the first 6 stretches. -/
abbrev P6 : Valuation τ sig (Elt F) := after opsF (P5 V)
/-- The buffers after the first 7 stretches. -/
abbrev P7 : Valuation τ sig (Elt F) := after opsG (P6 V)
/-- The buffers after the first 8 stretches. -/
abbrev P8 : Valuation τ sig (Elt F) := after opsH (P7 V)
/-- The buffers after the first 9 stretches. -/
abbrev P9 : Valuation τ sig (Elt F) := after opsI (P8 V)
/-- The buffers after the first 10 stretches. -/
abbrev P10 : Valuation τ sig (Elt F) := after opsJ (P9 V)
/-- The buffers after the first 11 stretches. -/
abbrev P11 : Valuation τ sig (Elt F) := after opsK (P10 V)

/-! ### After stretch A -/

theorem c1_arg0 : P1 V main_arg0 = V main_arg0 :=
  after_of_writes_sub opsA V opsA_writes (by decide)
theorem c1_arg1 : P1 V main_arg1 = V main_arg1 :=
  after_of_writes_sub opsA V opsA_writes (by decide)
theorem c1_arg2 : P1 V main_arg2 = V main_arg2 :=
  after_of_writes_sub opsA V opsA_writes (by decide)
theorem c1_arg3 : P1 V main_arg3 = V main_arg3 :=
  after_of_writes_sub opsA V opsA_writes (by decide)
theorem c1_arg4 : P1 V main_arg4 = V main_arg4 :=
  after_of_writes_sub opsA V opsA_writes (by decide)
theorem c1_arg5 : P1 V main_arg5 = V main_arg5 :=
  after_of_writes_sub opsA V opsA_writes (by decide)
theorem c1_arg6 : P1 V main_arg6 = V main_arg6 :=
  after_of_writes_sub opsA V opsA_writes (by decide)
theorem c1_arg7 : P1 V main_arg7 = V main_arg7 :=
  after_of_writes_sub opsA V opsA_writes (by decide)
theorem c1_arg8 : P1 V main_arg8 = V main_arg8 :=
  after_of_writes_sub opsA V opsA_writes (by decide)
theorem c1_arg9 : P1 V main_arg9 = V main_arg9 :=
  after_of_writes_sub opsA V opsA_writes (by decide)
theorem c1_arg10 : P1 V main_arg10 = V main_arg10 :=
  after_of_writes_sub opsA V opsA_writes (by decide)
theorem c1_arg11 : P1 V main_arg11 = V main_arg11 :=
  after_of_writes_sub opsA V opsA_writes (by decide)
theorem c1_arg12 : P1 V main_arg12 = V main_arg12 :=
  after_of_writes_sub opsA V opsA_writes (by decide)
theorem c1_arg13 : P1 V main_arg13 = V main_arg13 :=
  after_of_writes_sub opsA V opsA_writes (by decide)
theorem c1_arg14 : P1 V main_arg14 = V main_arg14 :=
  after_of_writes_sub opsA V opsA_writes (by decide)
theorem c1_arg15 : P1 V main_arg15 = V main_arg15 :=
  after_of_writes_sub opsA V opsA_writes (by decide)
theorem c1_arg16 : P1 V main_arg16 = V main_arg16 :=
  after_of_writes_sub opsA V opsA_writes (by decide)
theorem c1_v1 : P1 V main_v1 = (val_main_v1 (F := F) (V main_arg1)) :=
  sA_v1 V (V main_arg1) rfl
theorem c1_v3 : P1 V main_v3 = (val_main_v3 (F := F) (V main_arg1)) :=
  sA_v3 V (V main_arg1) rfl
theorem c1_v7 : P1 V main_v7 = (val_main_v7 (F := F) (V main_arg0) (V main_arg3) (V main_arg4)) :=
  sA_v7 V (V main_arg0) (V main_arg3) (V main_arg4) rfl rfl rfl

/-! ### After stretch B -/

theorem c2_arg0 : P2 V main_arg0 = V main_arg0 :=
  (after_of_writes_sub opsB (P1 V) opsB_writes (by decide)).trans (c1_arg0 V)
theorem c2_arg1 : P2 V main_arg1 = V main_arg1 :=
  (after_of_writes_sub opsB (P1 V) opsB_writes (by decide)).trans (c1_arg1 V)
theorem c2_arg2 : P2 V main_arg2 = V main_arg2 :=
  (after_of_writes_sub opsB (P1 V) opsB_writes (by decide)).trans (c1_arg2 V)
theorem c2_arg3 : P2 V main_arg3 = V main_arg3 :=
  (after_of_writes_sub opsB (P1 V) opsB_writes (by decide)).trans (c1_arg3 V)
theorem c2_arg4 : P2 V main_arg4 = V main_arg4 :=
  (after_of_writes_sub opsB (P1 V) opsB_writes (by decide)).trans (c1_arg4 V)
theorem c2_arg5 : P2 V main_arg5 = V main_arg5 :=
  (after_of_writes_sub opsB (P1 V) opsB_writes (by decide)).trans (c1_arg5 V)
theorem c2_arg6 : P2 V main_arg6 = V main_arg6 :=
  (after_of_writes_sub opsB (P1 V) opsB_writes (by decide)).trans (c1_arg6 V)
theorem c2_arg7 : P2 V main_arg7 = V main_arg7 :=
  (after_of_writes_sub opsB (P1 V) opsB_writes (by decide)).trans (c1_arg7 V)
theorem c2_arg8 : P2 V main_arg8 = V main_arg8 :=
  (after_of_writes_sub opsB (P1 V) opsB_writes (by decide)).trans (c1_arg8 V)
theorem c2_arg9 : P2 V main_arg9 = V main_arg9 :=
  (after_of_writes_sub opsB (P1 V) opsB_writes (by decide)).trans (c1_arg9 V)
theorem c2_arg10 : P2 V main_arg10 = V main_arg10 :=
  (after_of_writes_sub opsB (P1 V) opsB_writes (by decide)).trans (c1_arg10 V)
theorem c2_arg11 : P2 V main_arg11 = V main_arg11 :=
  (after_of_writes_sub opsB (P1 V) opsB_writes (by decide)).trans (c1_arg11 V)
theorem c2_arg12 : P2 V main_arg12 = V main_arg12 :=
  (after_of_writes_sub opsB (P1 V) opsB_writes (by decide)).trans (c1_arg12 V)
theorem c2_arg13 : P2 V main_arg13 = V main_arg13 :=
  (after_of_writes_sub opsB (P1 V) opsB_writes (by decide)).trans (c1_arg13 V)
theorem c2_arg14 : P2 V main_arg14 = V main_arg14 :=
  (after_of_writes_sub opsB (P1 V) opsB_writes (by decide)).trans (c1_arg14 V)
theorem c2_arg15 : P2 V main_arg15 = V main_arg15 :=
  (after_of_writes_sub opsB (P1 V) opsB_writes (by decide)).trans (c1_arg15 V)
theorem c2_arg16 : P2 V main_arg16 = V main_arg16 :=
  (after_of_writes_sub opsB (P1 V) opsB_writes (by decide)).trans (c1_arg16 V)
theorem c2_v1 : P2 V main_v1 = (val_main_v1 (F := F) (V main_arg1)) :=
  (after_of_writes_sub opsB (P1 V) opsB_writes (by decide)).trans (c1_v1 V)
theorem c2_v3 : P2 V main_v3 = (val_main_v3 (F := F) (V main_arg1)) :=
  (after_of_writes_sub opsB (P1 V) opsB_writes (by decide)).trans (c1_v3 V)
theorem c2_v7 : P2 V main_v7 = (val_main_v7 (F := F) (V main_arg0) (V main_arg3) (V main_arg4)) :=
  (after_of_writes_sub opsB (P1 V) opsB_writes (by decide)).trans (c1_v7 V)
theorem c2_v20 : P2 V main_v20 = (val_main_v20 (F := F) (V main_arg1)) :=
  sB_v20 (P1 V) (V main_arg1) (c1_v1 V)

/-! ### After stretch C -/

theorem c3_arg0 : P3 V main_arg0 = V main_arg0 :=
  (after_of_writes_sub opsC (P2 V) opsC_writes (by decide)).trans (c2_arg0 V)
theorem c3_arg1 : P3 V main_arg1 = V main_arg1 :=
  (after_of_writes_sub opsC (P2 V) opsC_writes (by decide)).trans (c2_arg1 V)
theorem c3_arg2 : P3 V main_arg2 = V main_arg2 :=
  (after_of_writes_sub opsC (P2 V) opsC_writes (by decide)).trans (c2_arg2 V)
theorem c3_arg3 : P3 V main_arg3 = V main_arg3 :=
  (after_of_writes_sub opsC (P2 V) opsC_writes (by decide)).trans (c2_arg3 V)
theorem c3_arg4 : P3 V main_arg4 = V main_arg4 :=
  (after_of_writes_sub opsC (P2 V) opsC_writes (by decide)).trans (c2_arg4 V)
theorem c3_arg5 : P3 V main_arg5 = V main_arg5 :=
  (after_of_writes_sub opsC (P2 V) opsC_writes (by decide)).trans (c2_arg5 V)
theorem c3_arg6 : P3 V main_arg6 = V main_arg6 :=
  (after_of_writes_sub opsC (P2 V) opsC_writes (by decide)).trans (c2_arg6 V)
theorem c3_arg7 : P3 V main_arg7 = V main_arg7 :=
  (after_of_writes_sub opsC (P2 V) opsC_writes (by decide)).trans (c2_arg7 V)
theorem c3_arg8 : P3 V main_arg8 = V main_arg8 :=
  (after_of_writes_sub opsC (P2 V) opsC_writes (by decide)).trans (c2_arg8 V)
theorem c3_arg9 : P3 V main_arg9 = V main_arg9 :=
  (after_of_writes_sub opsC (P2 V) opsC_writes (by decide)).trans (c2_arg9 V)
theorem c3_arg10 : P3 V main_arg10 = V main_arg10 :=
  (after_of_writes_sub opsC (P2 V) opsC_writes (by decide)).trans (c2_arg10 V)
theorem c3_arg11 : P3 V main_arg11 = V main_arg11 :=
  (after_of_writes_sub opsC (P2 V) opsC_writes (by decide)).trans (c2_arg11 V)
theorem c3_arg12 : P3 V main_arg12 = V main_arg12 :=
  (after_of_writes_sub opsC (P2 V) opsC_writes (by decide)).trans (c2_arg12 V)
theorem c3_arg13 : P3 V main_arg13 = V main_arg13 :=
  (after_of_writes_sub opsC (P2 V) opsC_writes (by decide)).trans (c2_arg13 V)
theorem c3_arg14 : P3 V main_arg14 = V main_arg14 :=
  (after_of_writes_sub opsC (P2 V) opsC_writes (by decide)).trans (c2_arg14 V)
theorem c3_arg15 : P3 V main_arg15 = V main_arg15 :=
  (after_of_writes_sub opsC (P2 V) opsC_writes (by decide)).trans (c2_arg15 V)
theorem c3_arg16 : P3 V main_arg16 = V main_arg16 :=
  (after_of_writes_sub opsC (P2 V) opsC_writes (by decide)).trans (c2_arg16 V)
theorem c3_v1 : P3 V main_v1 = (val_main_v1 (F := F) (V main_arg1)) :=
  (after_of_writes_sub opsC (P2 V) opsC_writes (by decide)).trans (c2_v1 V)
theorem c3_v3 : P3 V main_v3 = (val_main_v3 (F := F) (V main_arg1)) :=
  (after_of_writes_sub opsC (P2 V) opsC_writes (by decide)).trans (c2_v3 V)
theorem c3_v7 : P3 V main_v7 = (val_main_v7 (F := F) (V main_arg0) (V main_arg3) (V main_arg4)) :=
  (after_of_writes_sub opsC (P2 V) opsC_writes (by decide)).trans (c2_v7 V)
theorem c3_v35 : P3 V main_v35 = (val_main_v35 (F := F) (V main_arg1)) :=
  sC_v35 (P2 V) (V main_arg1) (c2_v20 V) (c2_v1 V) (c2_v3 V)

/-! ### After stretch D -/

theorem c4_arg0 : P4 V main_arg0 = V main_arg0 :=
  (after_of_writes_sub opsD (P3 V) opsD_writes (by decide)).trans (c3_arg0 V)
theorem c4_arg1 : P4 V main_arg1 = V main_arg1 :=
  (after_of_writes_sub opsD (P3 V) opsD_writes (by decide)).trans (c3_arg1 V)
theorem c4_arg2 : P4 V main_arg2 = V main_arg2 :=
  (after_of_writes_sub opsD (P3 V) opsD_writes (by decide)).trans (c3_arg2 V)
theorem c4_arg3 : P4 V main_arg3 = V main_arg3 :=
  (after_of_writes_sub opsD (P3 V) opsD_writes (by decide)).trans (c3_arg3 V)
theorem c4_arg4 : P4 V main_arg4 = V main_arg4 :=
  (after_of_writes_sub opsD (P3 V) opsD_writes (by decide)).trans (c3_arg4 V)
theorem c4_arg5 : P4 V main_arg5 = V main_arg5 :=
  (after_of_writes_sub opsD (P3 V) opsD_writes (by decide)).trans (c3_arg5 V)
theorem c4_arg6 : P4 V main_arg6 = V main_arg6 :=
  (after_of_writes_sub opsD (P3 V) opsD_writes (by decide)).trans (c3_arg6 V)
theorem c4_arg7 : P4 V main_arg7 = V main_arg7 :=
  (after_of_writes_sub opsD (P3 V) opsD_writes (by decide)).trans (c3_arg7 V)
theorem c4_arg8 : P4 V main_arg8 = V main_arg8 :=
  (after_of_writes_sub opsD (P3 V) opsD_writes (by decide)).trans (c3_arg8 V)
theorem c4_arg9 : P4 V main_arg9 = V main_arg9 :=
  (after_of_writes_sub opsD (P3 V) opsD_writes (by decide)).trans (c3_arg9 V)
theorem c4_arg10 : P4 V main_arg10 = V main_arg10 :=
  (after_of_writes_sub opsD (P3 V) opsD_writes (by decide)).trans (c3_arg10 V)
theorem c4_arg11 : P4 V main_arg11 = V main_arg11 :=
  (after_of_writes_sub opsD (P3 V) opsD_writes (by decide)).trans (c3_arg11 V)
theorem c4_arg12 : P4 V main_arg12 = V main_arg12 :=
  (after_of_writes_sub opsD (P3 V) opsD_writes (by decide)).trans (c3_arg12 V)
theorem c4_arg13 : P4 V main_arg13 = V main_arg13 :=
  (after_of_writes_sub opsD (P3 V) opsD_writes (by decide)).trans (c3_arg13 V)
theorem c4_arg14 : P4 V main_arg14 = V main_arg14 :=
  (after_of_writes_sub opsD (P3 V) opsD_writes (by decide)).trans (c3_arg14 V)
theorem c4_arg15 : P4 V main_arg15 = V main_arg15 :=
  (after_of_writes_sub opsD (P3 V) opsD_writes (by decide)).trans (c3_arg15 V)
theorem c4_arg16 : P4 V main_arg16 = V main_arg16 :=
  (after_of_writes_sub opsD (P3 V) opsD_writes (by decide)).trans (c3_arg16 V)
theorem c4_v1 : P4 V main_v1 = (val_main_v1 (F := F) (V main_arg1)) :=
  (after_of_writes_sub opsD (P3 V) opsD_writes (by decide)).trans (c3_v1 V)
theorem c4_v3 : P4 V main_v3 = (val_main_v3 (F := F) (V main_arg1)) :=
  (after_of_writes_sub opsD (P3 V) opsD_writes (by decide)).trans (c3_v3 V)
theorem c4_v53 : P4 V main_v53 = (val_main_v53 (F := F) (V main_arg0) (V main_arg1) (V main_arg3) (V main_arg4)) :=
  sD_v53 (P3 V) (V main_arg0) (V main_arg1) (V main_arg3) (V main_arg4) (c3_v1 V) (c3_v7 V) (c3_v35 V) (c3_v3 V)

/-! ### After stretch E -/

theorem c5_arg0 : P5 V main_arg0 = V main_arg0 :=
  (after_of_writes_sub opsE (P4 V) opsE_writes (by decide)).trans (c4_arg0 V)
theorem c5_arg1 : P5 V main_arg1 = V main_arg1 :=
  (after_of_writes_sub opsE (P4 V) opsE_writes (by decide)).trans (c4_arg1 V)
theorem c5_arg2 : P5 V main_arg2 = V main_arg2 :=
  (after_of_writes_sub opsE (P4 V) opsE_writes (by decide)).trans (c4_arg2 V)
theorem c5_arg3 : P5 V main_arg3 = V main_arg3 :=
  (after_of_writes_sub opsE (P4 V) opsE_writes (by decide)).trans (c4_arg3 V)
theorem c5_arg4 : P5 V main_arg4 = V main_arg4 :=
  (after_of_writes_sub opsE (P4 V) opsE_writes (by decide)).trans (c4_arg4 V)
theorem c5_arg5 : P5 V main_arg5 = V main_arg5 :=
  (after_of_writes_sub opsE (P4 V) opsE_writes (by decide)).trans (c4_arg5 V)
theorem c5_arg6 : P5 V main_arg6 = V main_arg6 :=
  (after_of_writes_sub opsE (P4 V) opsE_writes (by decide)).trans (c4_arg6 V)
theorem c5_arg7 : P5 V main_arg7 = V main_arg7 :=
  (after_of_writes_sub opsE (P4 V) opsE_writes (by decide)).trans (c4_arg7 V)
theorem c5_arg8 : P5 V main_arg8 = V main_arg8 :=
  (after_of_writes_sub opsE (P4 V) opsE_writes (by decide)).trans (c4_arg8 V)
theorem c5_arg9 : P5 V main_arg9 = V main_arg9 :=
  (after_of_writes_sub opsE (P4 V) opsE_writes (by decide)).trans (c4_arg9 V)
theorem c5_arg10 : P5 V main_arg10 = V main_arg10 :=
  (after_of_writes_sub opsE (P4 V) opsE_writes (by decide)).trans (c4_arg10 V)
theorem c5_arg11 : P5 V main_arg11 = V main_arg11 :=
  (after_of_writes_sub opsE (P4 V) opsE_writes (by decide)).trans (c4_arg11 V)
theorem c5_arg12 : P5 V main_arg12 = V main_arg12 :=
  (after_of_writes_sub opsE (P4 V) opsE_writes (by decide)).trans (c4_arg12 V)
theorem c5_arg13 : P5 V main_arg13 = V main_arg13 :=
  (after_of_writes_sub opsE (P4 V) opsE_writes (by decide)).trans (c4_arg13 V)
theorem c5_arg14 : P5 V main_arg14 = V main_arg14 :=
  (after_of_writes_sub opsE (P4 V) opsE_writes (by decide)).trans (c4_arg14 V)
theorem c5_arg15 : P5 V main_arg15 = V main_arg15 :=
  (after_of_writes_sub opsE (P4 V) opsE_writes (by decide)).trans (c4_arg15 V)
theorem c5_arg16 : P5 V main_arg16 = V main_arg16 :=
  (after_of_writes_sub opsE (P4 V) opsE_writes (by decide)).trans (c4_arg16 V)
theorem c5_v1 : P5 V main_v1 = (val_main_v1 (F := F) (V main_arg1)) :=
  (after_of_writes_sub opsE (P4 V) opsE_writes (by decide)).trans (c4_v1 V)
theorem c5_v3 : P5 V main_v3 = (val_main_v3 (F := F) (V main_arg1)) :=
  (after_of_writes_sub opsE (P4 V) opsE_writes (by decide)).trans (c4_v3 V)
theorem c5_v58 : P5 V main_v58 = (val_main_v58 (F := F) (V main_arg0) (V main_arg1) (V main_arg3) (V main_arg4) (V main_arg5) (V main_arg6)) :=
  sE_v58 (P4 V) (V main_arg0) (V main_arg1) (V main_arg3) (V main_arg4) (V main_arg5) (V main_arg6) (c4_v53 V) (c4_arg5 V) (c4_arg6 V)

/-! ### After stretch F -/

theorem c6_arg0 : P6 V main_arg0 = V main_arg0 :=
  (after_of_writes_sub opsF (P5 V) opsF_writes (by decide)).trans (c5_arg0 V)
theorem c6_arg1 : P6 V main_arg1 = V main_arg1 :=
  (after_of_writes_sub opsF (P5 V) opsF_writes (by decide)).trans (c5_arg1 V)
theorem c6_arg2 : P6 V main_arg2 = V main_arg2 :=
  (after_of_writes_sub opsF (P5 V) opsF_writes (by decide)).trans (c5_arg2 V)
theorem c6_arg3 : P6 V main_arg3 = V main_arg3 :=
  (after_of_writes_sub opsF (P5 V) opsF_writes (by decide)).trans (c5_arg3 V)
theorem c6_arg4 : P6 V main_arg4 = V main_arg4 :=
  (after_of_writes_sub opsF (P5 V) opsF_writes (by decide)).trans (c5_arg4 V)
theorem c6_arg5 : P6 V main_arg5 = V main_arg5 :=
  (after_of_writes_sub opsF (P5 V) opsF_writes (by decide)).trans (c5_arg5 V)
theorem c6_arg6 : P6 V main_arg6 = V main_arg6 :=
  (after_of_writes_sub opsF (P5 V) opsF_writes (by decide)).trans (c5_arg6 V)
theorem c6_arg7 : P6 V main_arg7 = V main_arg7 :=
  (after_of_writes_sub opsF (P5 V) opsF_writes (by decide)).trans (c5_arg7 V)
theorem c6_arg8 : P6 V main_arg8 = V main_arg8 :=
  (after_of_writes_sub opsF (P5 V) opsF_writes (by decide)).trans (c5_arg8 V)
theorem c6_arg9 : P6 V main_arg9 = V main_arg9 :=
  (after_of_writes_sub opsF (P5 V) opsF_writes (by decide)).trans (c5_arg9 V)
theorem c6_arg10 : P6 V main_arg10 = V main_arg10 :=
  (after_of_writes_sub opsF (P5 V) opsF_writes (by decide)).trans (c5_arg10 V)
theorem c6_arg11 : P6 V main_arg11 = V main_arg11 :=
  (after_of_writes_sub opsF (P5 V) opsF_writes (by decide)).trans (c5_arg11 V)
theorem c6_arg12 : P6 V main_arg12 = V main_arg12 :=
  (after_of_writes_sub opsF (P5 V) opsF_writes (by decide)).trans (c5_arg12 V)
theorem c6_arg13 : P6 V main_arg13 = V main_arg13 :=
  (after_of_writes_sub opsF (P5 V) opsF_writes (by decide)).trans (c5_arg13 V)
theorem c6_arg14 : P6 V main_arg14 = V main_arg14 :=
  (after_of_writes_sub opsF (P5 V) opsF_writes (by decide)).trans (c5_arg14 V)
theorem c6_arg15 : P6 V main_arg15 = V main_arg15 :=
  (after_of_writes_sub opsF (P5 V) opsF_writes (by decide)).trans (c5_arg15 V)
theorem c6_arg16 : P6 V main_arg16 = V main_arg16 :=
  (after_of_writes_sub opsF (P5 V) opsF_writes (by decide)).trans (c5_arg16 V)
theorem c6_v1 : P6 V main_v1 = (val_main_v1 (F := F) (V main_arg1)) :=
  (after_of_writes_sub opsF (P5 V) opsF_writes (by decide)).trans (c5_v1 V)
theorem c6_v3 : P6 V main_v3 = (val_main_v3 (F := F) (V main_arg1)) :=
  (after_of_writes_sub opsF (P5 V) opsF_writes (by decide)).trans (c5_v3 V)
theorem c6_v58 : P6 V main_v58 = (val_main_v58 (F := F) (V main_arg0) (V main_arg1) (V main_arg3) (V main_arg4) (V main_arg5) (V main_arg6)) :=
  (after_of_writes_sub opsF (P5 V) opsF_writes (by decide)).trans (c5_v58 V)
theorem c6_v71 : P6 V main_v71 = (val_main_v71 (F := F) (V main_arg1)) :=
  sF_v71 (P5 V) (V main_arg1) (c5_v1 V)

/-! ### After stretch G -/

theorem c7_arg0 : P7 V main_arg0 = V main_arg0 :=
  (after_of_writes_sub opsG (P6 V) opsG_writes (by decide)).trans (c6_arg0 V)
theorem c7_arg1 : P7 V main_arg1 = V main_arg1 :=
  (after_of_writes_sub opsG (P6 V) opsG_writes (by decide)).trans (c6_arg1 V)
theorem c7_arg2 : P7 V main_arg2 = V main_arg2 :=
  (after_of_writes_sub opsG (P6 V) opsG_writes (by decide)).trans (c6_arg2 V)
theorem c7_arg3 : P7 V main_arg3 = V main_arg3 :=
  (after_of_writes_sub opsG (P6 V) opsG_writes (by decide)).trans (c6_arg3 V)
theorem c7_arg4 : P7 V main_arg4 = V main_arg4 :=
  (after_of_writes_sub opsG (P6 V) opsG_writes (by decide)).trans (c6_arg4 V)
theorem c7_arg5 : P7 V main_arg5 = V main_arg5 :=
  (after_of_writes_sub opsG (P6 V) opsG_writes (by decide)).trans (c6_arg5 V)
theorem c7_arg6 : P7 V main_arg6 = V main_arg6 :=
  (after_of_writes_sub opsG (P6 V) opsG_writes (by decide)).trans (c6_arg6 V)
theorem c7_arg7 : P7 V main_arg7 = V main_arg7 :=
  (after_of_writes_sub opsG (P6 V) opsG_writes (by decide)).trans (c6_arg7 V)
theorem c7_arg8 : P7 V main_arg8 = V main_arg8 :=
  (after_of_writes_sub opsG (P6 V) opsG_writes (by decide)).trans (c6_arg8 V)
theorem c7_arg9 : P7 V main_arg9 = V main_arg9 :=
  (after_of_writes_sub opsG (P6 V) opsG_writes (by decide)).trans (c6_arg9 V)
theorem c7_arg10 : P7 V main_arg10 = V main_arg10 :=
  (after_of_writes_sub opsG (P6 V) opsG_writes (by decide)).trans (c6_arg10 V)
theorem c7_arg11 : P7 V main_arg11 = V main_arg11 :=
  (after_of_writes_sub opsG (P6 V) opsG_writes (by decide)).trans (c6_arg11 V)
theorem c7_arg12 : P7 V main_arg12 = V main_arg12 :=
  (after_of_writes_sub opsG (P6 V) opsG_writes (by decide)).trans (c6_arg12 V)
theorem c7_arg13 : P7 V main_arg13 = V main_arg13 :=
  (after_of_writes_sub opsG (P6 V) opsG_writes (by decide)).trans (c6_arg13 V)
theorem c7_arg14 : P7 V main_arg14 = V main_arg14 :=
  (after_of_writes_sub opsG (P6 V) opsG_writes (by decide)).trans (c6_arg14 V)
theorem c7_arg15 : P7 V main_arg15 = V main_arg15 :=
  (after_of_writes_sub opsG (P6 V) opsG_writes (by decide)).trans (c6_arg15 V)
theorem c7_arg16 : P7 V main_arg16 = V main_arg16 :=
  (after_of_writes_sub opsG (P6 V) opsG_writes (by decide)).trans (c6_arg16 V)
theorem c7_v1 : P7 V main_v1 = (val_main_v1 (F := F) (V main_arg1)) :=
  (after_of_writes_sub opsG (P6 V) opsG_writes (by decide)).trans (c6_v1 V)
theorem c7_v3 : P7 V main_v3 = (val_main_v3 (F := F) (V main_arg1)) :=
  (after_of_writes_sub opsG (P6 V) opsG_writes (by decide)).trans (c6_v3 V)
theorem c7_v58 : P7 V main_v58 = (val_main_v58 (F := F) (V main_arg0) (V main_arg1) (V main_arg3) (V main_arg4) (V main_arg5) (V main_arg6)) :=
  (after_of_writes_sub opsG (P6 V) opsG_writes (by decide)).trans (c6_v58 V)
theorem c7_v86 : P7 V main_v86 = (val_main_v86 (F := F) (V main_arg1)) :=
  sG_v86 (P6 V) (V main_arg1) (c6_v71 V) (c6_v1 V) (c6_v3 V)

/-! ### After stretch H -/

theorem c8_arg0 : P8 V main_arg0 = V main_arg0 :=
  (after_of_writes_sub opsH (P7 V) opsH_writes (by decide)).trans (c7_arg0 V)
theorem c8_arg1 : P8 V main_arg1 = V main_arg1 :=
  (after_of_writes_sub opsH (P7 V) opsH_writes (by decide)).trans (c7_arg1 V)
theorem c8_arg2 : P8 V main_arg2 = V main_arg2 :=
  (after_of_writes_sub opsH (P7 V) opsH_writes (by decide)).trans (c7_arg2 V)
theorem c8_arg3 : P8 V main_arg3 = V main_arg3 :=
  (after_of_writes_sub opsH (P7 V) opsH_writes (by decide)).trans (c7_arg3 V)
theorem c8_arg4 : P8 V main_arg4 = V main_arg4 :=
  (after_of_writes_sub opsH (P7 V) opsH_writes (by decide)).trans (c7_arg4 V)
theorem c8_arg5 : P8 V main_arg5 = V main_arg5 :=
  (after_of_writes_sub opsH (P7 V) opsH_writes (by decide)).trans (c7_arg5 V)
theorem c8_arg6 : P8 V main_arg6 = V main_arg6 :=
  (after_of_writes_sub opsH (P7 V) opsH_writes (by decide)).trans (c7_arg6 V)
theorem c8_arg7 : P8 V main_arg7 = V main_arg7 :=
  (after_of_writes_sub opsH (P7 V) opsH_writes (by decide)).trans (c7_arg7 V)
theorem c8_arg8 : P8 V main_arg8 = V main_arg8 :=
  (after_of_writes_sub opsH (P7 V) opsH_writes (by decide)).trans (c7_arg8 V)
theorem c8_arg9 : P8 V main_arg9 = V main_arg9 :=
  (after_of_writes_sub opsH (P7 V) opsH_writes (by decide)).trans (c7_arg9 V)
theorem c8_arg10 : P8 V main_arg10 = V main_arg10 :=
  (after_of_writes_sub opsH (P7 V) opsH_writes (by decide)).trans (c7_arg10 V)
theorem c8_arg11 : P8 V main_arg11 = V main_arg11 :=
  (after_of_writes_sub opsH (P7 V) opsH_writes (by decide)).trans (c7_arg11 V)
theorem c8_arg12 : P8 V main_arg12 = V main_arg12 :=
  (after_of_writes_sub opsH (P7 V) opsH_writes (by decide)).trans (c7_arg12 V)
theorem c8_arg13 : P8 V main_arg13 = V main_arg13 :=
  (after_of_writes_sub opsH (P7 V) opsH_writes (by decide)).trans (c7_arg13 V)
theorem c8_arg14 : P8 V main_arg14 = V main_arg14 :=
  (after_of_writes_sub opsH (P7 V) opsH_writes (by decide)).trans (c7_arg14 V)
theorem c8_arg15 : P8 V main_arg15 = V main_arg15 :=
  (after_of_writes_sub opsH (P7 V) opsH_writes (by decide)).trans (c7_arg15 V)
theorem c8_arg16 : P8 V main_arg16 = V main_arg16 :=
  (after_of_writes_sub opsH (P7 V) opsH_writes (by decide)).trans (c7_arg16 V)
theorem c8_v104 : P8 V main_v104 = (val_main_v104 (F := F) (V main_arg0) (V main_arg1) (V main_arg3) (V main_arg4) (V main_arg5) (V main_arg6)) :=
  sH_v104 (P7 V) (V main_arg0) (V main_arg1) (V main_arg3) (V main_arg4) (V main_arg5) (V main_arg6) (c7_v1 V) (c7_v58 V) (c7_v86 V) (c7_v3 V)

/-! ### After stretch I -/

theorem c9_arg0 : P9 V main_arg0 = V main_arg0 :=
  (after_of_writes_sub opsI (P8 V) opsI_writes (by decide)).trans (c8_arg0 V)
theorem c9_arg1 : P9 V main_arg1 = V main_arg1 :=
  (after_of_writes_sub opsI (P8 V) opsI_writes (by decide)).trans (c8_arg1 V)
theorem c9_arg2 : P9 V main_arg2 = V main_arg2 :=
  (after_of_writes_sub opsI (P8 V) opsI_writes (by decide)).trans (c8_arg2 V)
theorem c9_arg3 : P9 V main_arg3 = V main_arg3 :=
  (after_of_writes_sub opsI (P8 V) opsI_writes (by decide)).trans (c8_arg3 V)
theorem c9_arg4 : P9 V main_arg4 = V main_arg4 :=
  (after_of_writes_sub opsI (P8 V) opsI_writes (by decide)).trans (c8_arg4 V)
theorem c9_arg5 : P9 V main_arg5 = V main_arg5 :=
  (after_of_writes_sub opsI (P8 V) opsI_writes (by decide)).trans (c8_arg5 V)
theorem c9_arg6 : P9 V main_arg6 = V main_arg6 :=
  (after_of_writes_sub opsI (P8 V) opsI_writes (by decide)).trans (c8_arg6 V)
theorem c9_arg7 : P9 V main_arg7 = V main_arg7 :=
  (after_of_writes_sub opsI (P8 V) opsI_writes (by decide)).trans (c8_arg7 V)
theorem c9_arg8 : P9 V main_arg8 = V main_arg8 :=
  (after_of_writes_sub opsI (P8 V) opsI_writes (by decide)).trans (c8_arg8 V)
theorem c9_arg9 : P9 V main_arg9 = V main_arg9 :=
  (after_of_writes_sub opsI (P8 V) opsI_writes (by decide)).trans (c8_arg9 V)
theorem c9_arg10 : P9 V main_arg10 = V main_arg10 :=
  (after_of_writes_sub opsI (P8 V) opsI_writes (by decide)).trans (c8_arg10 V)
theorem c9_arg11 : P9 V main_arg11 = V main_arg11 :=
  (after_of_writes_sub opsI (P8 V) opsI_writes (by decide)).trans (c8_arg11 V)
theorem c9_arg12 : P9 V main_arg12 = V main_arg12 :=
  (after_of_writes_sub opsI (P8 V) opsI_writes (by decide)).trans (c8_arg12 V)
theorem c9_arg13 : P9 V main_arg13 = V main_arg13 :=
  (after_of_writes_sub opsI (P8 V) opsI_writes (by decide)).trans (c8_arg13 V)
theorem c9_arg14 : P9 V main_arg14 = V main_arg14 :=
  (after_of_writes_sub opsI (P8 V) opsI_writes (by decide)).trans (c8_arg14 V)
theorem c9_arg15 : P9 V main_arg15 = V main_arg15 :=
  (after_of_writes_sub opsI (P8 V) opsI_writes (by decide)).trans (c8_arg15 V)
theorem c9_arg16 : P9 V main_arg16 = V main_arg16 :=
  (after_of_writes_sub opsI (P8 V) opsI_writes (by decide)).trans (c8_arg16 V)
theorem c9_v109 : P9 V main_v109 = (val_main_v109 (F := F) (V main_arg0) (V main_arg1) (V main_arg3) (V main_arg4) (V main_arg5) (V main_arg6)) :=
  sI_v109 (P8 V) (V main_arg0) (V main_arg1) (V main_arg3) (V main_arg4) (V main_arg5) (V main_arg6) (c8_v104 V)

/-! ### After stretch J -/

theorem c10_arg0 : P10 V main_arg0 = V main_arg0 :=
  (after_of_writes_sub opsJ (P9 V) opsJ_writes (by decide)).trans (c9_arg0 V)
theorem c10_arg1 : P10 V main_arg1 = V main_arg1 :=
  (after_of_writes_sub opsJ (P9 V) opsJ_writes (by decide)).trans (c9_arg1 V)
theorem c10_arg2 : P10 V main_arg2 = V main_arg2 :=
  (after_of_writes_sub opsJ (P9 V) opsJ_writes (by decide)).trans (c9_arg2 V)
theorem c10_arg3 : P10 V main_arg3 = V main_arg3 :=
  (after_of_writes_sub opsJ (P9 V) opsJ_writes (by decide)).trans (c9_arg3 V)
theorem c10_arg4 : P10 V main_arg4 = V main_arg4 :=
  (after_of_writes_sub opsJ (P9 V) opsJ_writes (by decide)).trans (c9_arg4 V)
theorem c10_arg5 : P10 V main_arg5 = V main_arg5 :=
  (after_of_writes_sub opsJ (P9 V) opsJ_writes (by decide)).trans (c9_arg5 V)
theorem c10_arg6 : P10 V main_arg6 = V main_arg6 :=
  (after_of_writes_sub opsJ (P9 V) opsJ_writes (by decide)).trans (c9_arg6 V)
theorem c10_arg7 : P10 V main_arg7 = V main_arg7 :=
  (after_of_writes_sub opsJ (P9 V) opsJ_writes (by decide)).trans (c9_arg7 V)
theorem c10_arg8 : P10 V main_arg8 = V main_arg8 :=
  (after_of_writes_sub opsJ (P9 V) opsJ_writes (by decide)).trans (c9_arg8 V)
theorem c10_arg9 : P10 V main_arg9 = V main_arg9 :=
  (after_of_writes_sub opsJ (P9 V) opsJ_writes (by decide)).trans (c9_arg9 V)
theorem c10_arg10 : P10 V main_arg10 = V main_arg10 :=
  (after_of_writes_sub opsJ (P9 V) opsJ_writes (by decide)).trans (c9_arg10 V)
theorem c10_arg11 : P10 V main_arg11 = V main_arg11 :=
  (after_of_writes_sub opsJ (P9 V) opsJ_writes (by decide)).trans (c9_arg11 V)
theorem c10_arg12 : P10 V main_arg12 = V main_arg12 :=
  (after_of_writes_sub opsJ (P9 V) opsJ_writes (by decide)).trans (c9_arg12 V)
theorem c10_arg13 : P10 V main_arg13 = V main_arg13 :=
  (after_of_writes_sub opsJ (P9 V) opsJ_writes (by decide)).trans (c9_arg13 V)
theorem c10_arg14 : P10 V main_arg14 = V main_arg14 :=
  (after_of_writes_sub opsJ (P9 V) opsJ_writes (by decide)).trans (c9_arg14 V)
theorem c10_arg15 : P10 V main_arg15 = V main_arg15 :=
  (after_of_writes_sub opsJ (P9 V) opsJ_writes (by decide)).trans (c9_arg15 V)
theorem c10_arg16 : P10 V main_arg16 = V main_arg16 :=
  (after_of_writes_sub opsJ (P9 V) opsJ_writes (by decide)).trans (c9_arg16 V)
theorem c10_v112 : P10 V main_v112 = (val_main_v112 (F := F) (V main_arg0) (V main_arg1) (V main_arg3) (V main_arg4) (V main_arg5) (V main_arg6) (V main_arg7) (V main_arg8)) :=
  sJ_v112 (P9 V) (V main_arg0) (V main_arg1) (V main_arg3) (V main_arg4) (V main_arg5) (V main_arg6) (V main_arg7) (V main_arg8) (c9_v109 V) (c9_arg7 V) (c9_arg8 V)
theorem c10_v115 : P10 V main_v115 = (val_main_v115 (F := F) (V main_arg0) (V main_arg1) (V main_arg3) (V main_arg4) (V main_arg5) (V main_arg6) (V main_arg9) (V main_arg10)) :=
  sJ_v115 (P9 V) (V main_arg0) (V main_arg1) (V main_arg3) (V main_arg4) (V main_arg5) (V main_arg6) (V main_arg9) (V main_arg10) (c9_v109 V) (c9_arg9 V) (c9_arg10 V)
theorem c10_v120 : P10 V main_v120 = (val_main_v120 (F := F) (V main_arg0) (V main_arg1) (V main_arg2) (V main_arg3) (V main_arg4) (V main_arg5) (V main_arg6) (V main_arg7) (V main_arg8) (V main_arg9) (V main_arg10)) :=
  sJ_v120 (P9 V) (V main_arg0) (V main_arg1) (V main_arg2) (V main_arg3) (V main_arg4) (V main_arg5) (V main_arg6) (V main_arg7) (V main_arg8) (V main_arg9) (V main_arg10) (c9_v109 V) (c9_arg7 V) (c9_arg8 V) (c9_arg2 V) (c9_arg9 V) (c9_arg10 V)
theorem c10_v123 : P10 V main_v123 = (val_main_v123 (F := F) (V main_arg0) (V main_arg1) (V main_arg2) (V main_arg3) (V main_arg4) (V main_arg5) (V main_arg6) (V main_arg7) (V main_arg8) (V main_arg9) (V main_arg10) (V main_arg11) (V main_arg12)) :=
  sJ_v123 (P9 V) (V main_arg0) (V main_arg1) (V main_arg2) (V main_arg3) (V main_arg4) (V main_arg5) (V main_arg6) (V main_arg7) (V main_arg8) (V main_arg9) (V main_arg10) (V main_arg11) (V main_arg12) (c9_v109 V) (c9_arg7 V) (c9_arg8 V) (c9_arg2 V) (c9_arg9 V) (c9_arg10 V) (c9_arg11 V) (c9_arg12 V)

/-! ### After stretch K -/

theorem c11_arg0 : P11 V main_arg0 = V main_arg0 :=
  (after_of_writes_sub opsK (P10 V) opsK_writes (by decide)).trans (c10_arg0 V)
theorem c11_arg1 : P11 V main_arg1 = V main_arg1 :=
  (after_of_writes_sub opsK (P10 V) opsK_writes (by decide)).trans (c10_arg1 V)
theorem c11_arg2 : P11 V main_arg2 = V main_arg2 :=
  (after_of_writes_sub opsK (P10 V) opsK_writes (by decide)).trans (c10_arg2 V)
theorem c11_arg3 : P11 V main_arg3 = V main_arg3 :=
  (after_of_writes_sub opsK (P10 V) opsK_writes (by decide)).trans (c10_arg3 V)
theorem c11_arg4 : P11 V main_arg4 = V main_arg4 :=
  (after_of_writes_sub opsK (P10 V) opsK_writes (by decide)).trans (c10_arg4 V)
theorem c11_arg5 : P11 V main_arg5 = V main_arg5 :=
  (after_of_writes_sub opsK (P10 V) opsK_writes (by decide)).trans (c10_arg5 V)
theorem c11_arg6 : P11 V main_arg6 = V main_arg6 :=
  (after_of_writes_sub opsK (P10 V) opsK_writes (by decide)).trans (c10_arg6 V)
theorem c11_arg7 : P11 V main_arg7 = V main_arg7 :=
  (after_of_writes_sub opsK (P10 V) opsK_writes (by decide)).trans (c10_arg7 V)
theorem c11_arg8 : P11 V main_arg8 = V main_arg8 :=
  (after_of_writes_sub opsK (P10 V) opsK_writes (by decide)).trans (c10_arg8 V)
theorem c11_arg9 : P11 V main_arg9 = V main_arg9 :=
  (after_of_writes_sub opsK (P10 V) opsK_writes (by decide)).trans (c10_arg9 V)
theorem c11_arg10 : P11 V main_arg10 = V main_arg10 :=
  (after_of_writes_sub opsK (P10 V) opsK_writes (by decide)).trans (c10_arg10 V)
theorem c11_arg11 : P11 V main_arg11 = V main_arg11 :=
  (after_of_writes_sub opsK (P10 V) opsK_writes (by decide)).trans (c10_arg11 V)
theorem c11_arg12 : P11 V main_arg12 = V main_arg12 :=
  (after_of_writes_sub opsK (P10 V) opsK_writes (by decide)).trans (c10_arg12 V)
theorem c11_arg13 : P11 V main_arg13 = V main_arg13 :=
  (after_of_writes_sub opsK (P10 V) opsK_writes (by decide)).trans (c10_arg13 V)
theorem c11_arg14 : P11 V main_arg14 = V main_arg14 :=
  (after_of_writes_sub opsK (P10 V) opsK_writes (by decide)).trans (c10_arg14 V)
theorem c11_arg15 : P11 V main_arg15 = V main_arg15 :=
  (after_of_writes_sub opsK (P10 V) opsK_writes (by decide)).trans (c10_arg15 V)
theorem c11_arg16 : P11 V main_arg16 = V main_arg16 :=
  (after_of_writes_sub opsK (P10 V) opsK_writes (by decide)).trans (c10_arg16 V)
theorem c11_v112 : P11 V main_v112 = (val_main_v112 (F := F) (V main_arg0) (V main_arg1) (V main_arg3) (V main_arg4) (V main_arg5) (V main_arg6) (V main_arg7) (V main_arg8)) :=
  (after_of_writes_sub opsK (P10 V) opsK_writes (by decide)).trans (c10_v112 V)
theorem c11_v115 : P11 V main_v115 = (val_main_v115 (F := F) (V main_arg0) (V main_arg1) (V main_arg3) (V main_arg4) (V main_arg5) (V main_arg6) (V main_arg9) (V main_arg10)) :=
  (after_of_writes_sub opsK (P10 V) opsK_writes (by decide)).trans (c10_v115 V)
theorem c11_v123 : P11 V main_v123 = (val_main_v123 (F := F) (V main_arg0) (V main_arg1) (V main_arg2) (V main_arg3) (V main_arg4) (V main_arg5) (V main_arg6) (V main_arg7) (V main_arg8) (V main_arg9) (V main_arg10) (V main_arg11) (V main_arg12)) :=
  (after_of_writes_sub opsK (P10 V) opsK_writes (by decide)).trans (c10_v123 V)
theorem c11_v134 : P11 V main_v134 = (val_main_v134 (F := F) (V main_arg0) (V main_arg1) (V main_arg2) (V main_arg3) (V main_arg4) (V main_arg5) (V main_arg6) (V main_arg7) (V main_arg8) (V main_arg9) (V main_arg10) (V main_arg13) (V main_arg14) (V main_arg15) (V main_arg16)) :=
  sK_v134 (P10 V) (V main_arg0) (V main_arg1) (V main_arg2) (V main_arg3) (V main_arg4) (V main_arg5) (V main_arg6) (V main_arg7) (V main_arg8) (V main_arg9) (V main_arg10) (V main_arg13) (V main_arg14) (V main_arg15) (V main_arg16) (c10_v120 V) (c10_arg13 V) (c10_arg14 V) (c10_arg15 V) (c10_arg16 V)

end Chain

/-! ## The whole line is the stretches in a row -/

set_option maxHeartbeats 4000000 in
theorem ops_cut : (ops : List (HloOp τ sig (Elt F))) = opsA ++ (opsB ++ (opsC ++ (opsD ++ (opsE ++ (opsF ++ (opsG ++ (opsH ++ (opsI ++ (opsJ ++ (opsK)))))))))) := rfl

set_option maxHeartbeats 4000000 in
/-- Every operation determines its results. -/
theorem ops_fresh : (ops : List (HloOp τ sig (Elt F))).Forall fun op => op.fresh = ∅ := by
  simp only [List.Forall]; repeat' constructor

theorem after_ops (V : Valuation τ sig (Elt F)) : after ops V = P11 V := by
  rw [ops_cut]
  simp only [StableHlo.after_append] <;> rfl

/-! ## The run -/

/-- At the ideal values, on every device, from any memory with zero counters: every weakly fair execution of the
    reference program terminates with its four results at their stages of the arguments and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v123) = val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v134) = val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v112) = val_main_v112 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v115) = val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v123).trans ((congrFun (after_ops _) _).trans (c11_v123 (launchContents m c))),
      (h c main_v134).trans ((congrFun (after_ops _) _).trans (c11_v134 (launchContents m c))),
      (h c main_v112).trans ((congrFun (after_ops _) _).trans (c11_v112 (launchContents m c))),
      (h c main_v115).trans ((congrFun (after_ops _) _).trans (c11_v115 (launchContents m c))),
      (h c main_arg0).trans ((congrFun (after_ops _) _).trans (c11_arg0 (launchContents m c))),
      (h c main_arg1).trans ((congrFun (after_ops _) _).trans (c11_arg1 (launchContents m c))),
      (h c main_arg2).trans ((congrFun (after_ops _) _).trans (c11_arg2 (launchContents m c))),
      (h c main_arg3).trans ((congrFun (after_ops _) _).trans (c11_arg3 (launchContents m c))),
      (h c main_arg4).trans ((congrFun (after_ops _) _).trans (c11_arg4 (launchContents m c))),
      (h c main_arg5).trans ((congrFun (after_ops _) _).trans (c11_arg5 (launchContents m c))),
      (h c main_arg6).trans ((congrFun (after_ops _) _).trans (c11_arg6 (launchContents m c))),
      (h c main_arg7).trans ((congrFun (after_ops _) _).trans (c11_arg7 (launchContents m c))),
      (h c main_arg8).trans ((congrFun (after_ops _) _).trans (c11_arg8 (launchContents m c))),
      (h c main_arg9).trans ((congrFun (after_ops _) _).trans (c11_arg9 (launchContents m c))),
      (h c main_arg10).trans ((congrFun (after_ops _) _).trans (c11_arg10 (launchContents m c))),
      (h c main_arg11).trans ((congrFun (after_ops _) _).trans (c11_arg11 (launchContents m c))),
      (h c main_arg12).trans ((congrFun (after_ops _) _).trans (c11_arg12 (launchContents m c))),
      (h c main_arg13).trans ((congrFun (after_ops _) _).trans (c11_arg13 (launchContents m c))),
      (h c main_arg14).trans ((congrFun (after_ops _) _).trans (c11_arg14 (launchContents m c))),
      (h c main_arg15).trans ((congrFun (after_ops _) _).trans (c11_arg15 (launchContents m c))),
      (h c main_arg16).trans ((congrFun (after_ops _) _).trans (c11_arg16 (launchContents m c)))⟩)
    (run_seq scopedRefs_eq scopedSems_eq defs main (fun _ => ops) main_eq (fun _ => ops_sub) m ρ
      (fun _ => List.forall_iff_forall_mem.1 ops_fresh))

end Cert.Bridge

end
-- ==== Proof.lean ====
/-
  The certificate of a two-layer graph convolution with a mean read-out and a small dense decoder, against its
  jnp reference, over the extended reals.

  Kernel program: each layer is a row-blocked linear map `x · W + b` (the second applies `max(·, 0)` to its input
  as it loads it) run as a pipelined region over fifty blocks of 10000 rows; between the regions the host gathers
  rows at the column indices, scales them by the symmetric degree weights and scatter-adds them along the row
  indices; a third region sums `max(·, 0)` of the second aggregate over all rows into an accumulator carried from
  block to block and scales by the named reciprocal of the row count; the decoder acts on that single row, and the
  edge logits are its one output row repeated for every edge.
  Reference: the same layers with whole-array matrix products, the weights applied before the gather, the mean as
  a sum divided by the row count, and the edge decoder run on every (identical) row.

  The two agree where the column indices lie in `[0, N)` — elsewhere `take` fills where plain indexing clamps —:
  the precondition's last conjunct. The frames of the two kernel programs come from one region record per
  pallas_call; the reference's from its run, read back stretch by stretch.
-/
import proofs.«426033_j56573309223970_1_alg».proof.Defs
import proofs.«426033_j56573309223970_1_alg».proof.Proof.Gen.Kernel
import proofs.«426033_j56573309223970_1_alg».proof.Proof.Gen.KernelIdeal
import proofs.«426033_j56573309223970_1_alg».proof.Proof.Gen.ReferenceIdeal
import proofs.«426033_j56573309223970_1_alg».proof.Proof.Gen.Pre_finite_inputs
import proofs.«426033_j56573309223970_1_alg».proof.Proof.K.Run
import proofs.«426033_j56573309223970_1_alg».proof.Proof.KI.Run
import proofs.«426033_j56573309223970_1_alg».proof.Proof.Val.KValue
import proofs.«426033_j56573309223970_1_alg».proof.Proof.Val.Results
import proofs.«426033_j56573309223970_1_alg».proof.Proof.Val.RefRun
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the results dropped. -/
theorem frame_ri : Cert.frame_ReferenceIdeal := fun m ρ _ =>
  (θ_run Cert.ReferenceIdeal.defs _ _).mono (fun _ h c => (h c).2.2.2.2) (Cert.Bridge.ref_run m ρ)

/-- The one rewrite of the ideal pass: the reciprocal of the row count, named, is `1/500000`. -/
theorem preserves : Cert.preserves_Kernel_KernelIdeal :=
  IdealRules.named_const.statement Cert.KernelIdeal.κ "inv_500000" .f32 0x360637BD#32 ((1 / 500000 : ℝ) : EReal) rfl

/-- From memories that agree on the arguments both idealized programs run, and end with equal results. -/
theorem algebraic : Cert.algebraic_KernelIdeal_ReferenceIdeal := by
  intro m ρ m' ρ' hpre hagree
  refine ⟨fun c => Cert.KernelIdeal.Gen.V15 m (Cert.KernelIdeal.Hand.outs m) c Cert.KernelIdeal.main_v75,
    fun c => Cert.KernelIdeal.Gen.V15 m (Cert.KernelIdeal.Hand.outs m) c Cert.KernelIdeal.main_v84,
    fun c => Cert.KernelIdeal.Gen.V15 m (Cert.KernelIdeal.Hand.outs m) c Cert.KernelIdeal.main_v64,
    fun c => Cert.KernelIdeal.Gen.V15 m (Cert.KernelIdeal.Hand.outs m) c Cert.KernelIdeal.main_v67, ?_, ?_⟩
  · exact Cert.KernelIdeal.Hand.run_results m ρ
  · refine (θ_run Cert.ReferenceIdeal.defs _ _).mono (fun _ h c => ⟨(h c).1.trans ?_, (h c).2.1.trans ?_, (h c).2.2.1.trans ?_,
      (h c).2.2.2.1.trans ?_, (h c).2.2.2.2⟩) (Cert.Bridge.ref_run m' ρ')
    · exact Cert.Bridge.result0 m m' c (hpre c) (hagree c)
    · exact Cert.Bridge.result1 m m' c (hpre c) (hagree c)
    · exact Cert.Bridge.result2 m m' c (hpre c) (hagree c)
    · exact Cert.Bridge.result3 m m' c (hpre c) (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
